-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x8192 : Shape := ⟨2, ![512, 8192]⟩
abbrev S16x512 : Shape := ⟨2, ![16, 512]⟩
abbrev S512x128 : Shape := ⟨2, ![512, 128]⟩
abbrev S512x64 : Shape := ⟨2, ![512, 64]⟩
abbrev S512x1 : Shape := ⟨2, ![512, 1]⟩
abbrev S64x1024 : Shape := ⟨2, ![64, 1024]⟩
abbrev S512x1024 : Shape := ⟨2, ![512, 1024]⟩
abbrev S512 : Shape := ⟨1, ![512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | .local _ .vmem, ⟨8, _⟩ => ⟨S512x8192, .bf16⟩
  | .local _ .vmem, ⟨9, _⟩ => ⟨S512x8192, .bf16⟩
  | .local _ .vmem, ⟨10, _⟩ => ⟨S16x512, .bf16⟩
  | .local _ .vmem, ⟨11, _⟩ => ⟨S16x512, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v0 : BitVec 32 := Scalar.remsi arg0 c2_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c512_i32 : BitVec 32 := 512#32
  let v23 : BitVec 32 := Scalar.muli arg0 c512_i32
  let v24 : Index := Scalar.indexCast v23
  let c0 : Index := 0#32
  ![v24.toNat, 0]
def k0_off2 (i : grid0.Coords) : Fin 2 → Nat :=
  let c0_58 : Index := 0#32
  let arg0 : BitVec 32 := BitVec.ofNat 32 (i 0).val
  let c512_i32_57 : BitVec 32 := 512#32
  let v115 : BitVec 32 := Scalar.muli arg0 c512_i32_57
  let v116 : Index := Scalar.indexCast v115
  ![0, v116.toNat]
def k0_cond3 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v7 : BitVec 1 := Scalar.cmpi .eq v0 c1_i32
  let v8 : BitVec 32 := Scalar.extui v7
  let c0_i32_3 : BitVec 32 := 0#32
  let v9 : BitVec 1 := Scalar.cmpi .ne v8 c0_i32_3
  v9

def k0_off3 (i : grid0.Coords) : Fin 2 → Nat :=
  let arg0 : BitVec 32 := BitVec.ofNat 32 (i 0).val
  let c512_i32 : BitVec 32 := 512#32
  let v23 : BitVec 32 := Scalar.muli arg0 c512_i32
  let v24 : Index := Scalar.indexCast v23
  let c0 : Index := 0#32
  ![v24.toNat, 0]
def k0_off4 (i : grid0.Coords) : Fin 2 → Nat :=
  let c0_58 : Index := 0#32
  let arg0 : BitVec 32 := BitVec.ofNat 32 (i 0).val
  let c512_i32_57 : BitVec 32 := 512#32
  let v115 : BitVec 32 := Scalar.muli arg0 c512_i32_57
  let v116 : Index := Scalar.indexCast v115
  ![0, v116.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond4 (i : grid0.Coords) : BitVec 1 :=
  let arg0 : BitVec 32 := BitVec.ofNat 32 (i 0).val
  let c0_i32_4 : BitVec 32 := 0#32
  let v10 : BitVec 1 := Scalar.cmpi .sgt arg0 c0_i32_4
  let c2_i32 : BitVec 32 := 2#32
  let v0 : BitVec 32 := Scalar.remsi arg0 c2_i32
  let c0_i32_5 : BitVec 32 := 0#32
  let v11 : BitVec 1 := Scalar.cmpi .eq v0 c0_i32_5
  let v12 : BitVec 1 := Scalar.andi v10 v11
  let v13 : BitVec 32 := Scalar.extui v12
  let c0_i32_6 : BitVec 32 := 0#32
  let v14 : BitVec 1 := Scalar.cmpi .ne v13 c0_i32_6
  v14

def k0_cond5 (i : grid0.Coords) : BitVec 1 :=
  let arg0 : BitVec 32 := BitVec.ofNat 32 (i 0).val
  let c0_i32_7 : BitVec 32 := 0#32
  let v15 : BitVec 1 := Scalar.cmpi .sgt arg0 c0_i32_7
  let c2_i32 : BitVec 32 := 2#32
  let v0 : BitVec 32 := Scalar.remsi arg0 c2_i32
  let c1_i32_8 : BitVec 32 := 1#32
  let v16 : BitVec 1 := Scalar.cmpi .eq v0 c1_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_cond6 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x8192_S64x1024_0_0 : ∀ a, (![0, 0] : Fin 2 → Nat) a + S64x1024.size a ≤ S64x8192.size a
  h_S64x1024 : 0 < S64x1024.numel
  reduces_S512x1024_S512 : S512x1024.Reduces [1] S512
  shapeCasts_S512_S512x1 : S512.ShapeCasts S512x1
  inb_S512x8192_S512x1024_0_0 : ∀ a, (![0, 0] : Fin 2 → Nat) a + S512x1024.size a ≤ S512x8192.size a
  h_S512x1024 : 0 < S512x1024.numel
  shapeCasts_S512x1024_S512x1024 : S512x1024.ShapeCasts S512x1024
  packedbf16_S512x8192_S512x1024_0_0 : (Rect.unit (s := S512x8192) ![0, 0] S512x1024.size inb_S512x8192_S512x1024_0_0).PackedRows (EltTy.packing .bf16)
  inb_S64x8192_S64x1024_0_1024 : ∀ a, (![0, 1024] : Fin 2 → Nat) a + S64x1024.size a ≤ S64x8192.size a
  inb_S512x8192_S512x1024_0_1024 : ∀ a, (![0, 1024] : Fin 2 → Nat) a + S512x1024.size a ≤ S512x8192.size a
  packedbf16_S512x8192_S512x1024_0_1024 : (Rect.unit (s := S512x8192) ![0, 1024] S512x1024.size inb_S512x8192_S512x1024_0_1024).PackedRows (EltTy.packing .bf16)
  inb_S64x8192_S64x1024_0_2048 : ∀ a, (![0, 2048] : Fin 2 → Nat) a + S64x1024.size a ≤ S64x8192.size a
  inb_S512x8192_S512x1024_0_2048 : ∀ a, (![0, 2048] : Fin 2 → Nat) a + S512x1024.size a ≤ S512x8192.size a
  packedbf16_S512x8192_S512x1024_0_2048 : (Rect.unit (s := S512x8192) ![0, 2048] S512x1024.size inb_S512x8192_S512x1024_0_2048).PackedRows (EltTy.packing .bf16)
  inb_S64x8192_S64x1024_0_3072 : ∀ a, (![0, 3072] : Fin 2 → Nat) a + S64x1024.size a ≤ S64x8192.size a
  inb_S512x8192_S512x1024_0_3072 : ∀ a, (![0, 3072] : Fin 2 → Nat) a + S512x1024.size a ≤ S512x8192.size a
  packedbf16_S512x8192_S512x1024_0_3072 : (Rect.unit (s := S512x8192) ![0, 3072] S512x1024.size inb_S512x8192_S512x1024_0_3072).PackedRows (EltTy.packing .bf16)
  inb_S64x8192_S64x1024_0_4096 : ∀ a, (![0, 4096] : Fin 2 → Nat) a + S64x1024.size a ≤ S64x8192.size a
  inb_S512x8192_S512x1024_0_4096 : ∀ a, (![0, 4096] : Fin 2 → Nat) a + S512x1024.size a ≤ S512x8192.size a
  packedbf16_S512x8192_S512x1024_0_4096 : (Rect.unit (s := S512x8192) ![0, 4096] S512x1024.size inb_S512x8192_S512x1024_0_4096).PackedRows (EltTy.packing .bf16)
  inb_S64x8192_S64x1024_0_5120 : ∀ a, (![0, 5120] : Fin 2 → Nat) a + S64x1024.size a ≤ S64x8192.size a
  inb_S512x8192_S512x1024_0_5120 : ∀ a, (![0, 5120] : Fin 2 → Nat) a + S512x1024.size a ≤ S512x8192.size a
  packedbf16_S512x8192_S512x1024_0_5120 : (Rect.unit (s := S512x8192) ![0, 5120] S512x1024.size inb_S512x8192_S512x1024_0_5120).PackedRows (EltTy.packing .bf16)
  inb_S64x8192_S64x1024_0_6144 : ∀ a, (![0, 6144] : Fin 2 → Nat) a + S64x1024.size a ≤ S64x8192.size a
  inb_S512x8192_S512x1024_0_6144 : ∀ a, (![0, 6144] : Fin 2 → Nat) a + S512x1024.size a ≤ S512x8192.size a
  packedbf16_S512x8192_S512x1024_0_6144 : (Rect.unit (s := S512x8192) ![0, 6144] S512x1024.size inb_S512x8192_S512x1024_0_6144).PackedRows (EltTy.packing .bf16)
  inb_S64x8192_S64x1024_0_7168 : ∀ a, (![0, 7168] : Fin 2 → Nat) a + S64x1024.size a ≤ S64x8192.size a
  inb_S512x8192_S512x1024_0_7168 : ∀ a, (![0, 7168] : Fin 2 → Nat) a + S512x1024.size a ≤ S512x8192.size a
  packedbf16_S512x8192_S512x1024_0_7168 : (Rect.unit (s := S512x8192) ![0, 7168] S512x1024.size inb_S512x8192_S512x1024_0_7168).PackedRows (EltTy.packing .bf16)
  transposes_S512x1_p1_0_S1x512 : S512x1.Transposes [1, 0] S1x512
  h_S16x512 : 0 < S16x512.numel
  broadcasts_S1x512_S16x512 : S1x512.Broadcasts S16x512
  inb_S16x512_S16x512_0_0 : ∀ a, (![0, 0] : Fin 2 → Nat) a + S16x512.size a ≤ S16x512.size a
  shapeCasts_S16x512_S16x512 : S16x512.ShapeCasts S16x512
  packedbf16_S16x512_S16x512_0_0 : (Rect.unit (s := S16x512) ![0, 0] S16x512.size inb_S16x512_S16x512_0_0).PackedRows (EltTy.packing .bf16)
  shapeCasts_S16x8192_S16x8192 : S16x8192.ShapeCasts S16x8192
  inb_S512x8192_S512x8192_0_0 : ∀ a, (![0, 0] : Fin 2 → Nat) a + S512x8192.size a ≤ S512x8192.size a
  h_S512x8192 : 0 < S512x8192.numel
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x1024_S512x1024_1_0_0_1_n_n_wf : DotDims.WF S512x64 S64x1024 S512x1024 [1] [0] [0] [1] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ (k0_h2 : k0_cond2 i = 1#1), ∀ a, (k0_off1 i) a + S512x128.size a ≤ S8192x128.size a
  k0_off2_inb : ∀ i : grid0.Coords, ∀ (k0_h2 : k0_cond2 i = 1#1), ∀ a, (k0_off2 i) a + S16x512.size a ≤ S16x8192.size a
  k0_off3_inb : ∀ i : grid0.Coords, ∀ (k0_h3 : k0_cond3 i = 1#1), ∀ a, (k0_off3 i) a + S512x128.size a ≤ S8192x128.size a
  k0_off4_inb : ∀ i : grid0.Coords, ∀ (k0_h3 : k0_cond3 i = 1#1), ∀ a, (k0_off4 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond4 i == 1#1) && !(k0_cond5 i == 1#1) && !(k0_cond6 i == 1#1) | ⟨_ + 7, h⟩ => absurd h (Nat.not_lt.2 (Nat.le_add_left _ _))

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.K.Runs.lean ====
/- The fused transition kernel's body, shared definitions: which of its six guarded blocks run at which grid
   point (decided over the sixteen points), the staging memrefs the pipeline passes at a point, the five scratch
   buffers (the projected keys, two slabs of exponentials, two slabs of scaled beliefs), and the region invariant
   opened into those five buffers. -/
import proofs.«125546_g5935644803188_cont_9to1c4b_610_15_alg».proof.Proof.Gen.Kernel.Frame
import proofs.«125546_g5935644803188_cont_9to1c4b_610_15_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The guards over the grid -/

/-- The first point: the keys are projected and the output zeroed. -/
abbrev gInit (i : grid0.Coords) : Prop := k0_cond1 i = 1#1
/-- An even point: a slab is produced into the first pair of buffers. -/
abbrev gEven (i : grid0.Coords) : Prop := k0_cond2 i = 1#1
/-- An odd point: a slab is produced into the second pair of buffers. -/
abbrev gOdd (i : grid0.Coords) : Prop := k0_cond3 i = 1#1
/-- An even point after the first: the slab in the second pair is accumulated. -/
abbrev gAccB (i : grid0.Coords) : Prop := k0_cond4 i = 1#1
/-- An odd point: the slab in the first pair is accumulated. -/
abbrev gAccA (i : grid0.Coords) : Prop := k0_cond5 i = 1#1
/-- The last point: the slab just produced into the second pair is accumulated too. -/
abbrev gTail (i : grid0.Coords) : Prop := k0_cond6 i = 1#1

theorem hInit : ∀ t : Fin cfg0.N, gInit (grid0.coords t) ↔ t.val = 0 :=
  (by decide +kernel : ∀ t : Fin grid0.N, gInit (grid0.coords t) ↔ t.val = 0)
theorem hEven : ∀ t : Fin cfg0.N, gEven (grid0.coords t) ↔ t.val % 2 = 0 :=
  (by decide +kernel : ∀ t : Fin grid0.N, gEven (grid0.coords t) ↔ t.val % 2 = 0)
theorem hOdd : ∀ t : Fin cfg0.N, gOdd (grid0.coords t) ↔ t.val % 2 = 1 :=
  (by decide +kernel : ∀ t : Fin grid0.N, gOdd (grid0.coords t) ↔ t.val % 2 = 1)
theorem hAccB : ∀ t : Fin cfg0.N, gAccB (grid0.coords t) ↔ (t.val ≠ 0 ∧ t.val % 2 = 0) :=
  (by decide +kernel : ∀ t : Fin grid0.N, gAccB (grid0.coords t) ↔ (t.val ≠ 0 ∧ t.val % 2 = 0))
theorem hAccA : ∀ t : Fin cfg0.N, gAccA (grid0.coords t) ↔ t.val % 2 = 1 :=
  (by decide +kernel : ∀ t : Fin grid0.N, gAccA (grid0.coords t) ↔ t.val % 2 = 1)
theorem hTail : ∀ t : Fin cfg0.N, gTail (grid0.coords t) ↔ t.val = 15 :=
  (by decide +kernel : ∀ t : Fin grid0.N, gTail (grid0.coords t) ↔ t.val = 15)

/-- No window is ever idle: the output is stored into at every point. -/
theorem live0 : ∀ (w : Fin cfg0.W) (t : Fin cfg0.N), cfg0.idle w (grid0.coords t) = false := by decide +kernel

/-! ## The memrefs the body is called with -/

abbrev ms0 (t : Fin cfg0.N) : Memref sig .tc .vmem S16x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x8192 .f32 := win0_6.stage (cfg0.slots t 6)
abbrev hs6 (t : Fin cfg0.N) : (ms6 t).IsWhole := hstage0_6 ((cfg0.slots t 6).cast nbuf0_6)

abbrev scK : Memref sig .tc .vmem S64x8192 .bf16 := Memref.whole cc0_scratch0
abbrev scPa : Memref sig .tc .vmem S512x8192 .bf16 := Memref.whole cc0_scratch1
abbrev scPb : Memref sig .tc .vmem S512x8192 .bf16 := Memref.whole cc0_scratch2
abbrev scWa : Memref sig .tc .vmem S16x512 .bf16 := Memref.whole cc0_scratch3
abbrev scWb : Memref sig .tc .vmem S16x512 .bf16 := Memref.whole cc0_scratch4

/-- The views through which the contents of the output's staging buffer and of the scratch buffers are stated. -/
abbrev VOut : View sig .tc .vmem S16x8192 .f32 := (Memref.whole cc0_stg6_0 : Memref sig .tc .vmem S16x8192 .f32).view
abbrev VK : View sig .tc .vmem S64x8192 .bf16 := scK.view
abbrev VPa : View sig .tc .vmem S512x8192 .bf16 := scPa.view
abbrev VPb : View sig .tc .vmem S512x8192 .bf16 := scPb.view
abbrev VWa : View sig .tc .vmem S16x512 .bf16 := scWa.view
abbrev VWb : View sig .tc .vmem S16x512 .bf16 := scWb.view

/-- The region invariant the launch hands over: each of the five scratch buffers whole at some contents, and the
    generator register at some state. -/
theorem PhiA_eq (c : Dev nD) :
    (Pipeline.ΦA spec0 c : sProp 𝕄)
      = iprop(iprop((∃ d, owns (c : Thread nD τ) scK fullShare d) ∗ (∃ d, owns (c : Thread nD τ) scPa fullShare d) ∗ (∃ d, owns (c : Thread nD τ) scPb fullShare d) ∗ (∃ d, owns (c : Thread nD τ) scWa fullShare d) ∗ (∃ d, owns (c : Thread nD τ) scWb fullShare d)) ∗ (∃ r, prngReg c r)) := by
  unfold Pipeline.ΦA; rw [scopedRest0_eq]; simp only [scK, scPa, scPb, scWa, scWb, owns_whole]; try rfl

end Cert.Kernel.Body

end
-- ==== Proof.K.RunA.lean ====
/- The body's run at the first point: the keys are projected into their scratch and the output zeroed, then slab 0 is produced into the first pair of buffers. -/
import proofs.«125546_g5935644803188_cont_9to1c4b_610_15_alg».proof.Proof.K.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runA (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : gInit i) (h2 : gEven i) (h3 : ¬gOdd i) (h4 : ¬gAccB i) (h5 : ¬gAccA i) (h6 : ¬gTail i)
    (x1 : Vec F S16x8192 .f32) (x2 : Vec F S8192x128 .f32) (x3 : Vec F S64x128 .f32) (x4 : Vec F S1x64 .f32) (x5 : Vec F S64x128 .f32) (x6 : Vec F S64x1 .f32) :
    Σ' (L7 : List (View.Piece (Elt F) S16x8192 .f32)) (L8 : List (View.Piece (Elt F) S64x8192 .bf16)) (L9 : List (View.Piece (Elt F) S512x8192 .bf16)), { L11 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H11

end Cert.Kernel.Body

end
-- ==== Proof.K.RunB.lean ====
/- The body's run at an even point after the first: a slab is produced into the first pair of buffers and the slab held in the second pair is accumulated into the output. -/
import proofs.«125546_g5935644803188_cont_9to1c4b_610_15_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runB (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : gEven i) (h3 : ¬gOdd i) (h4 : gAccB i) (h5 : ¬gAccA i) (h6 : ¬gTail i)
    (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) :
    Σ' (L7 : List (View.Piece (Elt F) S16x8192 .f32)) (L9 : List (View.Piece (Elt F) S512x8192 .bf16)), { L11 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (∃ d, owns (c : Thread nD τ) arg9 fullShare d) ∗ owns (c : Thread nD τ) arg10 fullShare x10 ∗ (∃ d, owns (c : Thread nD τ) arg11 fullShare d) ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ (∃ f, arg9.view.loc (c : Thread nD τ) ↦[arg9.view.set]{fullShare} arg9.view.writes (Elt F) f L9) ∗ owns (c : Thread nD τ) arg10 fullShare x10 ∗ (∃ f, arg11.view.loc (c : Thread nD τ) ↦[arg11.view.set]{fullShare} arg11.view.writes (Elt F) f L11) ∗ owns (c : Thread nD τ) arg12 fullShare x12) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg12.eq_unread hf12
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; iexact H11
    iexists _; isplitr; · ipureintro; exact harg12.read_unread _
    iexact H12

end Cert.Kernel.Body

end
-- ==== Proof.K.RunC.lean ====
/- The body's run at an odd point before the last: a slab is produced into the second pair of buffers and the slab held in the first pair is accumulated into the output. -/
import proofs.«125546_g5935644803188_cont_9to1c4b_610_15_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runC (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : ¬gEven i) (h3 : gOdd i) (h4 : ¬gAccB i) (h5 : gAccA i) (h6 : ¬gTail i)
    (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) :
    Σ' (L7 : List (View.Piece (Elt F) S16x8192 .f32)) (L10 : List (View.Piece (Elt F) S512x8192 .bf16)), { L12 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg11.eq_unread hf11
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.Kernel.Body

end
-- ==== Proof.K.RunD.lean ====
/- The body's run at the last point: a slab is produced into the second pair of buffers, the slab held in the first pair is accumulated into the output, and then the slab just produced as well. -/
import proofs.«125546_g5935644803188_cont_9to1c4b_610_15_alg».proof.Proof.K.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runD (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : ¬gEven i) (h3 : gOdd i) (h4 : ¬gAccB i) (h5 : gAccA i) (h6 : gTail i)
    (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) :
    Σ' (L7 : List (View.Piece (Elt F) S16x8192 .f32)) (L10 : List (View.Piece (Elt F) S512x8192 .bf16)), { L12 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg11.eq_unread hf11
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.Kernel.Body

end
-- ==== Proof.K.Data.lean ====
/- The fused transition kernel's frame: what each control case leaves in the output's staging buffer and in the five
   scratch buffers, the contents after every grid point by recursion on the point, the region invariant that carries the
   scratch from point to point, the body obligation, and the run of @main. -/
import proofs.«125546_g5935644803188_cont_9to1c4b_610_15_alg».proof.Proof.K.RunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

/-- Case A: the contents of the output's staging buffer after the body, its pieces read back. -/
def cA_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S16x8192 .f32 :=
  VOut.read (Elt F) (VOut.writes (Elt F) VOut.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1)
/-- Those pieces tile the buffer. -/
theorem covA_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S16x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1 S16x8192.size (by sl_kernel_rfl) y

/-- Case A: the contents of scratch `arg8` after the body, its pieces read back. -/
def cA_8 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S64x8192 .bf16 :=
  VK.read (Elt F) (VK.writes (Elt F) VK.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1)
/-- Those pieces tile the buffer. -/
theorem covA_8 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S64x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1 S64x8192.size (by sl_kernel_rfl) y

/-- Case A: the contents of scratch `arg9` after the body, its pieces read back. -/
def cA_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S512x8192 .bf16 :=
  VPa.read (Elt F) (VPa.writes (Elt F) VPa.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1)
/-- Those pieces tile the buffer. -/
theorem covA_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S512x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1 S512x1024.size (by sl_kernel_rfl) y

/-- Case A: the contents of scratch `arg11` after the body, its pieces read back. -/
def cA_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S16x512 .bf16 :=
  VWa.read (Elt F) (VWa.writes (Elt F) VWa.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1)
/-- Those pieces tile the buffer. -/
theorem covA_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S16x512.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1 S16x512.size (by sl_kernel_rfl) y

/-- Case B: the contents of the output's staging buffer after the body, its pieces read back. -/
def cB_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S16x8192 .f32 :=
  VOut.read (Elt F) (VOut.writes (Elt F) VOut.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1)
/-- Those pieces tile the buffer. -/
theorem covB_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S16x8192.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1 S16x8192.size (by sl_kernel_rfl) y

/-- Case B: the contents of scratch `arg9` after the body, its pieces read back. -/
def cB_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S512x8192 .bf16 :=
  VPa.read (Elt F) (VPa.writes (Elt F) VPa.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1)
/-- Those pieces tile the buffer. -/
theorem covB_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S512x8192.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1 S512x1024.size (by sl_kernel_rfl) y

/-- Case B: the contents of scratch `arg11` after the body, its pieces read back. -/
def cB_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S16x512 .bf16 :=
  VWa.read (Elt F) (VWa.writes (Elt F) VWa.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1)
/-- Those pieces tile the buffer. -/
theorem covB_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S16x512.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1 S16x512.size (by sl_kernel_rfl) y

/-- Case C: the contents of the output's staging buffer after the body, its pieces read back. -/
def cC_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x8192 .f32 :=
  VOut.read (Elt F) (VOut.writes (Elt F) VOut.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1)
/-- Those pieces tile the buffer. -/
theorem covC_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x8192.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1 S16x8192.size (by sl_kernel_rfl) y

/-- Case C: the contents of scratch `arg10` after the body, its pieces read back. -/
def cC_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S512x8192 .bf16 :=
  VPb.read (Elt F) (VPb.writes (Elt F) VPb.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1)
/-- Those pieces tile the buffer. -/
theorem covC_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S512x8192.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1 S512x1024.size (by sl_kernel_rfl) y

/-- Case C: the contents of scratch `arg12` after the body, its pieces read back. -/
def cC_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x512 .bf16 :=
  VWb.read (Elt F) (VWb.writes (Elt F) VWb.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1)
/-- Those pieces tile the buffer. -/
theorem covC_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x512.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1 S16x512.size (by sl_kernel_rfl) y

/-- Case D: the contents of the output's staging buffer after the body, its pieces read back. -/
def cD_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x8192 .f32 :=
  VOut.read (Elt F) (VOut.writes (Elt F) VOut.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1)
/-- Those pieces tile the buffer. -/
theorem covD_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x8192.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1 S16x8192.size (by sl_kernel_rfl) y

/-- Case D: the contents of scratch `arg10` after the body, its pieces read back. -/
def cD_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S512x8192 .bf16 :=
  VPb.read (Elt F) (VPb.writes (Elt F) VPb.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1)
/-- Those pieces tile the buffer. -/
theorem covD_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S512x8192.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1 S512x1024.size (by sl_kernel_rfl) y

/-- Case D: the contents of scratch `arg12` after the body, its pieces read back. -/
def cD_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x512 .bf16 :=
  VWb.read (Elt F) (VWb.writes (Elt F) VWb.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1)
/-- Those pieces tile the buffer. -/
theorem covD_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x512.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1 S16x512.size (by sl_kernel_rfl) y

/-! ## The guards at a point of each case -/

theorem gA (t : Fin cfg0.N) (h : t.val = 0) : gInit (grid0.coords t) ∧ gEven (grid0.coords t) ∧ ¬gOdd (grid0.coords t) ∧ ¬gAccB (grid0.coords t) ∧ ¬gAccA (grid0.coords t) ∧ ¬gTail (grid0.coords t) := by
  rw [hInit, hEven, hOdd, hAccB, hAccA, hTail]; omega
theorem gB (t : Fin cfg0.N) (h0 : t.val ≠ 0) (he : t.val % 2 = 0) : ¬gInit (grid0.coords t) ∧ gEven (grid0.coords t) ∧ ¬gOdd (grid0.coords t) ∧ gAccB (grid0.coords t) ∧ ¬gAccA (grid0.coords t) ∧ ¬gTail (grid0.coords t) := by
  rw [hInit, hEven, hOdd, hAccB, hAccA, hTail]; omega
theorem gC (t : Fin cfg0.N) (ho : t.val % 2 = 1) (h15 : t.val ≠ 15) : ¬gInit (grid0.coords t) ∧ ¬gEven (grid0.coords t) ∧ gOdd (grid0.coords t) ∧ ¬gAccB (grid0.coords t) ∧ gAccA (grid0.coords t) ∧ ¬gTail (grid0.coords t) := by
  rw [hInit, hEven, hOdd, hAccB, hAccA, hTail]; omega
theorem gD (t : Fin cfg0.N) (h15 : t.val = 15) : ¬gInit (grid0.coords t) ∧ ¬gEven (grid0.coords t) ∧ gOdd (grid0.coords t) ∧ ¬gAccB (grid0.coords t) ∧ gAccA (grid0.coords t) ∧ gTail (grid0.coords t) := by
  rw [hInit, hEven, hOdd, hAccB, hAccA, hTail]; omega

/-! ## The contents after each point -/

/-- What the output's staging buffer and the five scratch buffers hold. -/
structure St where
  out : Vec F S16x8192 .f32
  k : Vec F S64x8192 .bf16
  pa : Vec F S512x8192 .bf16
  pb : Vec F S512x8192 .bf16
  wa : Vec F S16x512 .bf16
  wb : Vec F S16x512 .bf16

/-- After the first point: the output zeroed, the keys projected, slab 0 in the first pair of buffers (the second pair not yet written: at anything). -/
def stepA (c : Dev nD) (t : Fin cfg0.N) (h : t.val = 0) : St (F := F) where
  out := cA_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  k := cA_8 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  pa := cA_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  pb := VPb.read (Elt F) VPb.junk
  wa := cA_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  wb := VWb.read (Elt F) VWb.junk
/-- After an even point past the first, over what the point before left. -/
def stepB (c : Dev nD) (t : Fin cfg0.N) (h0 : t.val ≠ 0) (he : t.val % 2 = 0) (s : St (F := F)) : St (F := F) where
  out := cB_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  k := s.k
  pa := cB_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  pb := s.pb
  wa := cB_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  wb := s.wb
/-- After an odd point before the last, over what the point before left. -/
def stepC (c : Dev nD) (t : Fin cfg0.N) (ho : t.val % 2 = 1) (h15 : t.val ≠ 15) (s : St (F := F)) : St (F := F) where
  out := cC_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
  k := s.k
  pa := s.pa
  pb := cC_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
  wa := s.wa
  wb := cC_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
/-- After the last point, over what the point before left. -/
def stepD (c : Dev nD) (t : Fin cfg0.N) (h15 : t.val = 15) (s : St (F := F)) : St (F := F) where
  out := cD_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa
  k := s.k
  pa := s.pa
  pb := cD_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa
  wa := s.wa
  wb := cD_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa

/-- The contents after the body at position `n`, by recursion on the position. -/
def stAt (c : Dev nD) : (n : ℕ) → n < cfg0.N → St (F := F)
  | 0, hn => stepA m c ⟨0, hn⟩ rfl
  | n + 1, hn =>
    if h15 : n + 1 = 15 then stepD m c ⟨n + 1, hn⟩ h15 (stAt c n (Nat.lt_of_succ_lt hn))
    else if he : (n + 1) % 2 = 0 then stepB m c ⟨n + 1, hn⟩ (Nat.succ_ne_zero n) he (stAt c n (Nat.lt_of_succ_lt hn))
    else stepC m c ⟨n + 1, hn⟩ (by dsimp only; omega) h15 (stAt c n (Nat.lt_of_succ_lt hn))

theorem stAt_A (c : Dev nD) (t : Fin cfg0.N) (h : t.val = 0) : stAt m c t.val t.isLt = stepA m c t h := by
  obtain ⟨n, hn⟩ := t
  cases n with
  | zero => rfl
  | succ n => exact absurd h (Nat.succ_ne_zero n)
theorem stAt_B (c : Dev nD) (t : Fin cfg0.N) (h0 : t.val ≠ 0) (he : t.val % 2 = 0) :
    stAt m c t.val t.isLt = stepB m c t h0 he (stAt m c (t.val - 1) (Nat.lt_of_le_of_lt (Nat.sub_le _ _) t.isLt)) := by
  obtain ⟨n, hn⟩ := t
  cases n with
  | zero => exact absurd rfl h0
  | succ n => exact (dif_neg (by dsimp only at he; omega)).trans ((dif_pos he).trans rfl)
theorem stAt_C (c : Dev nD) (t : Fin cfg0.N) (ho : t.val % 2 = 1) (h15 : t.val ≠ 15) :
    stAt m c t.val t.isLt = stepC m c t ho h15 (stAt m c (t.val - 1) (Nat.lt_of_le_of_lt (Nat.sub_le _ _) t.isLt)) := by
  obtain ⟨n, hn⟩ := t
  cases n with
  | zero => exact absurd ho (by dsimp only; omega)
  | succ n => exact (dif_neg h15).trans ((dif_neg (by dsimp only at ho; omega)).trans rfl)
theorem stAt_D (c : Dev nD) (t : Fin cfg0.N) (h15 : t.val = 15) :
    stAt m c t.val t.isLt = stepD m c t h15 (stAt m c (t.val - 1) (Nat.lt_of_le_of_lt (Nat.sub_le _ _) t.isLt)) := by
  obtain ⟨n, hn⟩ := t
  cases n with
  | zero => exact absurd h15 (by dsimp only; omega)
  | succ n => exact (dif_pos h15).trans rfl

/-! ## The region invariant -/

/-- The second pair of scratch buffers after position `n`: not yet written after the first point (at anything), then at
    the contents the recursion names. -/
def PsiB (c : Dev nD) (n : ℕ) (hn : n < cfg0.N) : sProp 𝕄 :=
  if n = 0 then iprop((∃ d, owns (c : Thread nD τ) scPb fullShare d) ∗ (∃ d, owns (c : Thread nD τ) scWb fullShare d))
  else iprop(owns (c : Thread nD τ) scPb fullShare (stAt m c n hn).pb ∗ owns (c : Thread nD τ) scWb fullShare (stAt m c n hn).wb)

theorem PsiB_zero (c : Dev nD) (n : ℕ) (hn : n < cfg0.N) (hz : n = 0) :
    PsiB m c n hn = iprop((∃ d, owns (c : Thread nD τ) scPb fullShare d) ∗ (∃ d, owns (c : Thread nD τ) scWb fullShare d)) := by
  unfold PsiB; rw [if_pos hz]
theorem PsiB_pos (c : Dev nD) (n : ℕ) (hn : n < cfg0.N) (hz : n ≠ 0) :
    PsiB m c n hn = iprop(owns (c : Thread nD τ) scPb fullShare (stAt m c n hn).pb ∗ owns (c : Thread nD τ) scWb fullShare (stAt m c n hn).wb) := by
  unfold PsiB; rw [if_neg hz]
/-- Either way both buffers are owned at some contents. -/
theorem PsiB_any (c : Dev nD) (n : ℕ) (hn : n < cfg0.N) :
    PsiB m c n hn ⊢ iprop((∃ d, owns (c : Thread nD τ) scPb fullShare d) ∗ (∃ d, owns (c : Thread nD τ) scWb fullShare d)) := by
  by_cases hz : n = 0
  · rw [PsiB_zero m c n hn hz]
  · rw [PsiB_pos m c n hn hz]
    iintro ⟨H1, H2⟩
    isplitl [H1]
    · iexists _; iexact H1
    iexists _; iexact H2

/-- The region invariant before position `n`: before the first point the launch's (every scratch at anything); afterwards
    the keys and the first pair of buffers at the contents the point before left, the second pair as `PsiB` says, and the
    generator register at some state. -/
def PhiS (c : Dev nD) : (n : ℕ) → n ≤ cfg0.N → sProp 𝕄
  | 0, _ => Pipeline.ΦA spec0 c
  | n + 1, hn => iprop(iprop(owns (c : Thread nD τ) scK fullShare (stAt m c n hn).k ∗ owns (c : Thread nD τ) scPa fullShare (stAt m c n hn).pa ∗ owns (c : Thread nD τ) scWa fullShare (stAt m c n hn).wa ∗ PsiB m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scK fullShare (stAt m c n hn).k ∗ owns (c : Thread nD τ) scPa fullShare (stAt m c n hn).pa ∗ owns (c : Thread nD τ) scWa fullShare (stAt m c n hn).wa ∗ PsiB m c n hn) ∗ (∃ r, prngReg c r)) := rfl
theorem PhiS_pos (c : Dev nD) (n : ℕ) (h : n ≤ cfg0.N) (hz : n ≠ 0) :
    PhiS m c n h = iprop(iprop(owns (c : Thread nD τ) scK fullShare (stAt m c (n - 1) (by omega)).k ∗ owns (c : Thread nD τ) scPa fullShare (stAt m c (n - 1) (by omega)).pa ∗ owns (c : Thread nD τ) scWa fullShare (stAt m c (n - 1) (by omega)).wa ∗ PsiB m c (n - 1) (by omega)) ∗ (∃ r, prngReg c r)) := by
  cases n with
  | zero => exact absurd rfl hz
  | succ n => rfl

/-! ## The proof data -/

/-- The proof data on core `c`: the arrays as the region finds them; after the body each input's buffer at its block and
    the output's at the recursion's; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t.val t.isLt).out := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The output window is live at every coordinate. -/
theorem live6_all : ∀ i : grid0.Coords, cfg0.idle 6 i = false := by decide +kernel

/-- After the first point the output's staging buffer holds what the point before left: it is written back only after
    the last point, and the window is live and uncut. -/
theorem before_6 (c : Dev nD) (t : Fin cfg0.N) (ht : t.val ≠ 0) (d) :
    (dats m 0 c).before 6 t d = (stAt m c (t.val - 1) (Nat.lt_of_le_of_lt (Nat.sub_le _ _) t.isLt)).out := by
  have hN : t.val < 16 := lt_of_lt_of_eq t.isLt (show cfg0.N = 16 from N_0)
  rw [Dat.before_out_kept _ 6 rfl t ht (Bool.eq_false_iff.mpr fun h => by have := (flush0_6 _).mp h; dsimp only at this; omega)
    live6_all (fun _ _ => rfl)]
  dsimp only [dats]

theorem leaves_0 (c : Dev nD) (t : Fin cfg0.N) : (dats m 0 c).leavesExact 0 t = owns (c : Thread nD τ) (ms0 t) fullShare ((dats m 0 c).after 0 t) := by
  unfold Dat.leavesExact; rw [live0 0 t]
theorem leaves_1 (c : Dev nD) (t : Fin cfg0.N) : (dats m 0 c).leavesExact 1 t = owns (c : Thread nD τ) (ms1 t) fullShare ((dats m 0 c).after 1 t) := by
  unfold Dat.leavesExact; rw [live0 1 t]
theorem leaves_2 (c : Dev nD) (t : Fin cfg0.N) : (dats m 0 c).leavesExact 2 t = owns (c : Thread nD τ) (ms2 t) fullShare ((dats m 0 c).after 2 t) := by
  unfold Dat.leavesExact; rw [live0 2 t]
theorem leaves_3 (c : Dev nD) (t : Fin cfg0.N) : (dats m 0 c).leavesExact 3 t = owns (c : Thread nD τ) (ms3 t) fullShare ((dats m 0 c).after 3 t) := by
  unfold Dat.leavesExact; rw [live0 3 t]
theorem leaves_4 (c : Dev nD) (t : Fin cfg0.N) : (dats m 0 c).leavesExact 4 t = owns (c : Thread nD τ) (ms4 t) fullShare ((dats m 0 c).after 4 t) := by
  unfold Dat.leavesExact; rw [live0 4 t]
theorem leaves_5 (c : Dev nD) (t : Fin cfg0.N) : (dats m 0 c).leavesExact 5 t = owns (c : Thread nD τ) (ms5 t) fullShare ((dats m 0 c).after 5 t) := by
  unfold Dat.leavesExact; rw [live0 5 t]
theorem leaves_6 (c : Dev nD) (t : Fin cfg0.N) : (dats m 0 c).leavesExact 6 t = owns (c : Thread nD τ) (ms6 t) fullShare ((dats m 0 c).after 6 t) := by
  unfold Dat.leavesExact; rw [live0 6 t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks, the output's what the point before left (anything at the
    first point); the point's position says which case it is in, and that case's run applies; the invariant hands over the
    scratch at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, after_0, after_1, after_2, after_3, after_4, after_5, after_6]
  have hN : t.val < 16 := lt_of_lt_of_eq t.isLt (show cfg0.N = 16 from N_0)
  by_cases hz : t.val = 0
  · rw [stAt_A m c t hz]; unfold stepA; dsimp only
    rw [PhiS_castSucc m c t, PhiS_zero m c _ _ hz, PhiA_eq, PsiB_zero m c _ _ hz]
    iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ _ _ _ _ _ _ (gA t hz).1 (gA t hz).2.1 (gA t hz).2.2.1 (gA t hz).2.2.2.1 (gA t hz).2.2.2.2.1 (gA t hz).2.2.2.2.2 (iblk m c 0 t) (iblk m c 1 t) (iblk m c 2 t) (iblk m c 3 t) (iblk m c 4 t) (iblk m c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HPa]; · iexact HPa
    isplitl [HWa]; · iexact HWa
    iintro ⟨H0, H1, H2, H3, H4, H5, ⟨%e7, H6⟩, ⟨%e8, HK⟩, ⟨%e9, HPa⟩, ⟨%e11, HWa⟩⟩
    isplitl [HK HPa HWa HPb HWb Hg]
    · isplitr [Hg]
      · isplitl [HK]
        · unfold owns; iexists _; isplitr
          swap; · iexact HK
          ipureintro; exact View.read_writes_of_cover _ _ _ _ _ (covA_8 _ _ _ _ _ _ _ _ _ _ _ _ _ _ _ _ _ _ _ _ _ _ _ _ _ _ _ _ _ _ _ _ _ _ _ _ _ _)
        isplitl [HPa]
        · unfold owns; iexists _; isplitr
          swap; · iexact HPa
          ipureintro; exact View.read_writes_of_cover _ _ _ _ _ (covA_9 _ _ _ _ _ _ _ _ _ _ _ _ _ _ _ _ _ _ _ _ _ _ _ _ _ _ _ _ _ _ _ _ _ _ _ _ _ _)
        isplitl [HWa]
        · unfold owns; iexists _; isplitr
          swap; · iexact HWa
          ipureintro; exact View.read_writes_of_cover _ _ _ _ _ (covA_11 _ _ _ _ _ _ _ _ _ _ _ _ _ _ _ _ _ _ _ _ _ _ _ _ _ _ _ _ _ _ _ _ _ _ _ _ _ _)
        isplitl [HPb]; · iexact HPb
        iexact HWb
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (covA_7 _ _ _ _ _ _ _ _ _ _ _ _ _ _ _ _ _ _ _ _ _ _ _ _ _ _ _ _ _ _ _ _ _ _ _ _ _ _)
  · simp only [before_6 m c t hz]
    rw [PhiS_castSucc m c t, PhiS_pos m c _ _ hz]
    have hprev : t.val - 1 < cfg0.N := Nat.lt_of_le_of_lt (Nat.sub_le _ _) t.isLt
    rw [PsiB_pos m c t.val t.isLt hz]
    by_cases h15 : t.val = 15
    · rw [stAt_D m c t h15]; unfold stepD; dsimp only
      iintro ⟨⟨⟨HK, HPa, HWa, HB⟩, Hg⟩, Ho, ⟨%d0, H0⟩, ⟨%d1, H1⟩, ⟨%d2, H2⟩, ⟨%d3, H3⟩, ⟨%d4, H4⟩, ⟨%d5, H5⟩, ⟨%d6, H6⟩⟩
      icases (PsiB_any m c _ _) $$ HB with ⟨HPb, HWb⟩
      iapply ((runD c (grid0.coords t) _ _ _ _ _ _ _ _ _ _ _ _ _ _ _ _ _ _ _ _ _ _ _ _ (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) _ _ _ _).2.2.2 Set.univ _)
      isplitl [H0]; · iexact H0
      isplitl [H1]; · iexact H1
      isplitl [H2]; · iexact H2
      isplitl [H3]; · iexact H3
      isplitl [H6]; · iexact H6
      isplitl [HK]; · iexact HK
      isplitl [HPa]; · iexact HPa
      isplitl [HPb]; · iexact HPb
      isplitl [HWa]; · iexact HWa
      isplitl [HWb]; · iexact HWb
      iintro ⟨H0, H1, H2, H3, ⟨%e7, H6⟩, HK, HPa, ⟨%e10, HPb⟩, HWa, ⟨%e12, HWb⟩⟩
      isplitl [HK HPa HWa HPb HWb Hg]
      · isplitr [Hg]
        · isplitl [HK]; · iexact HK
          isplitl [HPa]; · iexact HPa
          isplitl [HWa]; · iexact HWa
          isplitl [HPb]
          · unfold owns; iexists _; isplitr
            swap; · iexact HPb
            ipureintro; exact View.read_writes_of_cover _ _ _ _ _ (covD_10 _ _ _ _ _ _ _ _ _ _ _ _ _ _ _ _ _ _ _ _ _ _ _ _ _ _ _ _ _ _ _ _ _ _ _ _ _ _ _ _)
          unfold owns; iexists _; isplitr
          swap; · iexact HWb
          ipureintro; exact View.read_writes_of_cover _ _ _ _ _ (covD_12 _ _ _ _ _ _ _ _ _ _ _ _ _ _ _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (covD_7 _ _ _ _ _ _ _ _ _ _ _ _ _ _ _ _ _ _ _ _ _ _ _ _ _ _ _ _ _ _ _ _ _ _ _ _ _ _ _ _)
    · by_cases he : t.val % 2 = 0
      · rw [stAt_B m c t hz he]; unfold stepB; dsimp only
        rw [PsiB_pos m c (t.val - 1) hprev (by omega)]
        iintro ⟨⟨⟨HK, HPa, HWa, HPb, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((runB c (grid0.coords t) _ _ _ _ _ _ _ _ _ _ _ _ _ _ _ _ _ _ _ _ _ _ _ _ (gB t hz he).1 (gB t hz he).2.1 (gB t hz he).2.2.1 (gB t hz he).2.2.2.1 (gB t hz he).2.2.2.2.1 (gB t hz he).2.2.2.2.2 (iblk m c 0 t) (iblk m c 1 t) (iblk m c 2 t) (iblk m c 3 t) _ _ _ _).2.2.2 Set.univ _)
        isplitl [H0]; · iexact H0
        isplitl [H1]; · iexact H1
        isplitl [H2]; · iexact H2
        isplitl [H3]; · iexact H3
        isplitl [H6]; · iexact H6
        isplitl [HK]; · iexact HK
        isplitl [HPa]; · iexists _; iexact HPa
        isplitl [HPb]; · iexact HPb
        isplitl [HWa]; · iexists _; iexact HWa
        isplitl [HWb]; · iexact HWb
        iintro ⟨H0, H1, H2, H3, ⟨%e7, H6⟩, HK, ⟨%e9, HPa⟩, HPb, ⟨%e11, HWa⟩, HWb⟩
        isplitl [HK HPa HWa HPb HWb Hg]
        · isplitr [Hg]
          · isplitl [HK]; · iexact HK
            isplitl [HPa]
            · unfold owns; iexists _; isplitr
              swap; · iexact HPa
              ipureintro; exact View.read_writes_of_cover _ _ _ _ _ (covB_9 _ _ _ _ _ _ _ _ _ _ _ _ _ _ _ _ _ _ _ _ _ _ _ _ _ _ _ _ _ _ _ _ _ _ _ _ _ _ _ _)
            isplitl [HWa]
            · unfold owns; iexists _; isplitr
              swap; · iexact HWa
              ipureintro; exact View.read_writes_of_cover _ _ _ _ _ (covB_11 _ _ _ _ _ _ _ _ _ _ _ _ _ _ _ _ _ _ _ _ _ _ _ _ _ _ _ _ _ _ _ _ _ _ _ _ _ _ _ _)
            isplitl [HPb]; · iexact HPb
            iexact HWb
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (covB_7 _ _ _ _ _ _ _ _ _ _ _ _ _ _ _ _ _ _ _ _ _ _ _ _ _ _ _ _ _ _ _ _ _ _ _ _ _ _ _ _)
      · have ho : t.val % 2 = 1 := by omega
        rw [stAt_C m c t ho h15]; unfold stepC; dsimp only
        iintro ⟨⟨⟨HK, HPa, HWa, HB⟩, Hg⟩, Ho, ⟨%d0, H0⟩, ⟨%d1, H1⟩, ⟨%d2, H2⟩, ⟨%d3, H3⟩, ⟨%d4, H4⟩, ⟨%d5, H5⟩, ⟨%d6, H6⟩⟩
        icases (PsiB_any m c _ _) $$ HB with ⟨HPb, HWb⟩
        iapply ((runC c (grid0.coords t) _ _ _ _ _ _ _ _ _ _ _ _ _ _ _ _ _ _ _ _ _ _ _ _ (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) _ _ _ _).2.2.2 Set.univ _)
        isplitl [H0]; · iexact H0
        isplitl [H1]; · iexact H1
        isplitl [H2]; · iexact H2
        isplitl [H3]; · iexact H3
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, ⟨%e7, H6⟩, HK, HPa, ⟨%e10, HPb⟩, HWa, ⟨%e12, HWb⟩⟩
        isplitl [HK HPa HWa HPb HWb Hg]
        · isplitr [Hg]
          · isplitl [HK]; · iexact HK
            isplitl [HPa]; · iexact HPa
            isplitl [HWa]; · iexact HWa
            isplitl [HPb]
            · unfold owns; iexists _; isplitr
              swap; · iexact HPb
              ipureintro; exact View.read_writes_of_cover _ _ _ _ _ (covC_10 _ _ _ _ _ _ _ _ _ _ _ _ _ _ _ _ _ _ _ _ _ _ _ _ _ _ _ _ _ _ _ _ _ _ _ _ _ _ _ _)
            unfold owns; iexists _; isplitr
            swap; · iexact HWb
            ipureintro; exact View.read_writes_of_cover _ _ _ _ _ (covC_12 _ _ _ _ _ _ _ _ _ _ _ _ _ _ _ _ _ _ _ _ _ _ _ _ _ _ _ _ _ _ _ _ _ _ _ _ _ _ _ _)
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (covC_7 _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch buffers' named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨⟨HK, HPa, HWa, HB⟩, Hg⟩
  icases (PsiB_any m c _ _) $$ HB with ⟨HPb, HWb⟩
  isplitr [Hg]
  · isplitl [HK]; · iexists _; iexact HK
    isplitl [HPa]; · iexists _; iexact HPa
    isplitl [HPb]; · iexact HPb
    isplitl [HWa]; · iexists _; iexact HWa
    iexact HWb
  · iexact Hg

/-! ## The run and the frame -/

set_option backward.isDefEq.respectTransparency.types false in
/-- Every weakly fair execution of @main terminates, and in every final state each array of the pipeline holds what the
    library computes from the proof data and every other unscoped buffer is unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Runs.lean ====
/- The fused transition kernel's body, shared definitions: which of its six guarded blocks run at which grid
   point (decided over the sixteen points), the staging memrefs the pipeline passes at a point, the five scratch
   buffers (the projected keys, two slabs of exponentials, two slabs of scaled beliefs), and the region invariant
   opened into those five buffers. -/
import proofs.«125546_g5935644803188_cont_9to1c4b_610_15_alg».proof.Proof.Gen.KernelIdeal.Frame
import proofs.«125546_g5935644803188_cont_9to1c4b_610_15_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The guards over the grid -/

/-- The first point: the keys are projected and the output zeroed. -/
abbrev gInit (i : grid0.Coords) : Prop := k0_cond1 i = 1#1
/-- An even point: a slab is produced into the first pair of buffers. -/
abbrev gEven (i : grid0.Coords) : Prop := k0_cond2 i = 1#1
/-- An odd point: a slab is produced into the second pair of buffers. -/
abbrev gOdd (i : grid0.Coords) : Prop := k0_cond3 i = 1#1
/-- An even point after the first: the slab in the second pair is accumulated. -/
abbrev gAccB (i : grid0.Coords) : Prop := k0_cond4 i = 1#1
/-- An odd point: the slab in the first pair is accumulated. -/
abbrev gAccA (i : grid0.Coords) : Prop := k0_cond5 i = 1#1
/-- The last point: the slab just produced into the second pair is accumulated too. -/
abbrev gTail (i : grid0.Coords) : Prop := k0_cond6 i = 1#1

theorem hInit : ∀ t : Fin cfg0.N, gInit (grid0.coords t) ↔ t.val = 0 :=
  (by decide +kernel : ∀ t : Fin grid0.N, gInit (grid0.coords t) ↔ t.val = 0)
theorem hEven : ∀ t : Fin cfg0.N, gEven (grid0.coords t) ↔ t.val % 2 = 0 :=
  (by decide +kernel : ∀ t : Fin grid0.N, gEven (grid0.coords t) ↔ t.val % 2 = 0)
theorem hOdd : ∀ t : Fin cfg0.N, gOdd (grid0.coords t) ↔ t.val % 2 = 1 :=
  (by decide +kernel : ∀ t : Fin grid0.N, gOdd (grid0.coords t) ↔ t.val % 2 = 1)
theorem hAccB : ∀ t : Fin cfg0.N, gAccB (grid0.coords t) ↔ (t.val ≠ 0 ∧ t.val % 2 = 0) :=
  (by decide +kernel : ∀ t : Fin grid0.N, gAccB (grid0.coords t) ↔ (t.val ≠ 0 ∧ t.val % 2 = 0))
theorem hAccA : ∀ t : Fin cfg0.N, gAccA (grid0.coords t) ↔ t.val % 2 = 1 :=
  (by decide +kernel : ∀ t : Fin grid0.N, gAccA (grid0.coords t) ↔ t.val % 2 = 1)
theorem hTail : ∀ t : Fin cfg0.N, gTail (grid0.coords t) ↔ t.val = 15 :=
  (by decide +kernel : ∀ t : Fin grid0.N, gTail (grid0.coords t) ↔ t.val = 15)

/-- No window is ever idle: the output is stored into at every point. -/
theorem live0 : ∀ (w : Fin cfg0.W) (t : Fin cfg0.N), cfg0.idle w (grid0.coords t) = false := by decide +kernel

/-! ## The memrefs the body is called with -/

abbrev ms0 (t : Fin cfg0.N) : Memref sig .tc .vmem S16x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x8192 .f32 := win0_6.stage (cfg0.slots t 6)
abbrev hs6 (t : Fin cfg0.N) : (ms6 t).IsWhole := hstage0_6 ((cfg0.slots t 6).cast nbuf0_6)

abbrev scK : Memref sig .tc .vmem S64x8192 .bf16 := Memref.whole cc0_scratch0
abbrev scPa : Memref sig .tc .vmem S512x8192 .bf16 := Memref.whole cc0_scratch1
abbrev scPb : Memref sig .tc .vmem S512x8192 .bf16 := Memref.whole cc0_scratch2
abbrev scWa : Memref sig .tc .vmem S16x512 .bf16 := Memref.whole cc0_scratch3
abbrev scWb : Memref sig .tc .vmem S16x512 .bf16 := Memref.whole cc0_scratch4

/-- The views through which the contents of the output's staging buffer and of the scratch buffers are stated. -/
abbrev VOut : View sig .tc .vmem S16x8192 .f32 := (Memref.whole cc0_stg6_0 : Memref sig .tc .vmem S16x8192 .f32).view
abbrev VK : View sig .tc .vmem S64x8192 .bf16 := scK.view
abbrev VPa : View sig .tc .vmem S512x8192 .bf16 := scPa.view
abbrev VPb : View sig .tc .vmem S512x8192 .bf16 := scPb.view
abbrev VWa : View sig .tc .vmem S16x512 .bf16 := scWa.view
abbrev VWb : View sig .tc .vmem S16x512 .bf16 := scWb.view

/-- The region invariant the launch hands over: each of the five scratch buffers whole at some contents, and the
    generator register at some state. -/
theorem PhiA_eq (c : Dev nD) :
    (Pipeline.ΦA spec0 c : sProp 𝕄)
      = iprop(iprop((∃ d, owns (c : Thread nD τ) scK fullShare d) ∗ (∃ d, owns (c : Thread nD τ) scPa fullShare d) ∗ (∃ d, owns (c : Thread nD τ) scPb fullShare d) ∗ (∃ d, owns (c : Thread nD τ) scWa fullShare d) ∗ (∃ d, owns (c : Thread nD τ) scWb fullShare d)) ∗ (∃ r, prngReg c r)) := by
  unfold Pipeline.ΦA; rw [scopedRest0_eq]; simp only [scK, scPa, scPb, scWa, scWb, owns_whole]; try rfl

end Cert.KernelIdeal.Body

end
-- ==== Proof.KI.RunA.lean ====
/- The body's run at the first point: the keys are projected into their scratch and the output zeroed, then slab 0 is produced into the first pair of buffers. -/
import proofs.«125546_g5935644803188_cont_9to1c4b_610_15_alg».proof.Proof.KI.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runA (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : gInit i) (h2 : gEven i) (h3 : ¬gOdd i) (h4 : ¬gAccB i) (h5 : ¬gAccA i) (h6 : ¬gTail i)
    (x1 : Vec F S16x8192 .f32) (x2 : Vec F S8192x128 .f32) (x3 : Vec F S64x128 .f32) (x4 : Vec F S1x64 .f32) (x5 : Vec F S64x128 .f32) (x6 : Vec F S64x1 .f32) :
    Σ' (L7 : List (View.Piece (Elt F) S16x8192 .f32)) (L8 : List (View.Piece (Elt F) S64x8192 .bf16)) (L9 : List (View.Piece (Elt F) S512x8192 .bf16)), { L11 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H11

end Cert.KernelIdeal.Body

end
-- ==== Proof.KI.RunB.lean ====
/- The body's run at an even point after the first: a slab is produced into the first pair of buffers and the slab held in the second pair is accumulated into the output. -/
import proofs.«125546_g5935644803188_cont_9to1c4b_610_15_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runB (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : gEven i) (h3 : ¬gOdd i) (h4 : gAccB i) (h5 : ¬gAccA i) (h6 : ¬gTail i)
    (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) :
    Σ' (L7 : List (View.Piece (Elt F) S16x8192 .f32)) (L9 : List (View.Piece (Elt F) S512x8192 .bf16)), { L11 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (∃ d, owns (c : Thread nD τ) arg9 fullShare d) ∗ owns (c : Thread nD τ) arg10 fullShare x10 ∗ (∃ d, owns (c : Thread nD τ) arg11 fullShare d) ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ (∃ f, arg9.view.loc (c : Thread nD τ) ↦[arg9.view.set]{fullShare} arg9.view.writes (Elt F) f L9) ∗ owns (c : Thread nD τ) arg10 fullShare x10 ∗ (∃ f, arg11.view.loc (c : Thread nD τ) ↦[arg11.view.set]{fullShare} arg11.view.writes (Elt F) f L11) ∗ owns (c : Thread nD τ) arg12 fullShare x12) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%d9, %f9, -, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg10.eq_unread hf10; obtain rfl := harg12.eq_unread hf12
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; iexact H11
    iexists _; isplitr; · ipureintro; exact harg12.read_unread _
    iexact H12

end Cert.KernelIdeal.Body

end
-- ==== Proof.KI.RunC.lean ====
/- The body's run at an odd point before the last: a slab is produced into the second pair of buffers and the slab held in the first pair is accumulated into the output. -/
import proofs.«125546_g5935644803188_cont_9to1c4b_610_15_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runC (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : ¬gEven i) (h3 : gOdd i) (h4 : ¬gAccB i) (h5 : gAccA i) (h6 : ¬gTail i)
    (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) :
    Σ' (L7 : List (View.Piece (Elt F) S16x8192 .f32)) (L10 : List (View.Piece (Elt F) S512x8192 .bf16)), { L12 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg11.eq_unread hf11
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.KernelIdeal.Body

end
-- ==== Proof.KI.RunD.lean ====
/- The body's run at the last point: a slab is produced into the second pair of buffers, the slab held in the first pair is accumulated into the output, and then the slab just produced as well. -/
import proofs.«125546_g5935644803188_cont_9to1c4b_610_15_alg».proof.Proof.KI.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole memrefs — each buffer the body only reads at given contents, each buffer it overwrites at any contents (or, for
    the output it adds to, at given contents) — the body runs to a continuation that holds the buffers it only read as
    they were and every buffer it stored into with a list of pieces written (last store first). The pieces are found by
    running the body symbolically; each guard is decided by the case's hypotheses. -/
noncomputable def runD (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole)
    (h1 : ¬gInit i) (h2 : ¬gEven i) (h3 : gOdd i) (h4 : ¬gAccB i) (h5 : gAccA i) (h6 : gTail i)
    (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) :
    Σ' (L7 : List (View.Piece (Elt F) S16x8192 .f32)) (L10 : List (View.Piece (Elt F) S512x8192 .bf16)), { L12 : List (View.Piece (Elt F) S16x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%d10, %f10, -, H10⟩, ⟨%f11, %hf11, H11⟩, ⟨%d12, %f12, -, H12⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9; obtain rfl := harg11.eq_unread hf11
    sl_exec (disch := first | exact h1 | exact h2 | exact h3 | exact h4 | exact h5 | exact h6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.KernelIdeal.Body

end
-- ==== Proof.KI.Data.lean ====
/- The fused transition kernel's frame: what each control case leaves in the output's staging buffer and in the five
   scratch buffers, the contents after every grid point by recursion on the point, the region invariant that carries the
   scratch from point to point, the body obligation, and the run of @main. -/
import proofs.«125546_g5935644803188_cont_9to1c4b_610_15_alg».proof.Proof.KI.RunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

/-- Case A: the contents of the output's staging buffer after the body, its pieces read back. -/
def cA_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S16x8192 .f32 :=
  VOut.read (Elt F) (VOut.writes (Elt F) VOut.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1)
/-- Those pieces tile the buffer. -/
theorem covA_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S16x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).1 S16x8192.size (by sl_kernel_rfl) y

/-- Case A: the contents of scratch `arg8` after the body, its pieces read back. -/
def cA_8 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S64x8192 .bf16 :=
  VK.read (Elt F) (VK.writes (Elt F) VK.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1)
/-- Those pieces tile the buffer. -/
theorem covA_8 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S64x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.1 S64x8192.size (by sl_kernel_rfl) y

/-- Case A: the contents of scratch `arg9` after the body, its pieces read back. -/
def cA_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S512x8192 .bf16 :=
  VPa.read (Elt F) (VPa.writes (Elt F) VPa.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1)
/-- Those pieces tile the buffer. -/
theorem covA_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S512x8192.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.1 S512x1024.size (by sl_kernel_rfl) y

/-- Case A: the contents of scratch `arg11` after the body, its pieces read back. -/
def cA_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) : Vec F S16x512 .bf16 :=
  VWa.read (Elt F) (VWa.writes (Elt F) VWa.junk (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1)
/-- Those pieces tile the buffer. -/
theorem covA_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec F S16x8192 .f32) (x2 : Vec F S8192x128 .f32) (x3 : Vec F S64x128 .f32) (x4 : Vec F S1x64 .f32) (x5 : Vec F S64x128 .f32) (x6 : Vec F S64x1 .f32) (y : S16x512.Idx) :
    ∃ pc ∈ (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6).2.2.2.1 S16x512.size (by sl_kernel_rfl) y

/-- Case B: the contents of the output's staging buffer after the body, its pieces read back. -/
def cB_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S16x8192 .f32 :=
  VOut.read (Elt F) (VOut.writes (Elt F) VOut.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1)
/-- Those pieces tile the buffer. -/
theorem covB_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S16x8192.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).1 S16x8192.size (by sl_kernel_rfl) y

/-- Case B: the contents of scratch `arg9` after the body, its pieces read back. -/
def cB_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S512x8192 .bf16 :=
  VPa.read (Elt F) (VPa.writes (Elt F) VPa.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1)
/-- Those pieces tile the buffer. -/
theorem covB_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S512x8192.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.1 S512x1024.size (by sl_kernel_rfl) y

/-- Case B: the contents of scratch `arg11` after the body, its pieces read back. -/
def cB_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) : Vec F S16x512 .bf16 :=
  VWa.read (Elt F) (VWa.writes (Elt F) VWa.junk (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1)
/-- Those pieces tile the buffer. -/
theorem covB_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x10 : Vec F S512x8192 .bf16) (x12 : Vec F S16x512 .bf16) (y : S16x512.Idx) :
    ∃ pc ∈ (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12).2.2.1 S16x512.size (by sl_kernel_rfl) y

/-- Case C: the contents of the output's staging buffer after the body, its pieces read back. -/
def cC_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x8192 .f32 :=
  VOut.read (Elt F) (VOut.writes (Elt F) VOut.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1)
/-- Those pieces tile the buffer. -/
theorem covC_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x8192.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1 S16x8192.size (by sl_kernel_rfl) y

/-- Case C: the contents of scratch `arg10` after the body, its pieces read back. -/
def cC_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S512x8192 .bf16 :=
  VPb.read (Elt F) (VPb.writes (Elt F) VPb.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1)
/-- Those pieces tile the buffer. -/
theorem covC_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S512x8192.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1 S512x1024.size (by sl_kernel_rfl) y

/-- Case C: the contents of scratch `arg12` after the body, its pieces read back. -/
def cC_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x512 .bf16 :=
  VWb.read (Elt F) (VWb.writes (Elt F) VWb.junk (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1)
/-- Those pieces tile the buffer. -/
theorem covC_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x512.Idx) :
    ∃ pc ∈ (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1 S16x512.size (by sl_kernel_rfl) y

/-- Case D: the contents of the output's staging buffer after the body, its pieces read back. -/
def cD_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x8192 .f32 :=
  VOut.read (Elt F) (VOut.writes (Elt F) VOut.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1)
/-- Those pieces tile the buffer. -/
theorem covD_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x8192.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).1 S16x8192.size (by sl_kernel_rfl) y

/-- Case D: the contents of scratch `arg10` after the body, its pieces read back. -/
def cD_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S512x8192 .bf16 :=
  VPb.read (Elt F) (VPb.writes (Elt F) VPb.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1)
/-- Those pieces tile the buffer. -/
theorem covD_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S512x8192.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.1 S512x1024.size (by sl_kernel_rfl) y

/-- Case D: the contents of scratch `arg12` after the body, its pieces read back. -/
def cD_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) : Vec F S16x512 .bf16 :=
  VWb.read (Elt F) (VWb.writes (Elt F) VWb.junk (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1)
/-- Those pieces tile the buffer. -/
theorem covD_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec F S16x8192 .f32) (x2 : Vec F S8192x128 .f32) (x3 : Vec F S64x128 .f32) (x4 : Vec F S1x64 .f32) (x7 : Vec F S16x8192 .f32) (x8 : Vec F S64x8192 .bf16) (x9 : Vec F S512x8192 .bf16) (x11 : Vec F S16x512 .bf16) (y : S16x512.Idx) :
    ∃ pc ∈ (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1, y ∈ pc.1.set :=
  View.cover_of_tiledL (runD c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11).2.2.1 S16x512.size (by sl_kernel_rfl) y

/-! ## The guards at a point of each case -/

theorem gA (t : Fin cfg0.N) (h : t.val = 0) : gInit (grid0.coords t) ∧ gEven (grid0.coords t) ∧ ¬gOdd (grid0.coords t) ∧ ¬gAccB (grid0.coords t) ∧ ¬gAccA (grid0.coords t) ∧ ¬gTail (grid0.coords t) := by
  rw [hInit, hEven, hOdd, hAccB, hAccA, hTail]; omega
theorem gB (t : Fin cfg0.N) (h0 : t.val ≠ 0) (he : t.val % 2 = 0) : ¬gInit (grid0.coords t) ∧ gEven (grid0.coords t) ∧ ¬gOdd (grid0.coords t) ∧ gAccB (grid0.coords t) ∧ ¬gAccA (grid0.coords t) ∧ ¬gTail (grid0.coords t) := by
  rw [hInit, hEven, hOdd, hAccB, hAccA, hTail]; omega
theorem gC (t : Fin cfg0.N) (ho : t.val % 2 = 1) (h15 : t.val ≠ 15) : ¬gInit (grid0.coords t) ∧ ¬gEven (grid0.coords t) ∧ gOdd (grid0.coords t) ∧ ¬gAccB (grid0.coords t) ∧ gAccA (grid0.coords t) ∧ ¬gTail (grid0.coords t) := by
  rw [hInit, hEven, hOdd, hAccB, hAccA, hTail]; omega
theorem gD (t : Fin cfg0.N) (h15 : t.val = 15) : ¬gInit (grid0.coords t) ∧ ¬gEven (grid0.coords t) ∧ gOdd (grid0.coords t) ∧ ¬gAccB (grid0.coords t) ∧ gAccA (grid0.coords t) ∧ gTail (grid0.coords t) := by
  rw [hInit, hEven, hOdd, hAccB, hAccA, hTail]; omega

/-! ## The contents after each point -/

/-- What the output's staging buffer and the five scratch buffers hold. -/
structure St where
  out : Vec F S16x8192 .f32
  k : Vec F S64x8192 .bf16
  pa : Vec F S512x8192 .bf16
  pb : Vec F S512x8192 .bf16
  wa : Vec F S16x512 .bf16
  wb : Vec F S16x512 .bf16

/-- After the first point: the output zeroed, the keys projected, slab 0 in the first pair of buffers (the second pair not yet written: at anything). -/
def stepA (c : Dev nD) (t : Fin cfg0.N) (h : t.val = 0) : St (F := F) where
  out := cA_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  k := cA_8 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  pa := cA_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  pb := VPb.read (Elt F) VPb.junk
  wa := cA_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)
  wb := VWb.read (Elt F) VWb.junk
/-- After an even point past the first, over what the point before left. -/
def stepB (c : Dev nD) (t : Fin cfg0.N) (h0 : t.val ≠ 0) (he : t.val % 2 = 0) (s : St (F := F)) : St (F := F) where
  out := cB_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  k := s.k
  pa := cB_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  pb := s.pb
  wa := cB_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb
  wb := s.wb
/-- After an odd point before the last, over what the point before left. -/
def stepC (c : Dev nD) (t : Fin cfg0.N) (ho : t.val % 2 = 1) (h15 : t.val ≠ 15) (s : St (F := F)) : St (F := F) where
  out := cC_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
  k := s.k
  pa := s.pa
  pb := cC_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
  wa := s.wa
  wb := cC_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa
/-- After the last point, over what the point before left. -/
def stepD (c : Dev nD) (t : Fin cfg0.N) (h15 : t.val = 15) (s : St (F := F)) : St (F := F) where
  out := cD_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa
  k := s.k
  pa := s.pa
  pb := cD_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa
  wa := s.wa
  wb := cD_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa

/-- The contents after the body at position `n`, by recursion on the position. -/
def stAt (c : Dev nD) : (n : ℕ) → n < cfg0.N → St (F := F)
  | 0, hn => stepA m c ⟨0, hn⟩ rfl
  | n + 1, hn =>
    if h15 : n + 1 = 15 then stepD m c ⟨n + 1, hn⟩ h15 (stAt c n (Nat.lt_of_succ_lt hn))
    else if he : (n + 1) % 2 = 0 then stepB m c ⟨n + 1, hn⟩ (Nat.succ_ne_zero n) he (stAt c n (Nat.lt_of_succ_lt hn))
    else stepC m c ⟨n + 1, hn⟩ (by dsimp only; omega) h15 (stAt c n (Nat.lt_of_succ_lt hn))

theorem stAt_A (c : Dev nD) (t : Fin cfg0.N) (h : t.val = 0) : stAt m c t.val t.isLt = stepA m c t h := by
  obtain ⟨n, hn⟩ := t
  cases n with
  | zero => rfl
  | succ n => exact absurd h (Nat.succ_ne_zero n)
theorem stAt_B (c : Dev nD) (t : Fin cfg0.N) (h0 : t.val ≠ 0) (he : t.val % 2 = 0) :
    stAt m c t.val t.isLt = stepB m c t h0 he (stAt m c (t.val - 1) (Nat.lt_of_le_of_lt (Nat.sub_le _ _) t.isLt)) := by
  obtain ⟨n, hn⟩ := t
  cases n with
  | zero => exact absurd rfl h0
  | succ n => exact (dif_neg (by dsimp only at he; omega)).trans ((dif_pos he).trans rfl)
theorem stAt_C (c : Dev nD) (t : Fin cfg0.N) (ho : t.val % 2 = 1) (h15 : t.val ≠ 15) :
    stAt m c t.val t.isLt = stepC m c t ho h15 (stAt m c (t.val - 1) (Nat.lt_of_le_of_lt (Nat.sub_le _ _) t.isLt)) := by
  obtain ⟨n, hn⟩ := t
  cases n with
  | zero => exact absurd ho (by dsimp only; omega)
  | succ n => exact (dif_neg h15).trans ((dif_neg (by dsimp only at ho; omega)).trans rfl)
theorem stAt_D (c : Dev nD) (t : Fin cfg0.N) (h15 : t.val = 15) :
    stAt m c t.val t.isLt = stepD m c t h15 (stAt m c (t.val - 1) (Nat.lt_of_le_of_lt (Nat.sub_le _ _) t.isLt)) := by
  obtain ⟨n, hn⟩ := t
  cases n with
  | zero => exact absurd h15 (by dsimp only; omega)
  | succ n => exact (dif_pos h15).trans rfl

/-! ## The region invariant -/

/-- The second pair of scratch buffers after position `n`: not yet written after the first point (at anything), then at
    the contents the recursion names. -/
def PsiB (c : Dev nD) (n : ℕ) (hn : n < cfg0.N) : sProp 𝕄 :=
  if n = 0 then iprop((∃ d, owns (c : Thread nD τ) scPb fullShare d) ∗ (∃ d, owns (c : Thread nD τ) scWb fullShare d))
  else iprop(owns (c : Thread nD τ) scPb fullShare (stAt m c n hn).pb ∗ owns (c : Thread nD τ) scWb fullShare (stAt m c n hn).wb)

theorem PsiB_zero (c : Dev nD) (n : ℕ) (hn : n < cfg0.N) (hz : n = 0) :
    PsiB m c n hn = iprop((∃ d, owns (c : Thread nD τ) scPb fullShare d) ∗ (∃ d, owns (c : Thread nD τ) scWb fullShare d)) := by
  unfold PsiB; rw [if_pos hz]
theorem PsiB_pos (c : Dev nD) (n : ℕ) (hn : n < cfg0.N) (hz : n ≠ 0) :
    PsiB m c n hn = iprop(owns (c : Thread nD τ) scPb fullShare (stAt m c n hn).pb ∗ owns (c : Thread nD τ) scWb fullShare (stAt m c n hn).wb) := by
  unfold PsiB; rw [if_neg hz]
/-- Either way both buffers are owned at some contents. -/
theorem PsiB_any (c : Dev nD) (n : ℕ) (hn : n < cfg0.N) :
    PsiB m c n hn ⊢ iprop((∃ d, owns (c : Thread nD τ) scPb fullShare d) ∗ (∃ d, owns (c : Thread nD τ) scWb fullShare d)) := by
  by_cases hz : n = 0
  · rw [PsiB_zero m c n hn hz]
  · rw [PsiB_pos m c n hn hz]
    iintro ⟨H1, H2⟩
    isplitl [H1]
    · iexists _; iexact H1
    iexists _; iexact H2

/-- The region invariant before position `n`: before the first point the launch's (every scratch at anything); afterwards
    the keys and the first pair of buffers at the contents the point before left, the second pair as `PsiB` says, and the
    generator register at some state. -/
def PhiS (c : Dev nD) : (n : ℕ) → n ≤ cfg0.N → sProp 𝕄
  | 0, _ => Pipeline.ΦA spec0 c
  | n + 1, hn => iprop(iprop(owns (c : Thread nD τ) scK fullShare (stAt m c n hn).k ∗ owns (c : Thread nD τ) scPa fullShare (stAt m c n hn).pa ∗ owns (c : Thread nD τ) scWa fullShare (stAt m c n hn).wa ∗ PsiB m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scK fullShare (stAt m c n hn).k ∗ owns (c : Thread nD τ) scPa fullShare (stAt m c n hn).pa ∗ owns (c : Thread nD τ) scWa fullShare (stAt m c n hn).wa ∗ PsiB m c n hn) ∗ (∃ r, prngReg c r)) := rfl
theorem PhiS_pos (c : Dev nD) (n : ℕ) (h : n ≤ cfg0.N) (hz : n ≠ 0) :
    PhiS m c n h = iprop(iprop(owns (c : Thread nD τ) scK fullShare (stAt m c (n - 1) (by omega)).k ∗ owns (c : Thread nD τ) scPa fullShare (stAt m c (n - 1) (by omega)).pa ∗ owns (c : Thread nD τ) scWa fullShare (stAt m c (n - 1) (by omega)).wa ∗ PsiB m c (n - 1) (by omega)) ∗ (∃ r, prngReg c r)) := by
  cases n with
  | zero => exact absurd rfl hz
  | succ n => rfl

/-! ## The proof data -/

/-- The proof data on core `c`: the arrays as the region finds them; after the body each input's buffer at its block and
    the output's at the recursion's; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t.val t.isLt).out := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The output window is live at every coordinate. -/
theorem live6_all : ∀ i : grid0.Coords, cfg0.idle 6 i = false := by decide +kernel

/-- After the first point the output's staging buffer holds what the point before left: it is written back only after
    the last point, and the window is live and uncut. -/
theorem before_6 (c : Dev nD) (t : Fin cfg0.N) (ht : t.val ≠ 0) (d) :
    (dats m 0 c).before 6 t d = (stAt m c (t.val - 1) (Nat.lt_of_le_of_lt (Nat.sub_le _ _) t.isLt)).out := by
  have hN : t.val < 16 := lt_of_lt_of_eq t.isLt (show cfg0.N = 16 from N_0)
  rw [Dat.before_out_kept _ 6 rfl t ht (Bool.eq_false_iff.mpr fun h => by have := (flush0_6 _).mp h; dsimp only at this; omega)
    live6_all (fun _ _ => rfl)]
  dsimp only [dats]

theorem leaves_0 (c : Dev nD) (t : Fin cfg0.N) : (dats m 0 c).leavesExact 0 t = owns (c : Thread nD τ) (ms0 t) fullShare ((dats m 0 c).after 0 t) := by
  unfold Dat.leavesExact; rw [live0 0 t]
theorem leaves_1 (c : Dev nD) (t : Fin cfg0.N) : (dats m 0 c).leavesExact 1 t = owns (c : Thread nD τ) (ms1 t) fullShare ((dats m 0 c).after 1 t) := by
  unfold Dat.leavesExact; rw [live0 1 t]
theorem leaves_2 (c : Dev nD) (t : Fin cfg0.N) : (dats m 0 c).leavesExact 2 t = owns (c : Thread nD τ) (ms2 t) fullShare ((dats m 0 c).after 2 t) := by
  unfold Dat.leavesExact; rw [live0 2 t]
theorem leaves_3 (c : Dev nD) (t : Fin cfg0.N) : (dats m 0 c).leavesExact 3 t = owns (c : Thread nD τ) (ms3 t) fullShare ((dats m 0 c).after 3 t) := by
  unfold Dat.leavesExact; rw [live0 3 t]
theorem leaves_4 (c : Dev nD) (t : Fin cfg0.N) : (dats m 0 c).leavesExact 4 t = owns (c : Thread nD τ) (ms4 t) fullShare ((dats m 0 c).after 4 t) := by
  unfold Dat.leavesExact; rw [live0 4 t]
theorem leaves_5 (c : Dev nD) (t : Fin cfg0.N) : (dats m 0 c).leavesExact 5 t = owns (c : Thread nD τ) (ms5 t) fullShare ((dats m 0 c).after 5 t) := by
  unfold Dat.leavesExact; rw [live0 5 t]
theorem leaves_6 (c : Dev nD) (t : Fin cfg0.N) : (dats m 0 c).leavesExact 6 t = owns (c : Thread nD τ) (ms6 t) fullShare ((dats m 0 c).after 6 t) := by
  unfold Dat.leavesExact; rw [live0 6 t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks, the output's what the point before left (anything at the
    first point); the point's position says which case it is in, and that case's run applies; the invariant hands over the
    scratch at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, after_0, after_1, after_2, after_3, after_4, after_5, after_6]
  have hN : t.val < 16 := lt_of_lt_of_eq t.isLt (show cfg0.N = 16 from N_0)
  by_cases hz : t.val = 0
  · rw [stAt_A m c t hz]; unfold stepA; dsimp only
    rw [PhiS_castSucc m c t, PhiS_zero m c _ _ hz, PhiA_eq, PsiB_zero m c _ _ hz]
    iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ _ _ _ _ _ _ (gA t hz).1 (gA t hz).2.1 (gA t hz).2.2.1 (gA t hz).2.2.2.1 (gA t hz).2.2.2.2.1 (gA t hz).2.2.2.2.2 (iblk m c 0 t) (iblk m c 1 t) (iblk m c 2 t) (iblk m c 3 t) (iblk m c 4 t) (iblk m c 5 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HPa]; · iexact HPa
    isplitl [HWa]; · iexact HWa
    iintro ⟨H0, H1, H2, H3, H4, H5, ⟨%e7, H6⟩, ⟨%e8, HK⟩, ⟨%e9, HPa⟩, ⟨%e11, HWa⟩⟩
    isplitl [HK HPa HWa HPb HWb Hg]
    · isplitr [Hg]
      · isplitl [HK]
        · unfold owns; iexists _; isplitr
          swap; · iexact HK
          ipureintro; exact View.read_writes_of_cover _ _ _ _ _ (covA_8 _ _ _ _ _ _ _ _ _ _ _ _ _ _ _ _ _ _ _ _ _ _ _ _ _ _ _ _ _ _ _ _ _ _ _ _ _ _)
        isplitl [HPa]
        · unfold owns; iexists _; isplitr
          swap; · iexact HPa
          ipureintro; exact View.read_writes_of_cover _ _ _ _ _ (covA_9 _ _ _ _ _ _ _ _ _ _ _ _ _ _ _ _ _ _ _ _ _ _ _ _ _ _ _ _ _ _ _ _ _ _ _ _ _ _)
        isplitl [HWa]
        · unfold owns; iexists _; isplitr
          swap; · iexact HWa
          ipureintro; exact View.read_writes_of_cover _ _ _ _ _ (covA_11 _ _ _ _ _ _ _ _ _ _ _ _ _ _ _ _ _ _ _ _ _ _ _ _ _ _ _ _ _ _ _ _ _ _ _ _ _ _)
        isplitl [HPb]; · iexact HPb
        iexact HWb
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (covA_7 _ _ _ _ _ _ _ _ _ _ _ _ _ _ _ _ _ _ _ _ _ _ _ _ _ _ _ _ _ _ _ _ _ _ _ _ _ _)
  · simp only [before_6 m c t hz]
    rw [PhiS_castSucc m c t, PhiS_pos m c _ _ hz]
    have hprev : t.val - 1 < cfg0.N := Nat.lt_of_le_of_lt (Nat.sub_le _ _) t.isLt
    rw [PsiB_pos m c t.val t.isLt hz]
    by_cases h15 : t.val = 15
    · rw [stAt_D m c t h15]; unfold stepD; dsimp only
      iintro ⟨⟨⟨HK, HPa, HWa, HB⟩, Hg⟩, Ho, ⟨%d0, H0⟩, ⟨%d1, H1⟩, ⟨%d2, H2⟩, ⟨%d3, H3⟩, ⟨%d4, H4⟩, ⟨%d5, H5⟩, ⟨%d6, H6⟩⟩
      icases (PsiB_any m c _ _) $$ HB with ⟨HPb, HWb⟩
      iapply ((runD c (grid0.coords t) _ _ _ _ _ _ _ _ _ _ _ _ _ _ _ _ _ _ _ _ _ _ _ _ (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) _ _ _ _).2.2.2 Set.univ _)
      isplitl [H0]; · iexact H0
      isplitl [H1]; · iexact H1
      isplitl [H2]; · iexact H2
      isplitl [H3]; · iexact H3
      isplitl [H6]; · iexact H6
      isplitl [HK]; · iexact HK
      isplitl [HPa]; · iexact HPa
      isplitl [HPb]; · iexact HPb
      isplitl [HWa]; · iexact HWa
      isplitl [HWb]; · iexact HWb
      iintro ⟨H0, H1, H2, H3, ⟨%e7, H6⟩, HK, HPa, ⟨%e10, HPb⟩, HWa, ⟨%e12, HWb⟩⟩
      isplitl [HK HPa HWa HPb HWb Hg]
      · isplitr [Hg]
        · isplitl [HK]; · iexact HK
          isplitl [HPa]; · iexact HPa
          isplitl [HWa]; · iexact HWa
          isplitl [HPb]
          · unfold owns; iexists _; isplitr
            swap; · iexact HPb
            ipureintro; exact View.read_writes_of_cover _ _ _ _ _ (covD_10 _ _ _ _ _ _ _ _ _ _ _ _ _ _ _ _ _ _ _ _ _ _ _ _ _ _ _ _ _ _ _ _ _ _ _ _ _ _ _ _)
          unfold owns; iexists _; isplitr
          swap; · iexact HWb
          ipureintro; exact View.read_writes_of_cover _ _ _ _ _ (covD_12 _ _ _ _ _ _ _ _ _ _ _ _ _ _ _ _ _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (covD_7 _ _ _ _ _ _ _ _ _ _ _ _ _ _ _ _ _ _ _ _ _ _ _ _ _ _ _ _ _ _ _ _ _ _ _ _ _ _ _ _)
    · by_cases he : t.val % 2 = 0
      · rw [stAt_B m c t hz he]; unfold stepB; dsimp only
        rw [PsiB_pos m c (t.val - 1) hprev (by omega)]
        iintro ⟨⟨⟨HK, HPa, HWa, HPb, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((runB c (grid0.coords t) _ _ _ _ _ _ _ _ _ _ _ _ _ _ _ _ _ _ _ _ _ _ _ _ (gB t hz he).1 (gB t hz he).2.1 (gB t hz he).2.2.1 (gB t hz he).2.2.2.1 (gB t hz he).2.2.2.2.1 (gB t hz he).2.2.2.2.2 (iblk m c 0 t) (iblk m c 1 t) (iblk m c 2 t) (iblk m c 3 t) _ _ _ _).2.2.2 Set.univ _)
        isplitl [H0]; · iexact H0
        isplitl [H1]; · iexact H1
        isplitl [H2]; · iexact H2
        isplitl [H3]; · iexact H3
        isplitl [H6]; · iexact H6
        isplitl [HK]; · iexact HK
        isplitl [HPa]; · iexists _; iexact HPa
        isplitl [HPb]; · iexact HPb
        isplitl [HWa]; · iexists _; iexact HWa
        isplitl [HWb]; · iexact HWb
        iintro ⟨H0, H1, H2, H3, ⟨%e7, H6⟩, HK, ⟨%e9, HPa⟩, HPb, ⟨%e11, HWa⟩, HWb⟩
        isplitl [HK HPa HWa HPb HWb Hg]
        · isplitr [Hg]
          · isplitl [HK]; · iexact HK
            isplitl [HPa]
            · unfold owns; iexists _; isplitr
              swap; · iexact HPa
              ipureintro; exact View.read_writes_of_cover _ _ _ _ _ (covB_9 _ _ _ _ _ _ _ _ _ _ _ _ _ _ _ _ _ _ _ _ _ _ _ _ _ _ _ _ _ _ _ _ _ _ _ _ _ _ _ _)
            isplitl [HWa]
            · unfold owns; iexists _; isplitr
              swap; · iexact HWa
              ipureintro; exact View.read_writes_of_cover _ _ _ _ _ (covB_11 _ _ _ _ _ _ _ _ _ _ _ _ _ _ _ _ _ _ _ _ _ _ _ _ _ _ _ _ _ _ _ _ _ _ _ _ _ _ _ _)
            isplitl [HPb]; · iexact HPb
            iexact HWb
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (covB_7 _ _ _ _ _ _ _ _ _ _ _ _ _ _ _ _ _ _ _ _ _ _ _ _ _ _ _ _ _ _ _ _ _ _ _ _ _ _ _ _)
      · have ho : t.val % 2 = 1 := by omega
        rw [stAt_C m c t ho h15]; unfold stepC; dsimp only
        iintro ⟨⟨⟨HK, HPa, HWa, HB⟩, Hg⟩, Ho, ⟨%d0, H0⟩, ⟨%d1, H1⟩, ⟨%d2, H2⟩, ⟨%d3, H3⟩, ⟨%d4, H4⟩, ⟨%d5, H5⟩, ⟨%d6, H6⟩⟩
        icases (PsiB_any m c _ _) $$ HB with ⟨HPb, HWb⟩
        iapply ((runC c (grid0.coords t) _ _ _ _ _ _ _ _ _ _ _ _ _ _ _ _ _ _ _ _ _ _ _ _ (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) _ _ _ _).2.2.2 Set.univ _)
        isplitl [H0]; · iexact H0
        isplitl [H1]; · iexact H1
        isplitl [H2]; · iexact H2
        isplitl [H3]; · iexact H3
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, ⟨%e7, H6⟩, HK, HPa, ⟨%e10, HPb⟩, HWa, ⟨%e12, HWb⟩⟩
        isplitl [HK HPa HWa HPb HWb Hg]
        · isplitr [Hg]
          · isplitl [HK]; · iexact HK
            isplitl [HPa]; · iexact HPa
            isplitl [HWa]; · iexact HWa
            isplitl [HPb]
            · unfold owns; iexists _; isplitr
              swap; · iexact HPb
              ipureintro; exact View.read_writes_of_cover _ _ _ _ _ (covC_10 _ _ _ _ _ _ _ _ _ _ _ _ _ _ _ _ _ _ _ _ _ _ _ _ _ _ _ _ _ _ _ _ _ _ _ _ _ _ _ _)
            unfold owns; iexists _; isplitr
            swap; · iexact HWb
            ipureintro; exact View.read_writes_of_cover _ _ _ _ _ (covC_12 _ _ _ _ _ _ _ _ _ _ _ _ _ _ _ _ _ _ _ _ _ _ _ _ _ _ _ _ _ _ _ _ _ _ _ _ _ _ _ _)
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (covC_7 _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the launch's back: the scratch buffers' named contents are forgotten. -/
theorem hout (c : Dev nD) : (dats m 0 c).Φ (Fin.last cfg0.N) ⊢ Pipeline.ΦA spec0 c := by
  have hl : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨⟨HK, HPa, HWa, HB⟩, Hg⟩
  icases (PsiB_any m c _ _) $$ HB with ⟨HPb, HWb⟩
  isplitr [Hg]
  · isplitl [HK]; · iexists _; iexact HK
    isplitl [HPa]; · iexists _; iexact HPa
    isplitl [HPb]; · iexact HPb
    isplitl [HWa]; · iexists _; iexact HWa
    iexact HWb
  · iexact Hg

/-! ## The run and the frame -/

set_option backward.isDefEq.respectTransparency.types false in
/-- Every weakly fair execution of @main terminates, and in every final state each array of the pipeline holds what the
    library computes from the proof data and every other unscoped buffer is unchanged. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/- The transition kernel's result as one function of the six argument arrays.

   With state embeddings `emb` (8192 × 128), query and key projections `wq`, `wk` (64 × 128) with biases `bq`, `bk`, and a
   batch of beliefs `bel` (16 × 8192):
     q i h = Σ_d emb i d · wq h d + bq h,      k j h = Σ_d emb j d · wk h d + bk h,
     l i j = Σ_h q i h · k j h                  (the logits),
     z i   = Σ_j exp (l i j)                    (a row's normaliser),
     out b j = Σ_i bel b i · (exp (l i j) / z i).
   Everything is stated over the reals the entries denote; the result array holds the reals' images in the extended reals.
   Under finiteness of the entries both programs compute this array. -/
import Idealize.ShloMosaic.PureOps.Ideal
import Idealize.ShloMosaic.Lib.ValueIdx
import Mathlib.Analysis.SpecialFunctions.Exp

noncomputable section

open scoped BigOperators

namespace Cert.Spec

open Idealize.ShloMosaic Idealize.ShloMosaic.ValueIdx

abbrev SBel : Shape := ⟨2, ![16, 8192]⟩
abbrev SEmb : Shape := ⟨2, ![8192, 128]⟩
abbrev SW : Shape := ⟨2, ![64, 128]⟩
abbrev SBias : Shape := ⟨1, ![64]⟩

/-- The six argument arrays, as extended reals. -/
structure Args where
  bel : SBel.Idx → EReal
  emb : SEmb.Idx → EReal
  wk : SW.Idx → EReal
  bk : SBias.Idx → EReal
  wq : SW.Idx → EReal
  bq : SBias.Idx → EReal

namespace Args

variable (a : Args)

/-- Every entry of every argument is a real number. -/
structure Finite : Prop where
  bel : ∀ y, ∃ r : ℝ, a.bel y = (r : EReal)
  emb : ∀ y, ∃ r : ℝ, a.emb y = (r : EReal)
  wk : ∀ y, ∃ r : ℝ, a.wk y = (r : EReal)
  bk : ∀ y, ∃ r : ℝ, a.bk y = (r : EReal)
  wq : ∀ y, ∃ r : ℝ, a.wq y = (r : EReal)
  bq : ∀ y, ∃ r : ℝ, a.bq y = (r : EReal)

def belR (b : Fin 16) (i : Fin 8192) : ℝ := (a.bel (ix2 b i)).toReal
def embR (i : Fin 8192) (d : Fin 128) : ℝ := (a.emb (ix2 i d)).toReal
def wkR (h : Fin 64) (d : Fin 128) : ℝ := (a.wk (ix2 h d)).toReal
def bkR (h : Fin 64) : ℝ := (a.bk (ix1 h)).toReal
def wqR (h : Fin 64) (d : Fin 128) : ℝ := (a.wq (ix2 h d)).toReal
def bqR (h : Fin 64) : ℝ := (a.bq (ix1 h)).toReal

/-- The query features of state `i`. -/
def qR (i : Fin 8192) (h : Fin 64) : ℝ := (∑ d : Fin 128, a.embR i d * a.wqR h d) + a.bqR h
/-- The key features of state `j`. -/
def kR (j : Fin 8192) (h : Fin 64) : ℝ := (∑ d : Fin 128, a.embR j d * a.wkR h d) + a.bkR h
/-- The logit of the transition from state `i` to state `j`. -/
def lR (i j : Fin 8192) : ℝ := ∑ h : Fin 64, a.qR i h * a.kR j h
/-- Row `i`'s normaliser. -/
def zR (i : Fin 8192) : ℝ := ∑ j : Fin 8192, Real.exp (a.lR i j)
/-- The propagated belief. -/
def outR (b : Fin 16) (j : Fin 8192) : ℝ := ∑ i : Fin 8192, a.belR b i * (Real.exp (a.lR i j) / a.zR i)

/-- The result array. -/
def G : SBel.Idx → EReal := fun y => ((a.outR (y 0) (y 1) : ℝ) : EReal)

theorem zR_pos (i : Fin 8192) : 0 < a.zR i :=
  Finset.sum_pos (fun j _ => Real.exp_pos _) ⟨⟨0, by decide⟩, Finset.mem_univ _⟩

variable {a}

theorem Finite.bel_eq (h : a.Finite) (b : Fin 16) (i : Fin 8192) : a.bel (ix2 b i) = (a.belR b i : EReal) := by
  obtain ⟨r, hr⟩ := h.bel (ix2 b i); unfold belR; rw [hr, EReal.toReal_coe]
theorem Finite.emb_eq (h : a.Finite) (i : Fin 8192) (d : Fin 128) : a.emb (ix2 i d) = (a.embR i d : EReal) := by
  obtain ⟨r, hr⟩ := h.emb (ix2 i d); unfold embR; rw [hr, EReal.toReal_coe]
theorem Finite.wk_eq (h : a.Finite) (x : Fin 64) (d : Fin 128) : a.wk (ix2 x d) = (a.wkR x d : EReal) := by
  obtain ⟨r, hr⟩ := h.wk (ix2 x d); unfold wkR; rw [hr, EReal.toReal_coe]
theorem Finite.bk_eq (h : a.Finite) (x : Fin 64) : a.bk (ix1 x) = (a.bkR x : EReal) := by
  obtain ⟨r, hr⟩ := h.bk (ix1 x); unfold bkR; rw [hr, EReal.toReal_coe]
theorem Finite.wq_eq (h : a.Finite) (x : Fin 64) (d : Fin 128) : a.wq (ix2 x d) = (a.wqR x d : EReal) := by
  obtain ⟨r, hr⟩ := h.wq (ix2 x d); unfold wqR; rw [hr, EReal.toReal_coe]
theorem Finite.bq_eq (h : a.Finite) (x : Fin 64) : a.bq (ix1 x) = (a.bqR x : EReal) := by
  obtain ⟨r, hr⟩ := h.bq (ix1 x); unfold bqR; rw [hr, EReal.toReal_coe]

end Args

end Cert.Spec

end
-- ==== Proof.KSpec.lean ====
/- The fused kernel's stages as functions on the extended reals, independent of any printed program.

   A grid point `t` works on slab `t`: rows `512·t … 512·t + 511` of the state table. From the slab's rows of the embedding
   table it forms the query features, multiplies them with the projected keys and exponentiates (the slab of unnormalised
   transition weights, 512 × 8192, produced in eight column chunks of 1024), sums each row chunk by chunk (the row's
   normaliser), divides the slab's columns of the belief batch by the normalisers, and a later point adds the product
   of the scaled beliefs with the slab into the output. -/
import proofs.«125546_g5935644803188_cont_9to1c4b_610_15_alg».proof.Proof.Spec

noncomputable section

open scoped BigOperators

namespace Cert.KSpec

open Idealize.ShloMosaic Idealize.ShloMosaic.ValueIdx
open Cert.Spec (SBel SEmb SW)

abbrev SK : Shape := ⟨2, ![64, 8192]⟩
abbrev SP : Shape := ⟨2, ![512, 8192]⟩
abbrev SWt : Shape := ⟨2, ![16, 512]⟩
abbrev SRow : Shape := ⟨2, ![1, 64]⟩
abbrev SCol : Shape := ⟨2, ![64, 1]⟩
abbrev SEb : Shape := ⟨2, ![512, 128]⟩
abbrev SQ : Shape := ⟨2, ![512, 64]⟩
abbrev SKc : Shape := ⟨2, ![64, 1024]⟩
abbrev SPc : Shape := ⟨2, ![512, 1024]⟩
abbrev SZ : Shape := ⟨2, ![512, 1]⟩

/-- Row `r` of slab `t`. -/
def slabIdx (t : Fin 16) (r : Fin 512) : Fin 8192 := ⟨512 * t.val + r.val, by omega⟩
/-- Column `j` of chunk `c`. -/
def chunkIdx (c : Fin 8) (j : Fin 1024) : Fin 8192 := ⟨1024 * c.val + j.val, by omega⟩

/-! ## On blocks, as the body's operations see them -/

/-- Query features of a block of 512 embedding rows. -/
def qB (eb : SEb.Idx → EReal) (wq : SW.Idx → EReal) (bqr : SRow.Idx → EReal) (r : Fin 512) (h : Fin 64) : EReal :=
  (∑ d : Fin 128, eb (ix2 r d) * wq (ix2 h d)) + bqr (ix2 0 h)
/-- One column chunk of the slab: exponentials of the logits against 1024 projected keys. -/
def pB (q : Fin 512 → Fin 64 → EReal) (kc : SKc.Idx → EReal) (r : Fin 512) (j : Fin 1024) : EReal :=
  Ideal.exp (∑ h : Fin 64, q r h * kc (ix2 h j))
/-- A chunk's row sums. -/
def sB (q : Fin 512 → Fin 64 → EReal) (kc : SKc.Idx → EReal) (r : Fin 512) : EReal := ∑ j : Fin 1024, pB q kc r j

/-! ## On whole arrays -/

/-- The projected keys, transposed: entry (h, j) is key feature h of state j. -/
def ktF (wk : SW.Idx → EReal) (emb : SEmb.Idx → EReal) (bkc : SCol.Idx → EReal) (h : Fin 64) (j : Fin 8192) : EReal :=
  (∑ d : Fin 128, wk (ix2 h d) * emb (ix2 j d)) + bkc (ix2 h 0)
def ktE (wk : SW.Idx → EReal) (emb : SEmb.Idx → EReal) (bkc : SCol.Idx → EReal) : SK.Idx → EReal :=
  fun y => ktF wk emb bkc (y 0) (y 1)

/-- Slab `t`'s query features. -/
def qF (emb : SEmb.Idx → EReal) (wq : SW.Idx → EReal) (bqr : SRow.Idx → EReal) (t : Fin 16) (r : Fin 512) (h : Fin 64) : EReal :=
  (∑ d : Fin 128, emb (ix2 (slabIdx t r) d) * wq (ix2 h d)) + bqr (ix2 0 h)
/-- Slab `t`'s unnormalised weights against the keys `K`. -/
def pF (q : Fin 512 → Fin 64 → EReal) (K : SK.Idx → EReal) (r : Fin 512) (j : Fin 8192) : EReal :=
  Ideal.exp (∑ h : Fin 64, q r h * K (ix2 h j))
/-- Row `r`'s sum over chunk `c`. -/
def cF (p : Fin 512 → Fin 8192 → EReal) (c : Fin 8) (r : Fin 512) : EReal := ∑ j : Fin 1024, p r (chunkIdx c j)
/-- Row `r`'s normaliser, the eight chunk sums added in order. -/
def zF (p : Fin 512 → Fin 8192 → EReal) (r : Fin 512) : EReal :=
  cF p 0 r + cF p 1 r + cF p 2 r + cF p 3 r + cF p 4 r + cF p 5 r + cF p 6 r + cF p 7 r
/-- Slab `t`'s columns of the beliefs, each divided by its row's normaliser. -/
def wF (bel : SBel.Idx → EReal) (z : Fin 512 → EReal) (t : Fin 16) (b : Fin 16) (r : Fin 512) : EReal :=
  Ideal.div (bel (ix2 b (slabIdx t r))) (z r)

/-- What a point leaves in a slab buffer. -/
def prodP (emb : SEmb.Idx → EReal) (wq : SW.Idx → EReal) (bqr : SRow.Idx → EReal) (K : SK.Idx → EReal) (t : Fin 16) : SP.Idx → EReal :=
  fun y => pF (qF emb wq bqr t) K (y 0) (y 1)
/-- What it leaves in the buffer of scaled beliefs. -/
def prodW (bel : SBel.Idx → EReal) (emb : SEmb.Idx → EReal) (wq : SW.Idx → EReal) (bqr : SRow.Idx → EReal) (K : SK.Idx → EReal) (t : Fin 16) : SWt.Idx → EReal :=
  fun y => wF bel (zF (pF (qF emb wq bqr t) K)) t (y 0) (y 1)
/-- The output after a slab has been accumulated into it. -/
def accF (out : SBel.Idx → EReal) (w : SWt.Idx → EReal) (p : SP.Idx → EReal) (b : Fin 16) (j : Fin 8192) : EReal :=
  out (ix2 b j) + ∑ k : Fin 512, w (ix2 b k) * p (ix2 k j)
def acc (out : SBel.Idx → EReal) (w : SWt.Idx → EReal) (p : SP.Idx → EReal) : SBel.Idx → EReal :=
  fun y => accF out w p (y 0) (y 1)

end Cert.KSpec

end
-- ==== Proof.KI.ValCommon.lean ====
/- What the body's loads read, at an index: a slab's rows of the embedding table, its columns of the beliefs, a column chunk
   of the projected keys; and the slab a point works on. -/
import proofs.«125546_g5935644803188_cont_9to1c4b_610_15_alg».proof.Proof.KI.Data
import proofs.«125546_g5935644803188_cont_9to1c4b_610_15_alg».proof.Proof.KSpec
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec

/-- The slab a point works on: its grid coordinate. -/
def tOf (i : grid0.Coords) : Fin 16 := i 0

theorem hz2 : (![0, 0] : Fin 2 → Nat) = fun _ => 0 := funext fun a => by fin_cases a <;> rfl

/-- The word product 512 · n read as a natural, for n below 16 (no wrap). -/
theorem off_word (n : Nat) (hn : n < 16) :
    (Scalar.indexCast (Scalar.muli (BitVec.ofNat 32 n) 512#32)).toNat = 512 * n := by
  show ((BitVec.ofNat 32 n) * 512#32).toNat = 512 * n
  rw [BitVec.toNat_mul, BitVec.toNat_ofNat]
  simp
  omega

/-- The embedding load's offsets at an even point: the slab's first row, column 0. -/
theorem k0_off1_eq (i : grid0.Coords) : k0_off1 i = ![512 * (tOf i).val, 0] := by
  show ![(Scalar.indexCast (Scalar.muli (BitVec.ofNat 32 (i 0).val) 512#32)).toNat, 0] = _
  rw [off_word (i 0).val (tOf i).isLt]; rfl
/-- The same at an odd point. -/
theorem k0_off3_eq (i : grid0.Coords) : k0_off3 i = ![512 * (tOf i).val, 0] := by
  show ![(Scalar.indexCast (Scalar.muli (BitVec.ofNat 32 (i 0).val) 512#32)).toNat, 0] = _
  rw [off_word (i 0).val (tOf i).isLt]; rfl
/-- The belief load's offsets at an even point: row 0, the slab's first column. -/
theorem k0_off2_eq (i : grid0.Coords) : k0_off2 i = ![0, 512 * (tOf i).val] := by
  show ![0, (Scalar.indexCast (Scalar.muli (BitVec.ofNat 32 (i 0).val) 512#32)).toNat] = _
  rw [off_word (i 0).val (tOf i).isLt]; rfl
/-- The same at an odd point. -/
theorem k0_off4_eq (i : grid0.Coords) : k0_off4 i = ![0, 512 * (tOf i).val] := by
  show ![0, (Scalar.indexCast (Scalar.muli (BitVec.ofNat 32 (i 0).val) 512#32)).toNat] = _
  rw [off_word (i 0).val (tOf i).isLt]; rfl

variable {Val : EltTy → Type}

/-- The load of 512 embedding rows at an even point reads slab `tOf i`'s rows. -/
theorem ld_emb_even (i : grid0.Coords) (inb : ∀ a, k0_off1 i a + S512x128.size a ≤ S8192x128.size a) (x2 : S8192x128.Idx → Val .f32) (r : Fin 512) (d : Fin 128) :
    View.ld x2 (Rect.unit (s := S8192x128) (k0_off1 i) S512x128.size inb) (ix2 r d) = x2 (ix2 (slabIdx (tOf i) r) d) := by
  show x2 _ = x2 _
  refine congrArg x2 (funext fun a => Fin.ext ?_)
  show k0_off1 i a + 1 * (ix2 r d a).val = (ix2 (slabIdx (tOf i) r) d a).val
  rw [k0_off1_eq]
  match a with
  | ⟨0, _⟩ => show 512 * (tOf i).val + 1 * r.val = 512 * (tOf i).val + r.val; omega
  | ⟨1, _⟩ => show 0 + 1 * d.val = d.val; omega
/-- The same at an odd point. -/
theorem ld_emb_odd (i : grid0.Coords) (inb : ∀ a, k0_off3 i a + S512x128.size a ≤ S8192x128.size a) (x2 : S8192x128.Idx → Val .f32) (r : Fin 512) (d : Fin 128) :
    View.ld x2 (Rect.unit (s := S8192x128) (k0_off3 i) S512x128.size inb) (ix2 r d) = x2 (ix2 (slabIdx (tOf i) r) d) := by
  show x2 _ = x2 _
  refine congrArg x2 (funext fun a => Fin.ext ?_)
  show k0_off3 i a + 1 * (ix2 r d a).val = (ix2 (slabIdx (tOf i) r) d a).val
  rw [k0_off3_eq]
  match a with
  | ⟨0, _⟩ => show 512 * (tOf i).val + 1 * r.val = 512 * (tOf i).val + r.val; omega
  | ⟨1, _⟩ => show 0 + 1 * d.val = d.val; omega
/-- The load of 512 belief columns at an even point reads slab `tOf i`'s columns. -/
theorem ld_bel_even (i : grid0.Coords) (inb : ∀ a, k0_off2 i a + S16x512.size a ≤ S16x8192.size a) (x1 : S16x8192.Idx → Val .f32) (b : Fin 16) (r : Fin 512) :
    View.ld x1 (Rect.unit (s := S16x8192) (k0_off2 i) S16x512.size inb) (ix2 b r) = x1 (ix2 b (slabIdx (tOf i) r)) := by
  show x1 _ = x1 _
  refine congrArg x1 (funext fun a => Fin.ext ?_)
  show k0_off2 i a + 1 * (ix2 b r a).val = (ix2 b (slabIdx (tOf i) r) a).val
  rw [k0_off2_eq]
  match a with
  | ⟨0, _⟩ => show 0 + 1 * b.val = b.val; omega
  | ⟨1, _⟩ => show 512 * (tOf i).val + 1 * r.val = 512 * (tOf i).val + r.val; omega
/-- The same at an odd point. -/
theorem ld_bel_odd (i : grid0.Coords) (inb : ∀ a, k0_off4 i a + S16x512.size a ≤ S16x8192.size a) (x1 : S16x8192.Idx → Val .f32) (b : Fin 16) (r : Fin 512) :
    View.ld x1 (Rect.unit (s := S16x8192) (k0_off4 i) S16x512.size inb) (ix2 b r) = x1 (ix2 b (slabIdx (tOf i) r)) := by
  show x1 _ = x1 _
  refine congrArg x1 (funext fun a => Fin.ext ?_)
  show k0_off4 i a + 1 * (ix2 b r a).val = (ix2 b (slabIdx (tOf i) r) a).val
  rw [k0_off4_eq]
  match a with
  | ⟨0, _⟩ => show 0 + 1 * b.val = b.val; omega
  | ⟨1, _⟩ => show 512 * (tOf i).val + 1 * r.val = 512 * (tOf i).val + r.val; omega
/-- A load of 1024 columns of the projected keys at column offset `1024·c` reads chunk `c`. -/
theorem ld_keys (c : Fin 8) (off : Fin 2 → ℕ) (hoff : off = ![0, 1024 * c.val]) (inb : ∀ a, off a + S64x1024.size a ≤ S64x8192.size a) (x8 : S64x8192.Idx → Val .bf16) (h : Fin 64) (j : Fin 1024) :
    View.ld x8 (Rect.unit (s := S64x8192) off S64x1024.size inb) (ix2 h j) = x8 (ix2 h (chunkIdx c j)) := by
  subst hoff
  show x8 _ = x8 _
  refine congrArg x8 (funext fun a => Fin.ext ?_)
  show (![0, 1024 * c.val] : Fin 2 → ℕ) a + 1 * (ix2 h j a).val = (ix2 h (chunkIdx c j) a).val
  match a with
  | ⟨0, _⟩ => show 0 + 1 * h.val = h.val; omega
  | ⟨1, _⟩ => show 1024 * c.val + 1 * j.val = 1024 * c.val + j.val; omega
/-- A column of a 512 × 8192 slab lies in exactly one chunk. -/
theorem exists_chunk (j : Fin 8192) : ∃ (c : Fin 8) (j' : Fin 1024), j = chunkIdx c j' :=
  ⟨⟨j.val / 1024, by omega⟩, ⟨j.val % 1024, Nat.mod_lt _ (by decide)⟩, Fin.ext (by unfold chunkIdx; dsimp only; omega)⟩

end Cert.KernelIdeal.Body

end
-- ==== Proof.KI.PayEven.lean ====
/- The body's payloads read at an index, at the exact instance: each store's value and each partial result as the
   stage it is (query features of a block, a column chunk of exponentials, a chunk's row sums, the scaled beliefs, the
   accumulation), over the values the body loaded. -/
import proofs.«125546_g5935644803188_cont_9to1c4b_610_15_alg».proof.Proof.Gen.KernelIdeal.Skeleton
import proofs.«125546_g5935644803188_cont_9to1c4b_610_15_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx Cert.KernelIdeal Cert.KernelIdeal.Gen Cert.KSpec

/-! ## The products: one contracting axis each

For each of the body's four dimension records: where the two operand indices sit on each axis (the output's coordinate on the
kept axis, the contraction's one coordinate on the contracted one), and the product into a zero accumulator read at an
output index as the sum over the contracted coordinate. -/

theorem lhs_keys_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_keys_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_keys_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhs_keys_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The key projection times the embedding table, both contracted along their 128 columns, into zero: entry (h, j) sums over the embedding coordinate. -/
theorem matmul_keys_apply (x : FVec Ideal S64x128 .f32) (y : FVec Ideal S8192x128 .f32) (p : Fin 64) (c : Fin 8192) :
    matmul dot_S64x128_S8192x128_S64x8192_1_1_0_0_n_n none x y (constant (F := Ideal) S64x8192 .f32 0x00000000#32) (ix2 p c)
      = ∑ k : Fin 128, x (ix2 p k) * y (ix2 c k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 p c) ((contrEquiv1 dot_S64x128_S8192x128_S64x8192_1_1_0_0_n_n 128 rfl rfl).symm k) = ix2 p k := funext fun a => Fin.ext (by
    match a with
    | ⟨0, _⟩ => exact lhs_keys_0 _ _
    | ⟨1, _⟩ => exact (lhs_keys_1 _ _).trans hk)
  have er : dot_S64x128_S8192x128_S64x8192_1_1_0_0_n_n.rhsIdx (ix2 p c) ((contrEquiv1 dot_S64x128_S8192x128_S64x8192_1_1_0_0_n_n 128 rfl rfl).symm k) = ix2 c k := funext fun a => Fin.ext (by
    match a with
    | ⟨0, _⟩ => exact rhs_keys_0 _ _
    | ⟨1, _⟩ => exact (rhs_keys_1 _ _).trans hk)
  rw [el, er]

theorem lhs_query_0 (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem lhs_query_1 (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem rhs_query_0 (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem rhs_query_1 (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q

/-- A block of 512 embedding rows times the query projection, both contracted along their 128 columns, into zero. -/
theorem matmul_query_apply (x : FVec Ideal S512x128 .f32) (y : FVec Ideal S64x128 .f32) (p : Fin 512) (c : Fin 64) :
    matmul dot_S512x128_S64x128_S512x64_1_1_0_0_n_n none x y (constant (F := Ideal) S512x64 .f32 0x00000000#32) (ix2 p c)
      = ∑ k : Fin 128, x (ix2 p k) * y (ix2 c k) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 p c) ((contrEquiv1 dot_S512x128_S64x128_S512x64_1_1_0_0_n_n 128 rfl rfl).symm k) = ix2 p k := funext fun a => Fin.ext (by
    match a with
    | ⟨0, _⟩ => exact lhs_query_0 _ _
    | ⟨1, _⟩ => exact (lhs_query_1 _ _).trans hk)
  have er : dot_S512x128_S64x128_S512x64_1_1_0_0_n_n.rhsIdx (ix2 p c) ((contrEquiv1 dot_S512x128_S64x128_S512x64_1_1_0_0_n_n 128 rfl rfl).symm k) = ix2 c k := funext fun a => Fin.ext (by
    match a with
    | ⟨0, _⟩ => exact rhs_query_0 _ _
    | ⟨1, _⟩ => exact (rhs_query_1 _ _).trans hk)
  rw [el, er]

theorem lhs_logit_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_logit_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_logit_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_logit_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- A block of 512 rows of 64 features times 64 features of 1024 columns, into zero: entry (r, j) sums over the features. -/
theorem matmul_logit_apply (x : FVec Ideal S512x64 .bf16) (y : FVec Ideal S64x1024 .bf16) (p : Fin 512) (c : Fin 1024) :
    matmul dot_S512x64_S64x1024_S512x1024_1_0_0_1_n_n none x y (constant (F := Ideal) S512x1024 .f32 0x00000000#32) (ix2 p c)
      = ∑ k : Fin 64, x (ix2 p k) * y (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p c) ((contrEquiv1 dot_S512x64_S64x1024_S512x1024_1_0_0_1_n_n 64 rfl rfl).symm k) = ix2 p k := funext fun a => Fin.ext (by
    match a with
    | ⟨0, _⟩ => exact lhs_logit_0 _ _
    | ⟨1, _⟩ => exact (lhs_logit_1 _ _).trans hk)
  have er : dot_S512x64_S64x1024_S512x1024_1_0_0_1_n_n.rhsIdx (ix2 p c) ((contrEquiv1 dot_S512x64_S64x1024_S512x1024_1_0_0_1_n_n 64 rfl rfl).symm k) = ix2 k c := funext fun a => Fin.ext (by
    match a with
    | ⟨0, _⟩ => exact (rhs_logit_0 _ _).trans hk
    | ⟨1, _⟩ => exact rhs_logit_1 _ _)
  rw [el, er]

theorem lhs_accum_0 (i : S16x8192.Idx) (q : dot_S16x512_S512x8192_S16x8192_1_0_0_1_n_n.contr.Idx) :
    (dot_S16x512_S512x8192_S16x8192_1_0_0_1_n_n.lhsIdx i q 0).val = (i 0).val := by
  unfold DotDims.lhsIdx
  rw [dif_neg (show ¬(0 : Fin S16x512.rank) ∈ dot_S16x512_S512x8192_S16x8192_1_0_0_1_n_n.lhsBatch by decide), dif_pos (show (0 : Fin S16x512.rank) ∈ dot_S16x512_S512x8192_S16x8192_1_0_0_1_n_n.lhsNonContracting by decide)]
  rfl
theorem lhs_accum_1 (i : S16x8192.Idx) (q : dot_S16x512_S512x8192_S16x8192_1_0_0_1_n_n.contr.Idx) :
    (dot_S16x512_S512x8192_S16x8192_1_0_0_1_n_n.lhsIdx i q 1).val = (q ⟨0, by decide⟩).val :=
  dot_S16x512_S512x8192_S16x8192_1_0_0_1_n_n.lhsIdx_val_of_single rfl i q
theorem rhs_accum_0 (i : S16x8192.Idx) (q : dot_S16x512_S512x8192_S16x8192_1_0_0_1_n_n.contr.Idx) :
    (dot_S16x512_S512x8192_S16x8192_1_0_0_1_n_n.rhsIdx i q 0).val = (q ⟨0, by decide⟩).val :=
  dot_S16x512_S512x8192_S16x8192_1_0_0_1_n_n.rhsIdx_val_of_single rfl i q
theorem rhs_accum_1 (i : S16x8192.Idx) (q : dot_S16x512_S512x8192_S16x8192_1_0_0_1_n_n.contr.Idx) :
    (dot_S16x512_S512x8192_S16x8192_1_0_0_1_n_n.rhsIdx i q 1).val = (i 1).val := by
  unfold DotDims.rhsIdx
  rw [dif_neg (show ¬(1 : Fin S512x8192.rank) ∈ dot_S16x512_S512x8192_S16x8192_1_0_0_1_n_n.rhsBatch by decide), dif_pos (show (1 : Fin S512x8192.rank) ∈ dot_S16x512_S512x8192_S16x8192_1_0_0_1_n_n.rhsNonContracting by decide)]
  rfl

/-- The scaled beliefs (16 × 512) times a slab (512 × 8192), into zero: entry (b, j) sums over the slab's rows. -/
theorem matmul_accum_apply (x : FVec Ideal S16x512 .bf16) (y : FVec Ideal S512x8192 .bf16) (p : Fin 16) (c : Fin 8192) :
    matmul dot_S16x512_S512x8192_S16x8192_1_0_0_1_n_n none x y (constant (F := Ideal) S16x8192 .f32 0x00000000#32) (ix2 p c)
      = ∑ k : Fin 512, x (ix2 p k) * y (ix2 k c) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  have el : dot_S16x512_S512x8192_S16x8192_1_0_0_1_n_n.lhsIdx (ix2 p c) ((contrEquiv1 dot_S16x512_S512x8192_S16x8192_1_0_0_1_n_n 512 rfl rfl).symm k) = ix2 p k := funext fun a => Fin.ext (by
    match a with
    | ⟨0, _⟩ => exact lhs_accum_0 _ _
    | ⟨1, _⟩ => exact (lhs_accum_1 _ _).trans hk)
  have er : dot_S16x512_S512x8192_S16x8192_1_0_0_1_n_n.rhsIdx (ix2 p c) ((contrEquiv1 dot_S16x512_S512x8192_S16x8192_1_0_0_1_n_n 512 rfl rfl).symm k) = ix2 k c := funext fun a => Fin.ext (by
    match a with
    | ⟨0, _⟩ => exact (rhs_accum_0 _ _).trans hk
    | ⟨1, _⟩ => exact rhs_accum_1 _ _)
  rw [el, er]

/-! ## Layout operations of a kept unit axis, read at coordinates -/

/-- A vector cast to a column, [a] → [a, 1], reads at (i, u) the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows, [a, 1] → [a, b], reads at (p, c) the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word broadcast reads the extended real zero everywhere. -/
theorem broadcast_zero_apply {s : Shape} (i : s.Idx) :
    broadcast s (Scalar.ofBits (F := Ideal) .f32 0x00000000#32) i = (0 : EReal) := by
  rw [broadcast_apply]
  exact Ideal.ofBits_zero_f32

/-- A row's lane sum over the 1024 columns of a block. -/
theorem rowsum_apply (x : FVec Ideal S512x1024 .f32) (hφ : FKind.Formats .f32)
    (hacc : (0x00000000#32 : BitVec FTy.f32.bits) = FKind.add.neutral .f32 hφ) (r : Fin 512) :
    multiReduction (F := Ideal) .add [1] S512 x 0x00000000#32 reduces_S512x1024_S512 hφ hacc (ix1 r) = ∑ j : Fin 1024, x (ix2 r j) :=
  (Ideal.multiReduction_add_single x _ reduces_S512x1024_S512 hφ hacc (ix1 r)).trans
    (Finset.sum_congr rfl fun k _ => congrArg x (funext fun c => Fin.ext (by
      match c with
      | ⟨0, _⟩ => rfl
      | ⟨1, _⟩ => rfl)))

/-- The same sum kept as a column: the lane sum cast [512] → [512, 1]. -/
theorem rowsum_col_apply (x : FVec Ideal S512x1024 .f32) (hφ : FKind.Formats .f32)
    (hacc : (0x00000000#32 : BitVec FTy.f32.bits) = FKind.add.neutral .f32 hφ) (r : Fin 512) (u : Fin 1) :
    shapeCast S512x1 (multiReduction (F := Ideal) .add [1] S512 x 0x00000000#32 reduces_S512x1024_S512 hφ hacc) shapeCasts_S512_S512x1 (ix2 r u)
      = ∑ j : Fin 1024, x (ix2 r j) :=
  (shapeCast_a_a1_apply _ shapeCasts_S512_S512x1 r u).trans (rowsum_apply x hφ hacc r)

/-! ## The stages on a block -/

/-- The exponentials of a block's logits against a chunk of 1024 keys. -/
theorem exp_logit_apply (q : FVec Ideal S512x64 .bf16) (kc : FVec Ideal S64x1024 .bf16) (r : Fin 512) (j : Fin 1024) :
    exp (matmul dot_S512x64_S64x1024_S512x1024_1_0_0_1_n_n none q kc (constant (F := Ideal) S512x1024 .f32 0x00000000#32)) (ix2 r j)
      = pB (fun r h => q (ix2 r h)) kc r j := by
  unfold pB
  show FloatOps.exp (matmul dot_S512x64_S64x1024_S512x1024_1_0_0_1_n_n none q kc (constant (F := Ideal) S512x1024 .f32 0x00000000#32) (ix2 r j)) = _
  rw [matmul_logit_apply, Ideal.exp_def]

/-- The lane sums, kept as a column, of a block that is a chunk of exponentials: the chunk's row sums. -/
theorem rowsum_col_eq_sB (x : FVec Ideal S512x1024 .f32) (q : Fin 512 → Fin 64 → EReal) (kc : SKc.Idx → EReal)
    (hx : ∀ r j, x (ix2 r j) = pB q kc r j) (hφ : FKind.Formats .f32)
    (hacc : (0x00000000#32 : BitVec FTy.f32.bits) = FKind.add.neutral .f32 hφ) (r : Fin 512) (u : Fin 1) :
    shapeCast S512x1 (multiReduction (F := Ideal) .add [1] S512 x 0x00000000#32 reduces_S512x1024_S512 hφ hacc) shapeCasts_S512_S512x1 (ix2 r u)
      = sB q kc r :=
  (rowsum_col_apply x hφ hacc r u).trans (Finset.sum_congr rfl fun j _ => hx r j)

/-! ## The first point's stores -/

theorem pay1_apply (v23 : Vec Ideal S64x128 .f32) (v24 : Vec Ideal S8192x128 .f32) (v26 : Vec Ideal S64x1 .f32) (h : Fin 64) (j : Fin 8192) :
    k0_pay1 (F := Ideal) v23 v24 v26 (ix2 h j) = ktF v23 v24 v26 h j := by
  unfold k0_pay1 ktF
  rw [shapeCast_self, truncf_apply, addf_apply, matmul_keys_apply, broadcastTo_a1_ab_apply, shapeCast_self]

theorem pay2_apply (y : S16x8192.Idx) : k0_pay2 (F := Ideal) y = 0 := by
  unfold k0_pay2
  exact broadcast_zero_apply y

/-! ## The accumulation (three textual copies of one payload) -/

theorem pay13_apply (v23 : Vec Ideal S16x8192 .f32) (v25 : Vec Ideal S16x512 .bf16) (v26 : Vec Ideal S512x8192 .bf16) (b : Fin 16) (j : Fin 8192) :
    k0_pay13 (F := Ideal) v23 v25 v26 (ix2 b j) = accF v23 v25 v26 b j := by
  unfold k0_pay13 accF
  rw [addf_apply, shapeCast_self, matmul_accum_apply]
theorem pay14_apply (v23 : Vec Ideal S16x8192 .f32) (v25 : Vec Ideal S16x512 .bf16) (v26 : Vec Ideal S512x8192 .bf16) (b : Fin 16) (j : Fin 8192) :
    k0_pay14 (F := Ideal) v23 v25 v26 (ix2 b j) = accF v23 v25 v26 b j := by
  unfold k0_pay14 accF
  rw [addf_apply, shapeCast_self, matmul_accum_apply]
theorem pay15_apply (v23 : Vec Ideal S16x8192 .f32) (v25 : Vec Ideal S16x512 .bf16) (v26 : Vec Ideal S512x8192 .bf16) (b : Fin 16) (j : Fin 8192) :
    k0_pay15 (F := Ideal) v23 v25 v26 (ix2 b j) = accF v23 v25 v26 b j := by
  unfold k0_pay15 accF
  rw [addf_apply, shapeCast_self, matmul_accum_apply]

/-! ## A slab produced at an even point -/

theorem pay16_apply (v25 : Vec Ideal S512x128 .f32) (v26 : Vec Ideal S64x128 .f32) (v28 : Vec Ideal S1x64 .f32) (r : Fin 512) (h : Fin 64) :
    k0_pay16 (F := Ideal) v25 v26 v28 (ix2 r h) = qB v25 v26 v28 r h := by
  unfold k0_pay16 qB
  rw [truncf_apply, addf_apply, matmul_query_apply, broadcastTo_1b_ab_apply, shapeCast_self]
/-- The exponentials of the block's logits against the chunk of keys `v34`, before the format change. -/
theorem pay17_apply (v25 : Vec Ideal S512x128 .f32) (v26 : Vec Ideal S64x128 .f32) (v28 : Vec Ideal S1x64 .f32) (v34 : Vec Ideal S64x1024 .bf16) (r : Fin 512) (j : Fin 1024) :
    k0_pay17 (F := Ideal) v25 v26 v28 v34 (ix2 r j) = pB (qB v25 v26 v28) v34 r j := by
  unfold k0_pay17
  rw [exp_logit_apply]
  simp only [pay16_apply]
theorem pay18_apply (v25 : Vec Ideal S512x128 .f32) (v26 : Vec Ideal S64x128 .f32) (v28 : Vec Ideal S1x64 .f32) (v34 : Vec Ideal S64x1024 .bf16) (r : Fin 512) (j : Fin 1024) :
    k0_pay18 (F := Ideal) v25 v26 v28 v34 (ix2 r j) = pB (qB v25 v26 v28) v34 r j := by
  unfold k0_pay18
  rw [shapeCast_self, truncf_apply, pay17_apply]
/-- The exponentials of the block's logits against the chunk of keys `v44`, before the format change. -/
theorem pay19_apply (v25 : Vec Ideal S512x128 .f32) (v26 : Vec Ideal S64x128 .f32) (v28 : Vec Ideal S1x64 .f32) (v44 : Vec Ideal S64x1024 .bf16) (r : Fin 512) (j : Fin 1024) :
    k0_pay19 (F := Ideal) v25 v26 v28 v44 (ix2 r j) = pB (qB v25 v26 v28) v44 r j := by
  unfold k0_pay19
  rw [exp_logit_apply]
  simp only [pay16_apply]
theorem pay21_apply (v25 : Vec Ideal S512x128 .f32) (v26 : Vec Ideal S64x128 .f32) (v28 : Vec Ideal S1x64 .f32) (v44 : Vec Ideal S64x1024 .bf16) (r : Fin 512) (j : Fin 1024) :
    k0_pay21 (F := Ideal) v25 v26 v28 v44 (ix2 r j) = pB (qB v25 v26 v28) v44 r j := by
  unfold k0_pay21
  rw [shapeCast_self, truncf_apply, pay19_apply]
theorem pay22_apply (v25 : Vec Ideal S512x128 .f32) (v26 : Vec Ideal S64x128 .f32) (v28 : Vec Ideal S1x64 .f32) (v54 : Vec Ideal S64x1024 .bf16) (r : Fin 512) (j : Fin 1024) :
    k0_pay22 (F := Ideal) v25 v26 v28 v54 (ix2 r j) = pB (qB v25 v26 v28) v54 r j := by
  unfold k0_pay22
  rw [exp_logit_apply]
  simp only [pay16_apply]
theorem pay20_apply (v25 : Vec Ideal S512x128 .f32) (v26 : Vec Ideal S64x128 .f32) (v28 : Vec Ideal S1x64 .f32) (v34 : Vec Ideal S64x1024 .bf16) (v44 : Vec Ideal S64x1024 .bf16) (r : Fin 512) :
    k0_pay20 (F := Ideal) v25 v26 v28 v34 v44 (ix2 r 0) = sB (qB v25 v26 v28) v34 r + sB (qB v25 v26 v28) v44 r := by
  unfold k0_pay20
  rw [addf_apply, addf_apply, broadcast_zero_apply, zero_add]
  exact congrArg₂ (· + ·) (rowsum_col_eq_sB _ _ _ (pay17_apply v25 v26 v28 v34) _ _ r 0)
    (rowsum_col_eq_sB _ _ _ (pay19_apply v25 v26 v28 v44) _ _ r 0)
theorem pay23_apply (v56 : FVec Ideal S512x1024 .f32) (y : S512x1024.Idx) : k0_pay23 (F := Ideal) v56 y = v56 y := by
  unfold k0_pay23
  rw [shapeCast_self, truncf_apply]
/-- The exponentials of the carried block's logits against the chunk of keys `v64`, before the format change. -/
theorem pay24_apply (v32 : FVec Ideal S512x64 .bf16) (v64 : Vec Ideal S64x1024 .bf16) (r : Fin 512) (j : Fin 1024) :
    k0_pay24 (F := Ideal) v32 v64 (ix2 r j) = pB (fun r h => v32 (ix2 r h)) v64 r j := by
  unfold k0_pay24
  exact exp_logit_apply v32 v64 r j
theorem pay25_apply (v32 : FVec Ideal S512x64 .bf16) (v64 : Vec Ideal S64x1024 .bf16) (r : Fin 512) (j : Fin 1024) :
    k0_pay25 (F := Ideal) v32 v64 (ix2 r j) = pB (fun r h => v32 (ix2 r h)) v64 r j := by
  unfold k0_pay25
  rw [shapeCast_self, truncf_apply, pay24_apply]
/-- The exponentials of the carried block's logits against the chunk of keys `v74`, before the format change. -/
theorem pay26_apply (v32 : FVec Ideal S512x64 .bf16) (v74 : Vec Ideal S64x1024 .bf16) (r : Fin 512) (j : Fin 1024) :
    k0_pay26 (F := Ideal) v32 v74 (ix2 r j) = pB (fun r h => v32 (ix2 r h)) v74 r j := by
  unfold k0_pay26
  exact exp_logit_apply v32 v74 r j
theorem pay27_apply (v32 : FVec Ideal S512x64 .bf16) (v74 : Vec Ideal S64x1024 .bf16) (r : Fin 512) (j : Fin 1024) :
    k0_pay27 (F := Ideal) v32 v74 (ix2 r j) = pB (fun r h => v32 (ix2 r h)) v74 r j := by
  unfold k0_pay27
  rw [shapeCast_self, truncf_apply, pay26_apply]
/-- The exponentials of the carried block's logits against the chunk of keys `v84`, before the format change. -/
theorem pay28_apply (v32 : FVec Ideal S512x64 .bf16) (v84 : Vec Ideal S64x1024 .bf16) (r : Fin 512) (j : Fin 1024) :
    k0_pay28 (F := Ideal) v32 v84 (ix2 r j) = pB (fun r h => v32 (ix2 r h)) v84 r j := by
  unfold k0_pay28
  exact exp_logit_apply v32 v84 r j
theorem pay30_apply (v32 : FVec Ideal S512x64 .bf16) (v84 : Vec Ideal S64x1024 .bf16) (r : Fin 512) (j : Fin 1024) :
    k0_pay30 (F := Ideal) v32 v84 (ix2 r j) = pB (fun r h => v32 (ix2 r h)) v84 r j := by
  unfold k0_pay30
  rw [shapeCast_self, truncf_apply, pay28_apply]
/-- The exponentials of the carried block's logits against the chunk of keys `v94`, before the format change. -/
theorem pay3_apply (v32 : FVec Ideal S512x64 .bf16) (v94 : Vec Ideal S64x1024 .bf16) (r : Fin 512) (j : Fin 1024) :
    k0_pay3 (F := Ideal) v32 v94 (ix2 r j) = pB (fun r h => v32 (ix2 r h)) v94 r j := by
  unfold k0_pay3
  exact exp_logit_apply v32 v94 r j
theorem pay4_apply (v32 : FVec Ideal S512x64 .bf16) (v94 : Vec Ideal S64x1024 .bf16) (r : Fin 512) (j : Fin 1024) :
    k0_pay4 (F := Ideal) v32 v94 (ix2 r j) = pB (fun r h => v32 (ix2 r h)) v94 r j := by
  unfold k0_pay4
  rw [shapeCast_self, truncf_apply, pay3_apply]
/-- The exponentials of the carried block's logits against the chunk of keys `v104`, before the format change. -/
theorem pay5_apply (v32 : FVec Ideal S512x64 .bf16) (v104 : Vec Ideal S64x1024 .bf16) (r : Fin 512) (j : Fin 1024) :
    k0_pay5 (F := Ideal) v32 v104 (ix2 r j) = pB (fun r h => v32 (ix2 r h)) v104 r j := by
  unfold k0_pay5
  exact exp_logit_apply v32 v104 r j
theorem pay6_apply (v32 : FVec Ideal S512x64 .bf16) (v104 : Vec Ideal S64x1024 .bf16) (r : Fin 512) (j : Fin 1024) :
    k0_pay6 (F := Ideal) v32 v104 (ix2 r j) = pB (fun r h => v32 (ix2 r h)) v104 r j := by
  unfold k0_pay6
  rw [shapeCast_self, truncf_apply, pay5_apply]
theorem pay29_apply (v32 : FVec Ideal S512x64 .bf16) (v49 : FVec Ideal S512x1 .f32) (v56 : FVec Ideal S512x1024 .f32) (v64 : Vec Ideal S64x1024 .bf16) (v74 : Vec Ideal S64x1024 .bf16) (v84 : Vec Ideal S64x1024 .bf16) (r : Fin 512) :
    k0_pay29 (F := Ideal) v32 v49 v56 v64 v74 v84 (ix2 r 0)
      = v49 (ix2 r 0) + (∑ j : Fin 1024, v56 (ix2 r j)) + sB (fun r h => v32 (ix2 r h)) v64 r + sB (fun r h => v32 (ix2 r h)) v74 r + sB (fun r h => v32 (ix2 r h)) v84 r := by
  unfold k0_pay29
  rw [addf_apply, addf_apply, addf_apply, addf_apply]
  exact congrArg₂ (· + ·) (congrArg₂ (· + ·) (congrArg₂ (· + ·) (congrArg (v49 (ix2 r 0) + ·) (rowsum_col_apply v56 _ _ r 0))
    (rowsum_col_eq_sB _ _ _ (pay24_apply v32 v64) _ _ r 0))
    (rowsum_col_eq_sB _ _ _ (pay26_apply v32 v74) _ _ r 0))
    (rowsum_col_eq_sB _ _ _ (pay28_apply v32 v84) _ _ r 0)
theorem pay7_apply (v32 : FVec Ideal S512x64 .bf16) (v89 : FVec Ideal S512x1 .f32) (v94 : Vec Ideal S64x1024 .bf16) (v104 : Vec Ideal S64x1024 .bf16) (v117 : Vec Ideal S16x512 .f32) (b : Fin 16) (r : Fin 512) :
    k0_pay7 (F := Ideal) v32 v89 v94 v104 v117 (ix2 b r)
      = Ideal.div (v117 (ix2 b r)) (v89 (ix2 r 0) + sB (fun r h => v32 (ix2 r h)) v94 r + sB (fun r h => v32 (ix2 r h)) v104 r) := by
  unfold k0_pay7
  rw [shapeCast_self, truncf_apply, divf_apply, broadcastTo_1b_ab_apply, transpose_ix2_apply, addf_apply, addf_apply]
  exact congrArg (Ideal.div (v117 (ix2 b r))) (congrArg₂ (· + ·) (congrArg (v89 (ix2 r 0) + ·)
    (rowsum_col_eq_sB _ _ _ (pay3_apply v32 v94) _ _ r 0))
    (rowsum_col_eq_sB _ _ _ (pay5_apply v32 v104) _ _ r 0))

end Cert.KernelIdeal.Pay

end
-- ==== Proof.KI.ValA.lean ====
/- What the body leaves in each buffer it stores into at the first point, at the exact instance, as the stage it is. -/
import proofs.«125546_g5935644803188_cont_9to1c4b_610_15_alg».proof.Proof.KI.ValCommon
import proofs.«125546_g5935644803188_cont_9to1c4b_610_15_alg».proof.Proof.KI.PayEven
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec
open Cert.KernelIdeal.Pay

/-! ## The slab's stages over what the body loaded

`E` is a block of 512 embedding rows that is slab `t`'s, `Kc` a block of 1024 key columns that is chunk `c` of the
projected keys `K`. -/

section Stages

variable (x2 : Vec Ideal S8192x128 .f32) (x3 : Vec Ideal S64x128 .f32) (x4 : Vec Ideal S1x64 .f32)
  (K : SK.Idx → EReal) (t : Fin 16)

/-- The projected keys the first point stores, as one function of the index. -/
theorem vA_keys (x5 : Vec Ideal S64x128 .f32) (x6 : Vec Ideal S64x1 .f32) :
    k0_pay1 (F := Ideal) x5 x2 x6 = ktE x5 x2 x6 := by
  funext y
  obtain ⟨h, j, rfl⟩ : ∃ (h : Fin 64) (j : Fin 8192), y = ix2 h j := ⟨y 0, y 1, eq_ix2 y⟩
  rw [Pay.pay1_apply]; rfl

/-- A load, through any rectangle, of a buffer that one store through the whole buffer has just filled reads what was
    stored at the rectangle's indices. -/
theorem vA_back (v : View sig .tc .vmem S64x8192 .bf16) (inb0 : ∀ a, (![0, 0] : Fin 2 → ℕ) a + S64x8192.size a ≤ S64x8192.size a)
    (w : Vec Ideal S64x8192 .bf16) (r : Rect S64x8192) :
    v.readCov [(⟨Rect.unit ![0, 0] S64x8192.size inb0, w⟩ : View.Piece (Elt Ideal) S64x8192 .bf16)] r.toLoadRect = View.ld w r := by
  rw [View.readCov_eq_canon', View.canon_unit_zero hz2]

/-- The query features of a block of embedding rows that is slab `t`'s are slab `t`'s query features. -/
theorem vA_q (E : Vec Ideal S512x128 .f32) (hE : ∀ (r : Fin 512) (d : Fin 128), E (ix2 r d) = x2 (ix2 (slabIdx t r) d)) :
    qB E x3 x4 = qF x2 x3 x4 t := by
  funext r h; unfold qB qF; simp only [hE]

/-- A column chunk of exponentials against chunk `c` of the keys is the slab's weights at chunk `c`'s columns, -/
theorem vA_p (q : Fin 512 → Fin 64 → EReal) (c : Fin 8) (Kc : Vec Ideal S64x1024 .bf16)
    (hK : ∀ (h : Fin 64) (j : Fin 1024), Kc (ix2 h j) = K (ix2 h (chunkIdx c j))) (r : Fin 512) (j : Fin 1024) :
    pB q Kc r j = pF q K r (chunkIdx c j) := by
  unfold pB pF; simp only [hK]

/-- and its row sums are the rows' sums over chunk `c`. -/
theorem vA_s (q : Fin 512 → Fin 64 → EReal) (c : Fin 8) (Kc : Vec Ideal S64x1024 .bf16)
    (hK : ∀ (h : Fin 64) (j : Fin 1024), Kc (ix2 h j) = K (ix2 h (chunkIdx c j))) (r : Fin 512) :
    sB q Kc r = cF (pF q K) c r := by
  unfold sB cF; exact Finset.sum_congr rfl fun j _ => vA_p K q c Kc hK r j

/-- A chunk computed from the stored query features. -/
theorem vA_chunk_q (P : FVec Ideal S512x64 .bf16 → Vec Ideal S64x1024 .bf16 → FVec Ideal S512x1024 .bf16)
    (hP : ∀ (v32 : FVec Ideal S512x64 .bf16) (v : Vec Ideal S64x1024 .bf16) (r : Fin 512) (j : Fin 1024),
      P v32 v (ix2 r j) = pB (fun r h => v32 (ix2 r h)) v r j)
    (E : Vec Ideal S512x128 .f32) (hE : ∀ (r : Fin 512) (d : Fin 128), E (ix2 r d) = x2 (ix2 (slabIdx t r) d))
    (c : Fin 8) (Kc : Vec Ideal S64x1024 .bf16)
    (hK : ∀ (h : Fin 64) (j : Fin 1024), Kc (ix2 h j) = K (ix2 h (chunkIdx c j))) (r : Fin 512) (j : Fin 1024) :
    P (k0_pay16 (F := Ideal) E x3 x4) Kc (ix2 r j) = pF (qF x2 x3 x4 t) K r (chunkIdx c j) := by
  have hq : (fun (r : Fin 512) (h : Fin 64) => k0_pay16 (F := Ideal) E x3 x4 (ix2 r h)) = qF x2 x3 x4 t := by
    funext r h; rw [Pay.pay16_apply, vA_q x2 x3 x4 t E hE]
  rw [hP, hq]; exact vA_p K _ c Kc hK r j

/-- A chunk computed from the loaded rows directly. -/
theorem vA_chunk_e (P : Vec Ideal S512x128 .f32 → Vec Ideal S64x128 .f32 → Vec Ideal S1x64 .f32 → Vec Ideal S64x1024 .bf16 → S512x1024.Idx → EReal)
    (hP : ∀ (v25 : Vec Ideal S512x128 .f32) (v26 : Vec Ideal S64x128 .f32) (v28 : Vec Ideal S1x64 .f32) (v : Vec Ideal S64x1024 .bf16) (r : Fin 512) (j : Fin 1024),
      P v25 v26 v28 v (ix2 r j) = pB (qB v25 v26 v28) v r j)
    (E : Vec Ideal S512x128 .f32) (hE : ∀ (r : Fin 512) (d : Fin 128), E (ix2 r d) = x2 (ix2 (slabIdx t r) d))
    (c : Fin 8) (Kc : Vec Ideal S64x1024 .bf16)
    (hK : ∀ (h : Fin 64) (j : Fin 1024), Kc (ix2 h j) = K (ix2 h (chunkIdx c j))) (r : Fin 512) (j : Fin 1024) :
    P E x3 x4 Kc (ix2 r j) = pF (qF x2 x3 x4 t) K r (chunkIdx c j) := by
  rw [hP, vA_q x2 x3 x4 t E hE]; exact vA_p K _ c Kc hK r j

/-- A piece stored at column offset `1024·c` whose payload is chunk `c` of the slab is the slab at the piece's own indices. -/
theorem vA_piece (c : Fin 8) (off : Fin 2 → ℕ) (hoff : off = ![0, 1024 * c.val])
    (inb : ∀ a, off a + S512x1024.size a ≤ S512x8192.size a) (w : S512x1024.Idx → EReal)
    (hw : ∀ (r : Fin 512) (j : Fin 1024), w (ix2 r j) = pF (qF x2 x3 x4 t) K r (chunkIdx c j)) (x : S512x1024.Idx) :
    w x = prodP x2 x3 x4 K t ((Rect.unit (s := S512x8192) off S512x1024.size inb).emb x) := by
  subst hoff
  obtain ⟨r, j, rfl⟩ : ∃ (r : Fin 512) (j : Fin 1024), x = ix2 r j := ⟨x 0, x 1, eq_ix2 x⟩
  rw [hw]
  exact congrArg₂ (pF (qF x2 x3 x4 t) K)
    (Fin.ext (show r.val = 0 + 1 * r.val by omega))
    (Fin.ext (show (chunkIdx c j).val = 1024 * c.val + 1 * j.val by unfold chunkIdx; dsimp only; omega))

/-- A load of 1024 columns at column offset `1024·c` of the keys' buffer, after one store through the whole buffer filled
    it with `w`, reads chunk `c` of `w`. -/
theorem vA_keys_chunk (v : View sig .tc .vmem S64x8192 .bf16) (inb0 : ∀ a, (![0, 0] : Fin 2 → ℕ) a + S64x8192.size a ≤ S64x8192.size a)
    (w : Vec Ideal S64x8192 .bf16) (c : Fin 8) (off : Fin 2 → ℕ) (hoff : off = ![0, 1024 * c.val])
    (inb : ∀ a, off a + S64x1024.size a ≤ S64x8192.size a) (h : Fin 64) (j : Fin 1024) :
    v.readCov [(⟨Rect.unit ![0, 0] S64x8192.size inb0, w⟩ : View.Piece (Elt Ideal) S64x8192 .bf16)]
        (Rect.unit (s := S64x8192) off S64x1024.size inb).toLoadRect (ix2 h j) = w (ix2 h (chunkIdx c j)) := by
  rw [vA_back]; exact ld_keys (Val := Elt Ideal) c off hoff inb w h j

/-- The scaled beliefs: the slab's columns of the beliefs over the eight chunk sums added in the body's order. -/
theorem vA_w (x1 : Vec Ideal S16x8192 .f32) (E : Vec Ideal S512x128 .f32)
    (hE : ∀ (r : Fin 512) (d : Fin 128), E (ix2 r d) = x2 (ix2 (slabIdx t r) d))
    (K0 K1 K2 K3 K4 K5 K6 K7 : Vec Ideal S64x1024 .bf16)
    (hK0 : ∀ (h : Fin 64) (j : Fin 1024), K0 (ix2 h j) = K (ix2 h (chunkIdx 0 j)))
    (hK1 : ∀ (h : Fin 64) (j : Fin 1024), K1 (ix2 h j) = K (ix2 h (chunkIdx 1 j)))
    (hK2 : ∀ (h : Fin 64) (j : Fin 1024), K2 (ix2 h j) = K (ix2 h (chunkIdx 2 j)))
    (hK3 : ∀ (h : Fin 64) (j : Fin 1024), K3 (ix2 h j) = K (ix2 h (chunkIdx 3 j)))
    (hK4 : ∀ (h : Fin 64) (j : Fin 1024), K4 (ix2 h j) = K (ix2 h (chunkIdx 4 j)))
    (hK5 : ∀ (h : Fin 64) (j : Fin 1024), K5 (ix2 h j) = K (ix2 h (chunkIdx 5 j)))
    (hK6 : ∀ (h : Fin 64) (j : Fin 1024), K6 (ix2 h j) = K (ix2 h (chunkIdx 6 j)))
    (hK7 : ∀ (h : Fin 64) (j : Fin 1024), K7 (ix2 h j) = K (ix2 h (chunkIdx 7 j)))
    (Bel : Vec Ideal S16x512 .f32) (hBel : ∀ (b : Fin 16) (r : Fin 512), Bel (ix2 b r) = x1 (ix2 b (slabIdx t r)))
    (b : Fin 16) (r : Fin 512) :
    k0_pay7 (F := Ideal) (k0_pay16 E x3 x4)
        (k0_pay29 (k0_pay16 E x3 x4) (k0_pay20 E x3 x4 K0 K1) (k0_pay22 E x3 x4 K2) K3 K4 K5) K6 K7 Bel (ix2 b r)
      = wF x1 (zF (pF (qF x2 x3 x4 t) K)) t b r := by
  have hq : (fun (r : Fin 512) (h : Fin 64) => k0_pay16 (F := Ideal) E x3 x4 (ix2 r h)) = qF x2 x3 x4 t := by
    funext r h; rw [Pay.pay16_apply, vA_q x2 x3 x4 t E hE]
  rw [Pay.pay7_apply, Pay.pay29_apply, Pay.pay20_apply, hq]
  simp only [Pay.pay22_apply]
  rw [vA_q x2 x3 x4 t E hE]
  show Ideal.div (Bel (ix2 b r))
      (sB (qF x2 x3 x4 t) K0 r + sB (qF x2 x3 x4 t) K1 r + sB (qF x2 x3 x4 t) K2 r + sB (qF x2 x3 x4 t) K3 r
        + sB (qF x2 x3 x4 t) K4 r + sB (qF x2 x3 x4 t) K5 r + sB (qF x2 x3 x4 t) K6 r + sB (qF x2 x3 x4 t) K7 r) = _
  rw [vA_s K _ 0 K0 hK0 r, vA_s K _ 1 K1 hK1 r, vA_s K _ 2 K2 hK2 r, vA_s K _ 3 K3 hK3 r, vA_s K _ 4 K4 hK4 r,
    vA_s K _ 5 K5 hK5 r, vA_s K _ 6 K6 hK6 r, vA_s K _ 7 K7 hK7 r, hBel]
  rfl

end Stages

theorem vA_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec Ideal S16x8192 .f32) (x2 : Vec Ideal S8192x128 .f32) (x3 : Vec Ideal S64x128 .f32) (x4 : Vec Ideal S1x64 .f32) (x5 : Vec Ideal S64x128 .f32) (x6 : Vec Ideal S64x1 .f32) : cA_7 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6 = fun _ => 0 := by
  -- one store through the whole buffer: the zeros
  unfold cA_7; rw [View.read_writes_junk_eq_canon]; unfold runA; dsimp only; sl_unfold_words
  rw [View.canon_unit_zero hz2]
  funext y
  exact Pay.pay2_apply y
theorem vA_8 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec Ideal S16x8192 .f32) (x2 : Vec Ideal S8192x128 .f32) (x3 : Vec Ideal S64x128 .f32) (x4 : Vec Ideal S1x64 .f32) (x5 : Vec Ideal S64x128 .f32) (x6 : Vec Ideal S64x1 .f32) : cA_8 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6 = ktE x5 x2 x6 := by
  -- one store through the whole buffer: the projected keys, read entry by entry
  unfold cA_8; rw [View.read_writes_junk_eq_canon]; unfold runA; dsimp only; sl_unfold_words
  rw [View.canon_unit_zero hz2]
  simp only [View.readAt_eq_ld, harg5.read_unread, harg2.read_unread, harg6.read_unread,
    View.ld_unit_zero (S := S64x128) hz2, View.ld_unit_zero (S := S8192x128) hz2, View.ld_unit_zero (S := S64x1) hz2]
  funext y
  obtain ⟨h, j, rfl⟩ : ∃ (h : Fin 64) (j : Fin 8192), y = ix2 h j := ⟨y 0, y 1, eq_ix2 y⟩
  rw [Pay.pay1_apply]; rfl
theorem vA_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec Ideal S16x8192 .f32) (x2 : Vec Ideal S8192x128 .f32) (x3 : Vec Ideal S64x128 .f32) (x4 : Vec Ideal S1x64 .f32) (x5 : Vec Ideal S64x128 .f32) (x6 : Vec Ideal S64x1 .f32) : cA_9 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6 = prodP x2 x3 x4 (ktE x5 x2 x6) (tOf i) := by
  unfold cA_9; rw [View.read_writes_junk_eq_canon]
  funext y
  refine View.canon_apply_of_pieces (prodP x2 x3 x4 (ktE x5 x2 x6) (tOf i)) _ ?_ y (covA_9 c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6 y)
  unfold runA; dsimp only; sl_unfold_run_names
  simp only [View.readAt_eq_ld, harg2.read_unread, harg3.read_unread, harg4.read_unread, harg5.read_unread, harg6.read_unread,
    View.ld_unit_zero (S := S64x128) hz2, View.ld_unit_zero (S := S8192x128) hz2, View.ld_unit_zero (S := S64x1) hz2,
    View.ld_unit_zero (S := S1x64) hz2, vA_keys]
  -- eight pieces tile the buffer by column chunks; piece `c` is the slab at chunk `c`'s columns, its keys read back from
  -- the projected keys stored at this point
  intro p hp
  simp only [List.mem_cons, List.not_mem_nil, or_false] at hp
  rcases hp with rfl | rfl | rfl | rfl | rfl | rfl | rfl | rfl
  · refine vA_piece x2 x3 x4 (ktE x5 x2 x6) (tOf i) 7 ![0, 7168] rfl inb_S512x8192_S512x1024_0_7168 _ ?_
    intro r j
    exact vA_chunk_q x2 x3 x4 (ktE x5 x2 x6) (tOf i) (k0_pay6 (F := Ideal)) Pay.pay6_apply _ (ld_emb_even (Val := Elt Ideal) i (k0_off1_inb i h2) x2) 7 _ (fun h j => vA_keys_chunk arg8.view inb_S64x8192_S64x8192_0_0 (ktE x5 x2 x6) 7 ![0, 7168] rfl inb_S64x8192_S64x1024_0_7168 h j) r j
  · refine vA_piece x2 x3 x4 (ktE x5 x2 x6) (tOf i) 6 ![0, 6144] rfl inb_S512x8192_S512x1024_0_6144 _ ?_
    intro r j
    exact vA_chunk_q x2 x3 x4 (ktE x5 x2 x6) (tOf i) (k0_pay4 (F := Ideal)) Pay.pay4_apply _ (ld_emb_even (Val := Elt Ideal) i (k0_off1_inb i h2) x2) 6 _ (fun h j => vA_keys_chunk arg8.view inb_S64x8192_S64x8192_0_0 (ktE x5 x2 x6) 6 ![0, 6144] rfl inb_S64x8192_S64x1024_0_6144 h j) r j
  · refine vA_piece x2 x3 x4 (ktE x5 x2 x6) (tOf i) 5 ![0, 5120] rfl inb_S512x8192_S512x1024_0_5120 _ ?_
    intro r j
    exact vA_chunk_q x2 x3 x4 (ktE x5 x2 x6) (tOf i) (k0_pay30 (F := Ideal)) Pay.pay30_apply _ (ld_emb_even (Val := Elt Ideal) i (k0_off1_inb i h2) x2) 5 _ (fun h j => vA_keys_chunk arg8.view inb_S64x8192_S64x8192_0_0 (ktE x5 x2 x6) 5 ![0, 5120] rfl inb_S64x8192_S64x1024_0_5120 h j) r j
  · refine vA_piece x2 x3 x4 (ktE x5 x2 x6) (tOf i) 4 ![0, 4096] rfl inb_S512x8192_S512x1024_0_4096 _ ?_
    intro r j
    exact vA_chunk_q x2 x3 x4 (ktE x5 x2 x6) (tOf i) (k0_pay27 (F := Ideal)) Pay.pay27_apply _ (ld_emb_even (Val := Elt Ideal) i (k0_off1_inb i h2) x2) 4 _ (fun h j => vA_keys_chunk arg8.view inb_S64x8192_S64x8192_0_0 (ktE x5 x2 x6) 4 ![0, 4096] rfl inb_S64x8192_S64x1024_0_4096 h j) r j
  · refine vA_piece x2 x3 x4 (ktE x5 x2 x6) (tOf i) 3 ![0, 3072] rfl inb_S512x8192_S512x1024_0_3072 _ ?_
    intro r j
    exact vA_chunk_q x2 x3 x4 (ktE x5 x2 x6) (tOf i) (k0_pay25 (F := Ideal)) Pay.pay25_apply _ (ld_emb_even (Val := Elt Ideal) i (k0_off1_inb i h2) x2) 3 _ (fun h j => vA_keys_chunk arg8.view inb_S64x8192_S64x8192_0_0 (ktE x5 x2 x6) 3 ![0, 3072] rfl inb_S64x8192_S64x1024_0_3072 h j) r j
  · refine vA_piece x2 x3 x4 (ktE x5 x2 x6) (tOf i) 2 ![0, 2048] rfl inb_S512x8192_S512x1024_0_2048 _ ?_
    intro r j
    refine (Pay.pay23_apply _ (ix2 r j)).trans ?_
    exact vA_chunk_e x2 x3 x4 (ktE x5 x2 x6) (tOf i) (k0_pay22 (F := Ideal)) Pay.pay22_apply _ (ld_emb_even (Val := Elt Ideal) i (k0_off1_inb i h2) x2) 2 _ (fun h j => vA_keys_chunk arg8.view inb_S64x8192_S64x8192_0_0 (ktE x5 x2 x6) 2 ![0, 2048] rfl inb_S64x8192_S64x1024_0_2048 h j) r j
  · refine vA_piece x2 x3 x4 (ktE x5 x2 x6) (tOf i) 1 ![0, 1024] rfl inb_S512x8192_S512x1024_0_1024 _ ?_
    intro r j
    exact vA_chunk_e x2 x3 x4 (ktE x5 x2 x6) (tOf i) (k0_pay21 (F := Ideal)) Pay.pay21_apply _ (ld_emb_even (Val := Elt Ideal) i (k0_off1_inb i h2) x2) 1 _ (fun h j => vA_keys_chunk arg8.view inb_S64x8192_S64x8192_0_0 (ktE x5 x2 x6) 1 ![0, 1024] rfl inb_S64x8192_S64x1024_0_1024 h j) r j
  · refine vA_piece x2 x3 x4 (ktE x5 x2 x6) (tOf i) 0 ![0, 0] rfl inb_S512x8192_S512x1024_0_0 _ ?_
    intro r j
    exact vA_chunk_e x2 x3 x4 (ktE x5 x2 x6) (tOf i) (k0_pay18 (F := Ideal)) Pay.pay18_apply _ (ld_emb_even (Val := Elt Ideal) i (k0_off1_inb i h2) x2) 0 _ (fun h j => vA_keys_chunk arg8.view inb_S64x8192_S64x8192_0_0 (ktE x5 x2 x6) 0 ![0, 0] rfl inb_S64x8192_S64x1024_0_0 h j) r j
theorem vA_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : gInit i) (h2 : gEven i) (h3 : ¬gOdd i) (h4 : ¬gAccB i) (h5 : ¬gAccA i) (h6 : ¬gTail i) (x1 : Vec Ideal S16x8192 .f32) (x2 : Vec Ideal S8192x128 .f32) (x3 : Vec Ideal S64x128 .f32) (x4 : Vec Ideal S1x64 .f32) (x5 : Vec Ideal S64x128 .f32) (x6 : Vec Ideal S64x1 .f32) : cA_11 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x5 x6 = prodW x1 x2 x3 x4 (ktE x5 x2 x6) (tOf i) := by
  unfold cA_11; rw [View.read_writes_junk_eq_canon]; unfold runA; dsimp only; sl_unfold_run_names
  rw [View.canon_unit_zero hz2]
  simp only [View.readAt_eq_ld, harg1.read_unread, harg2.read_unread, harg3.read_unread, harg4.read_unread, harg5.read_unread,
    harg6.read_unread, View.ld_unit_zero (S := S64x128) hz2, View.ld_unit_zero (S := S8192x128) hz2,
    View.ld_unit_zero (S := S64x1) hz2, View.ld_unit_zero (S := S1x64) hz2, vA_keys]
  -- one store through the whole buffer: the beliefs' columns over the row sums, the eight chunk sums added in order
  funext y
  obtain ⟨b, r, rfl⟩ : ∃ (b : Fin 16) (r : Fin 512), y = ix2 b r := ⟨y 0, y 1, eq_ix2 y⟩
  exact vA_w x2 x3 x4 (ktE x5 x2 x6) (tOf i) x1 _ (ld_emb_even (Val := Elt Ideal) i (k0_off1_inb i h2) x2) _ _ _ _ _ _ _ _
    (fun h j => vA_keys_chunk arg8.view inb_S64x8192_S64x8192_0_0 (ktE x5 x2 x6) 0 ![0, 0] rfl inb_S64x8192_S64x1024_0_0 h j)
    (fun h j => vA_keys_chunk arg8.view inb_S64x8192_S64x8192_0_0 (ktE x5 x2 x6) 1 ![0, 1024] rfl inb_S64x8192_S64x1024_0_1024 h j)
    (fun h j => vA_keys_chunk arg8.view inb_S64x8192_S64x8192_0_0 (ktE x5 x2 x6) 2 ![0, 2048] rfl inb_S64x8192_S64x1024_0_2048 h j)
    (fun h j => vA_keys_chunk arg8.view inb_S64x8192_S64x8192_0_0 (ktE x5 x2 x6) 3 ![0, 3072] rfl inb_S64x8192_S64x1024_0_3072 h j)
    (fun h j => vA_keys_chunk arg8.view inb_S64x8192_S64x8192_0_0 (ktE x5 x2 x6) 4 ![0, 4096] rfl inb_S64x8192_S64x1024_0_4096 h j)
    (fun h j => vA_keys_chunk arg8.view inb_S64x8192_S64x8192_0_0 (ktE x5 x2 x6) 5 ![0, 5120] rfl inb_S64x8192_S64x1024_0_5120 h j)
    (fun h j => vA_keys_chunk arg8.view inb_S64x8192_S64x8192_0_0 (ktE x5 x2 x6) 6 ![0, 6144] rfl inb_S64x8192_S64x1024_0_6144 h j)
    (fun h j => vA_keys_chunk arg8.view inb_S64x8192_S64x8192_0_0 (ktE x5 x2 x6) 7 ![0, 7168] rfl inb_S64x8192_S64x1024_0_7168 h j)
    _ (ld_bel_even (Val := Elt Ideal) i (k0_off2_inb i h2) x1) b r
end Cert.KernelIdeal.Body

end
-- ==== Proof.KI.ValB.lean ====
/- What the body leaves in each buffer it stores into at an even point after the first, at the exact instance, as the stage it is. -/
import proofs.«125546_g5935644803188_cont_9to1c4b_610_15_alg».proof.Proof.KI.ValCommon
import proofs.«125546_g5935644803188_cont_9to1c4b_610_15_alg».proof.Proof.KI.PayEven
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec
open Cert.KernelIdeal.Pay

/-! ## Blocks and chunks -/

/-- A chunk's rectangle of a slab buffer places local column `j` of row `r` at column `1024·c + j` of that row. -/
private theorem emb_chunk (c : Fin 8) (off : Fin 2 → ℕ) (hoff : off = ![0, 1024 * c.val]) (inb : ∀ a, off a + S512x1024.size a ≤ S512x8192.size a) (r : Fin 512) (j : Fin 1024) :
    (Rect.unit (s := S512x8192) off S512x1024.size inb).emb (ix2 r j) = ix2 r (chunkIdx c j) := by
  subst hoff
  refine Shape.idx_ext₂ ?_ ?_
  · show 0 + 1 * r.val = r.val; omega
  · show 1024 * c.val + 1 * j.val = 1024 * c.val + j.val; omega

/-- Query features of the block of embedding rows a point loads are its slab's query features. -/
private theorem qB_eq_qF (x2 : Vec Ideal S8192x128 .f32) (x3 : Vec Ideal S64x128 .f32) (x4 : Vec Ideal S1x64 .f32) (t : Fin 16) (eb : Vec Ideal S512x128 .f32)
    (heb : ∀ (r : Fin 512) (d : Fin 128), eb (ix2 r d) = x2 (ix2 (slabIdx t r) d)) : qB eb x3 x4 = qF x2 x3 x4 t := by
  funext r h; unfold qB qF
  exact congrArg (· + x4 (ix2 0 h)) (Finset.sum_congr rfl fun d _ => congrArg (· * x3 (ix2 h d)) (heb r d))

/-- A chunk of exponentials against a loaded chunk of the keys is the slab's weights at the chunk's columns. -/
private theorem pB_eq_pF (x2 : Vec Ideal S8192x128 .f32) (x3 : Vec Ideal S64x128 .f32) (x4 : Vec Ideal S1x64 .f32) (x8 : Vec Ideal S64x8192 .bf16) (t : Fin 16) (c : Fin 8)
    (q : Fin 512 → Fin 64 → EReal) (hq : q = qF x2 x3 x4 t) (kc : Vec Ideal S64x1024 .bf16)
    (hk : ∀ (h : Fin 64) (j : Fin 1024), kc (ix2 h j) = x8 (ix2 h (chunkIdx c j))) (r : Fin 512) (j : Fin 1024) :
    pB q kc r j = pF (qF x2 x3 x4 t) x8 r (chunkIdx c j) := by
  subst hq; unfold pB pF
  exact congrArg Ideal.exp (Finset.sum_congr rfl fun h _ => congrArg (qF x2 x3 x4 t r h * ·) (hk h j))

/-- A piece stored at a chunk's rectangle whose payload is the slab's weights at the chunk's columns is a block of the slab. -/
private theorem chunk_piece (x2 : Vec Ideal S8192x128 .f32) (x3 : Vec Ideal S64x128 .f32) (x4 : Vec Ideal S1x64 .f32) (x8 : Vec Ideal S64x8192 .bf16) (t : Fin 16) (c : Fin 8)
    (off : Fin 2 → ℕ) (hoff : off = ![0, 1024 * c.val]) (inb : ∀ a, off a + S512x1024.size a ≤ S512x8192.size a) (w : Vec Ideal S512x1024 .bf16)
    (hw : ∀ (r : Fin 512) (j : Fin 1024), w (ix2 r j) = pF (qF x2 x3 x4 t) x8 r (chunkIdx c j))
    (x : (Rect.unit (s := S512x8192) off S512x1024.size inb).shape.Idx) :
    w x = prodP x2 x3 x4 x8 t ((Rect.unit (s := S512x8192) off S512x1024.size inb).emb x) := by
  obtain ⟨r, j, rfl⟩ : ∃ (r : Fin 512) (j : Fin 1024), x = ix2 r j := ⟨x 0, x 1, eq_ix2 x⟩
  rw [emb_chunk c off hoff inb r j]
  exact hw r j

/-- A chunk's row sums against a loaded chunk of the keys are the slab's weights summed over the chunk's columns. -/
private theorem sB_eq_cF (x2 : Vec Ideal S8192x128 .f32) (x3 : Vec Ideal S64x128 .f32) (x4 : Vec Ideal S1x64 .f32) (x8 : Vec Ideal S64x8192 .bf16) (t : Fin 16) (c : Fin 8)
    (q : Fin 512 → Fin 64 → EReal) (hq : q = qF x2 x3 x4 t) (kc : Vec Ideal S64x1024 .bf16)
    (hk : ∀ (h : Fin 64) (j : Fin 1024), kc (ix2 h j) = x8 (ix2 h (chunkIdx c j))) (r : Fin 512) :
    sB q kc r = cF (pF (qF x2 x3 x4 t) x8) c r := by
  unfold sB cF
  exact Finset.sum_congr rfl fun j _ => pB_eq_pF x2 x3 x4 x8 t c q hq kc hk r j

/-! ## The three buffers -/

/-- The output's staging buffer: the slab held in the second pair of buffers accumulated into what the output held. -/
theorem vB_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x10 : Vec Ideal S512x8192 .bf16) (x12 : Vec Ideal S16x512 .bf16) : cB_7 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12 = acc x7 x12 x10 := by
  unfold cB_7; rw [View.read_writes_junk_eq_canon]; unfold runB; dsimp only; sl_unfold_words
  rw [View.canon_unit_zero hz2]
  simp only [View.readAt_eq_ld, harg7.read_unread, harg12.read_unread, harg10.read_unread,
    View.ld_unit_zero (S := S16x8192) hz2, View.ld_unit_zero (S := S16x512) hz2, View.ld_unit_zero (S := S512x8192) hz2]
  funext y
  obtain ⟨b, j, rfl⟩ : ∃ (b : Fin 16) (j : Fin 8192), y = ix2 b j := ⟨y 0, y 1, eq_ix2 y⟩
  rw [pay13_apply]; rfl

/-- The first slab buffer: eight column chunks, each a block of the point's slab of weights. -/
theorem vB_9 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x10 : Vec Ideal S512x8192 .bf16) (x12 : Vec Ideal S16x512 .bf16) : cB_9 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12 = prodP x2 x3 x4 x8 (tOf i) := by
  unfold cB_9; rw [View.read_writes_junk_eq_canon]
  funext y
  refine View.canon_apply_of_pieces (prodP x2 x3 x4 x8 (tOf i)) _ ?_ y
    (covB_9 c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12 y)
  unfold runB; dsimp only; sl_unfold_words
  simp only [View.readAt_eq_ld, harg2.read_unread, harg3.read_unread, harg4.read_unread, harg8.read_unread,
    View.ld_unit_zero (S := S64x128) hz2, View.ld_unit_zero (S := S1x64) hz2]
  have hq : ∀ inb, qB (View.ld x2 (Rect.unit (s := S8192x128) (k0_off1 i) S512x128.size inb)) x3 x4 = qF x2 x3 x4 (tOf i) :=
    fun inb => qB_eq_qF x2 x3 x4 (tOf i) _ (ld_emb_even i inb x2)
  have hq' : ∀ inb, (fun (r : Fin 512) (h : Fin 64) => k0_pay16 (F := Ideal) (View.ld x2 (Rect.unit (s := S8192x128) (k0_off1 i) S512x128.size inb)) x3 x4 (ix2 r h)) = qF x2 x3 x4 (tOf i) :=
    fun inb => (funext fun r => funext fun h => pay16_apply _ x3 x4 r h).trans (hq inb)
  intro p hp
  simp only [List.mem_cons, List.not_mem_nil, or_false] at hp
  rcases hp with rfl | rfl | rfl | rfl | rfl | rfl | rfl | rfl <;> dsimp only
  · exact chunk_piece x2 x3 x4 x8 (tOf i) 7 _ (by rfl) _ _ fun r j =>
      (pay6_apply _ _ r j).trans (pB_eq_pF x2 x3 x4 x8 (tOf i) 7 _ (hq' _) _ (ld_keys 7 _ rfl _ x8) r j)
  · exact chunk_piece x2 x3 x4 x8 (tOf i) 6 _ (by rfl) _ _ fun r j =>
      (pay4_apply _ _ r j).trans (pB_eq_pF x2 x3 x4 x8 (tOf i) 6 _ (hq' _) _ (ld_keys 6 _ rfl _ x8) r j)
  · exact chunk_piece x2 x3 x4 x8 (tOf i) 5 _ (by rfl) _ _ fun r j =>
      (pay30_apply _ _ r j).trans (pB_eq_pF x2 x3 x4 x8 (tOf i) 5 _ (hq' _) _ (ld_keys 5 _ rfl _ x8) r j)
  · exact chunk_piece x2 x3 x4 x8 (tOf i) 4 _ (by rfl) _ _ fun r j =>
      (pay27_apply _ _ r j).trans (pB_eq_pF x2 x3 x4 x8 (tOf i) 4 _ (hq' _) _ (ld_keys 4 _ rfl _ x8) r j)
  · exact chunk_piece x2 x3 x4 x8 (tOf i) 3 _ (by rfl) _ _ fun r j =>
      (pay25_apply _ _ r j).trans (pB_eq_pF x2 x3 x4 x8 (tOf i) 3 _ (hq' _) _ (ld_keys 3 _ rfl _ x8) r j)
  · exact chunk_piece x2 x3 x4 x8 (tOf i) 2 _ (by rfl) _ _ fun r j =>
      (pay23_apply _ _).trans ((pay22_apply _ x3 x4 _ r j).trans (pB_eq_pF x2 x3 x4 x8 (tOf i) 2 _ (hq _) _ (ld_keys 2 _ rfl _ x8) r j))
  · exact chunk_piece x2 x3 x4 x8 (tOf i) 1 _ (by rfl) _ _ fun r j =>
      (pay21_apply _ x3 x4 _ r j).trans (pB_eq_pF x2 x3 x4 x8 (tOf i) 1 _ (hq _) _ (ld_keys 1 _ rfl _ x8) r j)
  · exact chunk_piece x2 x3 x4 x8 (tOf i) 0 _ (by rfl) _ _ fun r j =>
      (pay18_apply _ x3 x4 _ r j).trans (pB_eq_pF x2 x3 x4 x8 (tOf i) 0 _ (hq _) _ (ld_keys 0 _ rfl _ x8) r j)

/-- The first buffer of scaled beliefs: the slab's columns of the beliefs over the eight chunk sums added in order. -/
theorem vB_11 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : gEven i) (h3 : ¬gOdd i) (h4 : gAccB i) (h5 : ¬gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x10 : Vec Ideal S512x8192 .bf16) (x12 : Vec Ideal S16x512 .bf16) : cB_11 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x10 x12 = prodW x1 x2 x3 x4 x8 (tOf i) := by
  unfold cB_11; rw [View.read_writes_junk_eq_canon]; unfold runB; dsimp only; sl_unfold_words
  rw [View.canon_unit_zero hz2]
  simp only [View.readAt_eq_ld, harg1.read_unread, harg2.read_unread, harg3.read_unread, harg4.read_unread, harg8.read_unread,
    View.ld_unit_zero (S := S64x128) hz2, View.ld_unit_zero (S := S1x64) hz2]
  have hq : ∀ inb, qB (View.ld x2 (Rect.unit (s := S8192x128) (k0_off1 i) S512x128.size inb)) x3 x4 = qF x2 x3 x4 (tOf i) :=
    fun inb => qB_eq_qF x2 x3 x4 (tOf i) _ (ld_emb_even i inb x2)
  have hq' : ∀ inb, (fun (r : Fin 512) (h : Fin 64) => k0_pay16 (F := Ideal) (View.ld x2 (Rect.unit (s := S8192x128) (k0_off1 i) S512x128.size inb)) x3 x4 (ix2 r h)) = qF x2 x3 x4 (tOf i) :=
    fun inb => (funext fun r => funext fun h => pay16_apply _ x3 x4 r h).trans (hq inb)
  funext y
  obtain ⟨b, r, rfl⟩ : ∃ (b : Fin 16) (r : Fin 512), y = ix2 b r := ⟨y 0, y 1, eq_ix2 y⟩
  refine (pay7_apply _ _ _ _ _ b r).trans ?_
  show Ideal.div _ _ = Ideal.div (x1 (ix2 b (slabIdx (tOf i) r))) (zF (pF (qF x2 x3 x4 (tOf i)) x8) r)
  refine congrArg₂ Ideal.div (ld_bel_even i _ x1 b r) ?_
  unfold zF
  refine congrArg₂ (· + ·) (congrArg₂ (· + ·) ((pay29_apply _ _ _ _ _ _ r).trans ?_)
    (sB_eq_cF x2 x3 x4 x8 (tOf i) 6 _ (hq' _) _ (ld_keys 6 _ rfl _ x8) r))
    (sB_eq_cF x2 x3 x4 x8 (tOf i) 7 _ (hq' _) _ (ld_keys 7 _ rfl _ x8) r)
  refine congrArg₂ (· + ·) (congrArg₂ (· + ·) (congrArg₂ (· + ·) (congrArg₂ (· + ·) ?_ ?_)
    (sB_eq_cF x2 x3 x4 x8 (tOf i) 3 _ (hq' _) _ (ld_keys 3 _ rfl _ x8) r))
    (sB_eq_cF x2 x3 x4 x8 (tOf i) 4 _ (hq' _) _ (ld_keys 4 _ rfl _ x8) r))
    (sB_eq_cF x2 x3 x4 x8 (tOf i) 5 _ (hq' _) _ (ld_keys 5 _ rfl _ x8) r)
  · exact (pay20_apply _ x3 x4 _ _ r).trans (congrArg₂ (· + ·)
      (sB_eq_cF x2 x3 x4 x8 (tOf i) 0 _ (hq _) _ (ld_keys 0 _ rfl _ x8) r)
      (sB_eq_cF x2 x3 x4 x8 (tOf i) 1 _ (hq _) _ (ld_keys 1 _ rfl _ x8) r))
  · exact (Finset.sum_congr rfl fun j _ => pay22_apply _ x3 x4 _ r j).trans
      (sB_eq_cF x2 x3 x4 x8 (tOf i) 2 _ (hq _) _ (ld_keys 2 _ rfl _ x8) r)

end Cert.KernelIdeal.Body

end
-- ==== Proof.KI.PayOdd.lean ====
/- The body's payloads read at an index, at the exact instance: each store's value and each partial result as the
   stage it is (query features of a block, a column chunk of exponentials, a chunk's row sums, the scaled beliefs, the
   accumulation), over the values the body loaded. -/
import proofs.«125546_g5935644803188_cont_9to1c4b_610_15_alg».proof.Proof.Gen.KernelIdeal.Skeleton
import proofs.«125546_g5935644803188_cont_9to1c4b_610_15_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayO

open Idealize.ShloMosaic Idealize.ShloMosaic.ValueIdx Cert.KernelIdeal Cert.KernelIdeal.Gen Cert.KSpec

/-! ## The products: one contracting axis each

For each of the body's four dimension records: where the two operand indices sit on each axis (the output's coordinate on the
kept axis, the contraction's one coordinate on the contracted one), and the product into a zero accumulator read at an
output index as the sum over the contracted coordinate. -/

theorem lhs_keys_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_keys_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_keys_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhs_keys_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The key projection times the embedding table, both contracted along their 128 columns, into zero: entry (h, j) sums over the embedding coordinate. -/
theorem matmul_keys_apply (x : FVec Ideal S64x128 .f32) (y : FVec Ideal S8192x128 .f32) (p : Fin 64) (c : Fin 8192) :
    matmul dot_S64x128_S8192x128_S64x8192_1_1_0_0_n_n none x y (constant (F := Ideal) S64x8192 .f32 0x00000000#32) (ix2 p c)
      = ∑ k : Fin 128, x (ix2 p k) * y (ix2 c k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 p c) ((contrEquiv1 dot_S64x128_S8192x128_S64x8192_1_1_0_0_n_n 128 rfl rfl).symm k) = ix2 p k := funext fun a => Fin.ext (by
    match a with
    | ⟨0, _⟩ => exact lhs_keys_0 _ _
    | ⟨1, _⟩ => exact (lhs_keys_1 _ _).trans hk)
  have er : dot_S64x128_S8192x128_S64x8192_1_1_0_0_n_n.rhsIdx (ix2 p c) ((contrEquiv1 dot_S64x128_S8192x128_S64x8192_1_1_0_0_n_n 128 rfl rfl).symm k) = ix2 c k := funext fun a => Fin.ext (by
    match a with
    | ⟨0, _⟩ => exact rhs_keys_0 _ _
    | ⟨1, _⟩ => exact (rhs_keys_1 _ _).trans hk)
  rw [el, er]

theorem lhs_query_0 (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem lhs_query_1 (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem rhs_query_0 (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem rhs_query_1 (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q

/-- A block of 512 embedding rows times the query projection, both contracted along their 128 columns, into zero. -/
theorem matmul_query_apply (x : FVec Ideal S512x128 .f32) (y : FVec Ideal S64x128 .f32) (p : Fin 512) (c : Fin 64) :
    matmul dot_S512x128_S64x128_S512x64_1_1_0_0_n_n none x y (constant (F := Ideal) S512x64 .f32 0x00000000#32) (ix2 p c)
      = ∑ k : Fin 128, x (ix2 p k) * y (ix2 c k) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 p c) ((contrEquiv1 dot_S512x128_S64x128_S512x64_1_1_0_0_n_n 128 rfl rfl).symm k) = ix2 p k := funext fun a => Fin.ext (by
    match a with
    | ⟨0, _⟩ => exact lhs_query_0 _ _
    | ⟨1, _⟩ => exact (lhs_query_1 _ _).trans hk)
  have er : dot_S512x128_S64x128_S512x64_1_1_0_0_n_n.rhsIdx (ix2 p c) ((contrEquiv1 dot_S512x128_S64x128_S512x64_1_1_0_0_n_n 128 rfl rfl).symm k) = ix2 c k := funext fun a => Fin.ext (by
    match a with
    | ⟨0, _⟩ => exact rhs_query_0 _ _
    | ⟨1, _⟩ => exact (rhs_query_1 _ _).trans hk)
  rw [el, er]

theorem lhs_logit_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_logit_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_logit_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_logit_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- A block of 512 rows of 64 features times 64 features of 1024 columns, into zero: entry (r, j) sums over the features. -/
theorem matmul_logit_apply (x : FVec Ideal S512x64 .bf16) (y : FVec Ideal S64x1024 .bf16) (p : Fin 512) (c : Fin 1024) :
    matmul dot_S512x64_S64x1024_S512x1024_1_0_0_1_n_n none x y (constant (F := Ideal) S512x1024 .f32 0x00000000#32) (ix2 p c)
      = ∑ k : Fin 64, x (ix2 p k) * y (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p c) ((contrEquiv1 dot_S512x64_S64x1024_S512x1024_1_0_0_1_n_n 64 rfl rfl).symm k) = ix2 p k := funext fun a => Fin.ext (by
    match a with
    | ⟨0, _⟩ => exact lhs_logit_0 _ _
    | ⟨1, _⟩ => exact (lhs_logit_1 _ _).trans hk)
  have er : dot_S512x64_S64x1024_S512x1024_1_0_0_1_n_n.rhsIdx (ix2 p c) ((contrEquiv1 dot_S512x64_S64x1024_S512x1024_1_0_0_1_n_n 64 rfl rfl).symm k) = ix2 k c := funext fun a => Fin.ext (by
    match a with
    | ⟨0, _⟩ => exact (rhs_logit_0 _ _).trans hk
    | ⟨1, _⟩ => exact rhs_logit_1 _ _)
  rw [el, er]

theorem lhs_accum_0 (i : S16x8192.Idx) (q : dot_S16x512_S512x8192_S16x8192_1_0_0_1_n_n.contr.Idx) :
    (dot_S16x512_S512x8192_S16x8192_1_0_0_1_n_n.lhsIdx i q 0).val = (i 0).val := by
  unfold DotDims.lhsIdx
  rw [dif_neg (show ¬(0 : Fin S16x512.rank) ∈ dot_S16x512_S512x8192_S16x8192_1_0_0_1_n_n.lhsBatch by decide), dif_pos (show (0 : Fin S16x512.rank) ∈ dot_S16x512_S512x8192_S16x8192_1_0_0_1_n_n.lhsNonContracting by decide)]
  rfl
theorem lhs_accum_1 (i : S16x8192.Idx) (q : dot_S16x512_S512x8192_S16x8192_1_0_0_1_n_n.contr.Idx) :
    (dot_S16x512_S512x8192_S16x8192_1_0_0_1_n_n.lhsIdx i q 1).val = (q ⟨0, by decide⟩).val :=
  dot_S16x512_S512x8192_S16x8192_1_0_0_1_n_n.lhsIdx_val_of_single rfl i q
theorem rhs_accum_0 (i : S16x8192.Idx) (q : dot_S16x512_S512x8192_S16x8192_1_0_0_1_n_n.contr.Idx) :
    (dot_S16x512_S512x8192_S16x8192_1_0_0_1_n_n.rhsIdx i q 0).val = (q ⟨0, by decide⟩).val :=
  dot_S16x512_S512x8192_S16x8192_1_0_0_1_n_n.rhsIdx_val_of_single rfl i q
theorem rhs_accum_1 (i : S16x8192.Idx) (q : dot_S16x512_S512x8192_S16x8192_1_0_0_1_n_n.contr.Idx) :
    (dot_S16x512_S512x8192_S16x8192_1_0_0_1_n_n.rhsIdx i q 1).val = (i 1).val := by
  unfold DotDims.rhsIdx
  rw [dif_neg (show ¬(1 : Fin S512x8192.rank) ∈ dot_S16x512_S512x8192_S16x8192_1_0_0_1_n_n.rhsBatch by decide), dif_pos (show (1 : Fin S512x8192.rank) ∈ dot_S16x512_S512x8192_S16x8192_1_0_0_1_n_n.rhsNonContracting by decide)]
  rfl

/-- The scaled beliefs (16 × 512) times a slab (512 × 8192), into zero: entry (b, j) sums over the slab's rows. -/
theorem matmul_accum_apply (x : FVec Ideal S16x512 .bf16) (y : FVec Ideal S512x8192 .bf16) (p : Fin 16) (c : Fin 8192) :
    matmul dot_S16x512_S512x8192_S16x8192_1_0_0_1_n_n none x y (constant (F := Ideal) S16x8192 .f32 0x00000000#32) (ix2 p c)
      = ∑ k : Fin 512, x (ix2 p k) * y (ix2 k c) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  have el : dot_S16x512_S512x8192_S16x8192_1_0_0_1_n_n.lhsIdx (ix2 p c) ((contrEquiv1 dot_S16x512_S512x8192_S16x8192_1_0_0_1_n_n 512 rfl rfl).symm k) = ix2 p k := funext fun a => Fin.ext (by
    match a with
    | ⟨0, _⟩ => exact lhs_accum_0 _ _
    | ⟨1, _⟩ => exact (lhs_accum_1 _ _).trans hk)
  have er : dot_S16x512_S512x8192_S16x8192_1_0_0_1_n_n.rhsIdx (ix2 p c) ((contrEquiv1 dot_S16x512_S512x8192_S16x8192_1_0_0_1_n_n 512 rfl rfl).symm k) = ix2 k c := funext fun a => Fin.ext (by
    match a with
    | ⟨0, _⟩ => exact (rhs_accum_0 _ _).trans hk
    | ⟨1, _⟩ => exact rhs_accum_1 _ _)
  rw [el, er]

/-! ## Layout operations of a kept unit axis, read at coordinates -/

/-- A vector cast to a column, [a] → [a, 1], reads at (i, u) the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows, [a, 1] → [a, b], reads at (p, c) the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word broadcast reads the extended real zero everywhere. -/
theorem broadcast_zero_apply {s : Shape} (i : s.Idx) :
    broadcast s (Scalar.ofBits (F := Ideal) .f32 0x00000000#32) i = (0 : EReal) := by
  rw [broadcast_apply]
  exact Ideal.ofBits_zero_f32

/-- A row's lane sum over the 1024 columns of a block. -/
theorem rowsum_apply (x : FVec Ideal S512x1024 .f32) (hφ : FKind.Formats .f32)
    (hacc : (0x00000000#32 : BitVec FTy.f32.bits) = FKind.add.neutral .f32 hφ) (r : Fin 512) :
    multiReduction (F := Ideal) .add [1] S512 x 0x00000000#32 reduces_S512x1024_S512 hφ hacc (ix1 r) = ∑ j : Fin 1024, x (ix2 r j) :=
  (Ideal.multiReduction_add_single x _ reduces_S512x1024_S512 hφ hacc (ix1 r)).trans
    (Finset.sum_congr rfl fun k _ => congrArg x (funext fun c => Fin.ext (by
      match c with
      | ⟨0, _⟩ => rfl
      | ⟨1, _⟩ => rfl)))

/-- The same sum kept as a column: the lane sum cast [512] → [512, 1]. -/
theorem rowsum_col_apply (x : FVec Ideal S512x1024 .f32) (hφ : FKind.Formats .f32)
    (hacc : (0x00000000#32 : BitVec FTy.f32.bits) = FKind.add.neutral .f32 hφ) (r : Fin 512) (u : Fin 1) :
    shapeCast S512x1 (multiReduction (F := Ideal) .add [1] S512 x 0x00000000#32 reduces_S512x1024_S512 hφ hacc) shapeCasts_S512_S512x1 (ix2 r u)
      = ∑ j : Fin 1024, x (ix2 r j) :=
  (shapeCast_a_a1_apply _ shapeCasts_S512_S512x1 r u).trans (rowsum_apply x hφ hacc r)

/-! ## The stages on a block -/

/-- The exponentials of a block's logits against a chunk of 1024 keys. -/
theorem exp_logit_apply (q : FVec Ideal S512x64 .bf16) (kc : FVec Ideal S64x1024 .bf16) (r : Fin 512) (j : Fin 1024) :
    exp (matmul dot_S512x64_S64x1024_S512x1024_1_0_0_1_n_n none q kc (constant (F := Ideal) S512x1024 .f32 0x00000000#32)) (ix2 r j)
      = pB (fun r h => q (ix2 r h)) kc r j := by
  unfold pB
  show FloatOps.exp (matmul dot_S512x64_S64x1024_S512x1024_1_0_0_1_n_n none q kc (constant (F := Ideal) S512x1024 .f32 0x00000000#32) (ix2 r j)) = _
  rw [matmul_logit_apply, Ideal.exp_def]

/-- The lane sums, kept as a column, of a block that is a chunk of exponentials: the chunk's row sums. -/
theorem rowsum_col_eq_sB (x : FVec Ideal S512x1024 .f32) (q : Fin 512 → Fin 64 → EReal) (kc : SKc.Idx → EReal)
    (hx : ∀ r j, x (ix2 r j) = pB q kc r j) (hφ : FKind.Formats .f32)
    (hacc : (0x00000000#32 : BitVec FTy.f32.bits) = FKind.add.neutral .f32 hφ) (r : Fin 512) (u : Fin 1) :
    shapeCast S512x1 (multiReduction (F := Ideal) .add [1] S512 x 0x00000000#32 reduces_S512x1024_S512 hφ hacc) shapeCasts_S512_S512x1 (ix2 r u)
      = sB q kc r :=
  (rowsum_col_apply x hφ hacc r u).trans (Finset.sum_congr rfl fun j _ => hx r j)

/-! ## The first point's stores -/

theorem pay1_apply (v23 : Vec Ideal S64x128 .f32) (v24 : Vec Ideal S8192x128 .f32) (v26 : Vec Ideal S64x1 .f32) (h : Fin 64) (j : Fin 8192) :
    k0_pay1 (F := Ideal) v23 v24 v26 (ix2 h j) = ktF v23 v24 v26 h j := by
  unfold k0_pay1 ktF
  rw [shapeCast_self, truncf_apply, addf_apply, matmul_keys_apply, broadcastTo_a1_ab_apply, shapeCast_self]

theorem pay2_apply (y : S16x8192.Idx) : k0_pay2 (F := Ideal) y = 0 := by
  unfold k0_pay2
  exact broadcast_zero_apply y

/-! ## The accumulation (three textual copies of one payload) -/

theorem pay13_apply (v23 : Vec Ideal S16x8192 .f32) (v25 : Vec Ideal S16x512 .bf16) (v26 : Vec Ideal S512x8192 .bf16) (b : Fin 16) (j : Fin 8192) :
    k0_pay13 (F := Ideal) v23 v25 v26 (ix2 b j) = accF v23 v25 v26 b j := by
  unfold k0_pay13 accF
  rw [addf_apply, shapeCast_self, matmul_accum_apply]
theorem pay14_apply (v23 : Vec Ideal S16x8192 .f32) (v25 : Vec Ideal S16x512 .bf16) (v26 : Vec Ideal S512x8192 .bf16) (b : Fin 16) (j : Fin 8192) :
    k0_pay14 (F := Ideal) v23 v25 v26 (ix2 b j) = accF v23 v25 v26 b j := by
  unfold k0_pay14 accF
  rw [addf_apply, shapeCast_self, matmul_accum_apply]
theorem pay15_apply (v23 : Vec Ideal S16x8192 .f32) (v25 : Vec Ideal S16x512 .bf16) (v26 : Vec Ideal S512x8192 .bf16) (b : Fin 16) (j : Fin 8192) :
    k0_pay15 (F := Ideal) v23 v25 v26 (ix2 b j) = accF v23 v25 v26 b j := by
  unfold k0_pay15 accF
  rw [addf_apply, shapeCast_self, matmul_accum_apply]

/-! ## A slab produced at an odd point -/

theorem pay31_apply (v25 : Vec Ideal S512x128 .f32) (v26 : Vec Ideal S64x128 .f32) (v28 : Vec Ideal S1x64 .f32) (r : Fin 512) (h : Fin 64) :
    k0_pay31 (F := Ideal) v25 v26 v28 (ix2 r h) = qB v25 v26 v28 r h := by
  unfold k0_pay31 qB
  rw [truncf_apply, addf_apply, matmul_query_apply, broadcastTo_1b_ab_apply, shapeCast_self]
/-- The exponentials of the block's logits against the chunk of keys `v34`, before the format change. -/
theorem pay32_apply (v25 : Vec Ideal S512x128 .f32) (v26 : Vec Ideal S64x128 .f32) (v28 : Vec Ideal S1x64 .f32) (v34 : Vec Ideal S64x1024 .bf16) (r : Fin 512) (j : Fin 1024) :
    k0_pay32 (F := Ideal) v25 v26 v28 v34 (ix2 r j) = pB (qB v25 v26 v28) v34 r j := by
  unfold k0_pay32
  rw [exp_logit_apply]
  simp only [pay31_apply]
theorem pay33_apply (v25 : Vec Ideal S512x128 .f32) (v26 : Vec Ideal S64x128 .f32) (v28 : Vec Ideal S1x64 .f32) (v34 : Vec Ideal S64x1024 .bf16) (r : Fin 512) (j : Fin 1024) :
    k0_pay33 (F := Ideal) v25 v26 v28 v34 (ix2 r j) = pB (qB v25 v26 v28) v34 r j := by
  unfold k0_pay33
  rw [shapeCast_self, truncf_apply, pay32_apply]
/-- The exponentials of the block's logits against the chunk of keys `v44`, before the format change. -/
theorem pay34_apply (v25 : Vec Ideal S512x128 .f32) (v26 : Vec Ideal S64x128 .f32) (v28 : Vec Ideal S1x64 .f32) (v44 : Vec Ideal S64x1024 .bf16) (r : Fin 512) (j : Fin 1024) :
    k0_pay34 (F := Ideal) v25 v26 v28 v44 (ix2 r j) = pB (qB v25 v26 v28) v44 r j := by
  unfold k0_pay34
  rw [exp_logit_apply]
  simp only [pay31_apply]
theorem pay36_apply (v25 : Vec Ideal S512x128 .f32) (v26 : Vec Ideal S64x128 .f32) (v28 : Vec Ideal S1x64 .f32) (v44 : Vec Ideal S64x1024 .bf16) (r : Fin 512) (j : Fin 1024) :
    k0_pay36 (F := Ideal) v25 v26 v28 v44 (ix2 r j) = pB (qB v25 v26 v28) v44 r j := by
  unfold k0_pay36
  rw [shapeCast_self, truncf_apply, pay34_apply]
theorem pay37_apply (v25 : Vec Ideal S512x128 .f32) (v26 : Vec Ideal S64x128 .f32) (v28 : Vec Ideal S1x64 .f32) (v54 : Vec Ideal S64x1024 .bf16) (r : Fin 512) (j : Fin 1024) :
    k0_pay37 (F := Ideal) v25 v26 v28 v54 (ix2 r j) = pB (qB v25 v26 v28) v54 r j := by
  unfold k0_pay37
  rw [exp_logit_apply]
  simp only [pay31_apply]
theorem pay35_apply (v25 : Vec Ideal S512x128 .f32) (v26 : Vec Ideal S64x128 .f32) (v28 : Vec Ideal S1x64 .f32) (v34 : Vec Ideal S64x1024 .bf16) (v44 : Vec Ideal S64x1024 .bf16) (r : Fin 512) :
    k0_pay35 (F := Ideal) v25 v26 v28 v34 v44 (ix2 r 0) = sB (qB v25 v26 v28) v34 r + sB (qB v25 v26 v28) v44 r := by
  unfold k0_pay35
  rw [addf_apply, addf_apply, broadcast_zero_apply, zero_add]
  exact congrArg₂ (· + ·) (rowsum_col_eq_sB _ _ _ (pay32_apply v25 v26 v28 v34) _ _ r 0)
    (rowsum_col_eq_sB _ _ _ (pay34_apply v25 v26 v28 v44) _ _ r 0)
theorem pay38_apply (v56 : FVec Ideal S512x1024 .f32) (y : S512x1024.Idx) : k0_pay38 (F := Ideal) v56 y = v56 y := by
  unfold k0_pay38
  rw [shapeCast_self, truncf_apply]
/-- The exponentials of the carried block's logits against the chunk of keys `v64`, before the format change. -/
theorem pay39_apply (v32 : FVec Ideal S512x64 .bf16) (v64 : Vec Ideal S64x1024 .bf16) (r : Fin 512) (j : Fin 1024) :
    k0_pay39 (F := Ideal) v32 v64 (ix2 r j) = pB (fun r h => v32 (ix2 r h)) v64 r j := by
  unfold k0_pay39
  exact exp_logit_apply v32 v64 r j
theorem pay40_apply (v32 : FVec Ideal S512x64 .bf16) (v64 : Vec Ideal S64x1024 .bf16) (r : Fin 512) (j : Fin 1024) :
    k0_pay40 (F := Ideal) v32 v64 (ix2 r j) = pB (fun r h => v32 (ix2 r h)) v64 r j := by
  unfold k0_pay40
  rw [shapeCast_self, truncf_apply, pay39_apply]
/-- The exponentials of the carried block's logits against the chunk of keys `v74`, before the format change. -/
theorem pay41_apply (v32 : FVec Ideal S512x64 .bf16) (v74 : Vec Ideal S64x1024 .bf16) (r : Fin 512) (j : Fin 1024) :
    k0_pay41 (F := Ideal) v32 v74 (ix2 r j) = pB (fun r h => v32 (ix2 r h)) v74 r j := by
  unfold k0_pay41
  exact exp_logit_apply v32 v74 r j
theorem pay42_apply (v32 : FVec Ideal S512x64 .bf16) (v74 : Vec Ideal S64x1024 .bf16) (r : Fin 512) (j : Fin 1024) :
    k0_pay42 (F := Ideal) v32 v74 (ix2 r j) = pB (fun r h => v32 (ix2 r h)) v74 r j := by
  unfold k0_pay42
  rw [shapeCast_self, truncf_apply, pay41_apply]
/-- The exponentials of the carried block's logits against the chunk of keys `v84`, before the format change. -/
theorem pay43_apply (v32 : FVec Ideal S512x64 .bf16) (v84 : Vec Ideal S64x1024 .bf16) (r : Fin 512) (j : Fin 1024) :
    k0_pay43 (F := Ideal) v32 v84 (ix2 r j) = pB (fun r h => v32 (ix2 r h)) v84 r j := by
  unfold k0_pay43
  exact exp_logit_apply v32 v84 r j
theorem pay45_apply (v32 : FVec Ideal S512x64 .bf16) (v84 : Vec Ideal S64x1024 .bf16) (r : Fin 512) (j : Fin 1024) :
    k0_pay45 (F := Ideal) v32 v84 (ix2 r j) = pB (fun r h => v32 (ix2 r h)) v84 r j := by
  unfold k0_pay45
  rw [shapeCast_self, truncf_apply, pay43_apply]
/-- The exponentials of the carried block's logits against the chunk of keys `v94`, before the format change. -/
theorem pay8_apply (v32 : FVec Ideal S512x64 .bf16) (v94 : Vec Ideal S64x1024 .bf16) (r : Fin 512) (j : Fin 1024) :
    k0_pay8 (F := Ideal) v32 v94 (ix2 r j) = pB (fun r h => v32 (ix2 r h)) v94 r j := by
  unfold k0_pay8
  exact exp_logit_apply v32 v94 r j
theorem pay9_apply (v32 : FVec Ideal S512x64 .bf16) (v94 : Vec Ideal S64x1024 .bf16) (r : Fin 512) (j : Fin 1024) :
    k0_pay9 (F := Ideal) v32 v94 (ix2 r j) = pB (fun r h => v32 (ix2 r h)) v94 r j := by
  unfold k0_pay9
  rw [shapeCast_self, truncf_apply, pay8_apply]
/-- The exponentials of the carried block's logits against the chunk of keys `v104`, before the format change. -/
theorem pay10_apply (v32 : FVec Ideal S512x64 .bf16) (v104 : Vec Ideal S64x1024 .bf16) (r : Fin 512) (j : Fin 1024) :
    k0_pay10 (F := Ideal) v32 v104 (ix2 r j) = pB (fun r h => v32 (ix2 r h)) v104 r j := by
  unfold k0_pay10
  exact exp_logit_apply v32 v104 r j
theorem pay11_apply (v32 : FVec Ideal S512x64 .bf16) (v104 : Vec Ideal S64x1024 .bf16) (r : Fin 512) (j : Fin 1024) :
    k0_pay11 (F := Ideal) v32 v104 (ix2 r j) = pB (fun r h => v32 (ix2 r h)) v104 r j := by
  unfold k0_pay11
  rw [shapeCast_self, truncf_apply, pay10_apply]
theorem pay44_apply (v32 : FVec Ideal S512x64 .bf16) (v49 : FVec Ideal S512x1 .f32) (v56 : FVec Ideal S512x1024 .f32) (v64 : Vec Ideal S64x1024 .bf16) (v74 : Vec Ideal S64x1024 .bf16) (v84 : Vec Ideal S64x1024 .bf16) (r : Fin 512) :
    k0_pay44 (F := Ideal) v32 v49 v56 v64 v74 v84 (ix2 r 0)
      = v49 (ix2 r 0) + (∑ j : Fin 1024, v56 (ix2 r j)) + sB (fun r h => v32 (ix2 r h)) v64 r + sB (fun r h => v32 (ix2 r h)) v74 r + sB (fun r h => v32 (ix2 r h)) v84 r := by
  unfold k0_pay44
  rw [addf_apply, addf_apply, addf_apply, addf_apply]
  exact congrArg₂ (· + ·) (congrArg₂ (· + ·) (congrArg₂ (· + ·) (congrArg (v49 (ix2 r 0) + ·) (rowsum_col_apply v56 _ _ r 0))
    (rowsum_col_eq_sB _ _ _ (pay39_apply v32 v64) _ _ r 0))
    (rowsum_col_eq_sB _ _ _ (pay41_apply v32 v74) _ _ r 0))
    (rowsum_col_eq_sB _ _ _ (pay43_apply v32 v84) _ _ r 0)
theorem pay12_apply (v32 : FVec Ideal S512x64 .bf16) (v89 : FVec Ideal S512x1 .f32) (v94 : Vec Ideal S64x1024 .bf16) (v104 : Vec Ideal S64x1024 .bf16) (v117 : Vec Ideal S16x512 .f32) (b : Fin 16) (r : Fin 512) :
    k0_pay12 (F := Ideal) v32 v89 v94 v104 v117 (ix2 b r)
      = Ideal.div (v117 (ix2 b r)) (v89 (ix2 r 0) + sB (fun r h => v32 (ix2 r h)) v94 r + sB (fun r h => v32 (ix2 r h)) v104 r) := by
  unfold k0_pay12
  rw [shapeCast_self, truncf_apply, divf_apply, broadcastTo_1b_ab_apply, transpose_ix2_apply, addf_apply, addf_apply]
  exact congrArg (Ideal.div (v117 (ix2 b r))) (congrArg₂ (· + ·) (congrArg (v89 (ix2 r 0) + ·)
    (rowsum_col_eq_sB _ _ _ (pay8_apply v32 v94) _ _ r 0))
    (rowsum_col_eq_sB _ _ _ (pay10_apply v32 v104) _ _ r 0))

end Cert.KernelIdeal.PayO

end
-- ==== Proof.KI.ValC.lean ====
/- What the body leaves in each buffer it stores into at an odd point before the last, at the exact instance, as the stage it is. -/
import proofs.«125546_g5935644803188_cont_9to1c4b_610_15_alg».proof.Proof.KI.ValCommon
import proofs.«125546_g5935644803188_cont_9to1c4b_610_15_alg».proof.Proof.KI.PayOdd
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec
open Cert.KernelIdeal.PayO

/-! ## Blocks and chunks -/

/-- A chunk's rectangle of a slab buffer places local column `j` of row `r` at column `1024·c + j` of that row. -/
private theorem emb_chunk (c : Fin 8) (off : Fin 2 → ℕ) (hoff : off = ![0, 1024 * c.val]) (inb : ∀ a, off a + S512x1024.size a ≤ S512x8192.size a) (r : Fin 512) (j : Fin 1024) :
    (Rect.unit (s := S512x8192) off S512x1024.size inb).emb (ix2 r j) = ix2 r (chunkIdx c j) := by
  subst hoff
  refine Shape.idx_ext₂ ?_ ?_
  · show 0 + 1 * r.val = r.val; omega
  · show 1024 * c.val + 1 * j.val = 1024 * c.val + j.val; omega

/-- Query features of the block of embedding rows a point loads are its slab's query features. -/
private theorem qB_eq_qF (x2 : Vec Ideal S8192x128 .f32) (x3 : Vec Ideal S64x128 .f32) (x4 : Vec Ideal S1x64 .f32) (t : Fin 16) (eb : Vec Ideal S512x128 .f32)
    (heb : ∀ (r : Fin 512) (d : Fin 128), eb (ix2 r d) = x2 (ix2 (slabIdx t r) d)) : qB eb x3 x4 = qF x2 x3 x4 t := by
  funext r h; unfold qB qF
  exact congrArg (· + x4 (ix2 0 h)) (Finset.sum_congr rfl fun d _ => congrArg (· * x3 (ix2 h d)) (heb r d))

/-- A chunk of exponentials against a loaded chunk of the keys is the slab's weights at the chunk's columns. -/
private theorem pB_eq_pF (x2 : Vec Ideal S8192x128 .f32) (x3 : Vec Ideal S64x128 .f32) (x4 : Vec Ideal S1x64 .f32) (x8 : Vec Ideal S64x8192 .bf16) (t : Fin 16) (c : Fin 8)
    (q : Fin 512 → Fin 64 → EReal) (hq : q = qF x2 x3 x4 t) (kc : Vec Ideal S64x1024 .bf16)
    (hk : ∀ (h : Fin 64) (j : Fin 1024), kc (ix2 h j) = x8 (ix2 h (chunkIdx c j))) (r : Fin 512) (j : Fin 1024) :
    pB q kc r j = pF (qF x2 x3 x4 t) x8 r (chunkIdx c j) := by
  subst hq; unfold pB pF
  exact congrArg Ideal.exp (Finset.sum_congr rfl fun h _ => congrArg (qF x2 x3 x4 t r h * ·) (hk h j))

/-- A piece stored at a chunk's rectangle whose payload is the slab's weights at the chunk's columns is a block of the slab. -/
private theorem chunk_piece (x2 : Vec Ideal S8192x128 .f32) (x3 : Vec Ideal S64x128 .f32) (x4 : Vec Ideal S1x64 .f32) (x8 : Vec Ideal S64x8192 .bf16) (t : Fin 16) (c : Fin 8)
    (off : Fin 2 → ℕ) (hoff : off = ![0, 1024 * c.val]) (inb : ∀ a, off a + S512x1024.size a ≤ S512x8192.size a) (w : Vec Ideal S512x1024 .bf16)
    (hw : ∀ (r : Fin 512) (j : Fin 1024), w (ix2 r j) = pF (qF x2 x3 x4 t) x8 r (chunkIdx c j))
    (x : (Rect.unit (s := S512x8192) off S512x1024.size inb).shape.Idx) :
    w x = prodP x2 x3 x4 x8 t ((Rect.unit (s := S512x8192) off S512x1024.size inb).emb x) := by
  obtain ⟨r, j, rfl⟩ : ∃ (r : Fin 512) (j : Fin 1024), x = ix2 r j := ⟨x 0, x 1, eq_ix2 x⟩
  rw [emb_chunk c off hoff inb r j]
  exact hw r j

/-- A chunk's row sums against a loaded chunk of the keys are the slab's weights summed over the chunk's columns. -/
private theorem sB_eq_cF (x2 : Vec Ideal S8192x128 .f32) (x3 : Vec Ideal S64x128 .f32) (x4 : Vec Ideal S1x64 .f32) (x8 : Vec Ideal S64x8192 .bf16) (t : Fin 16) (c : Fin 8)
    (q : Fin 512 → Fin 64 → EReal) (hq : q = qF x2 x3 x4 t) (kc : Vec Ideal S64x1024 .bf16)
    (hk : ∀ (h : Fin 64) (j : Fin 1024), kc (ix2 h j) = x8 (ix2 h (chunkIdx c j))) (r : Fin 512) :
    sB q kc r = cF (pF (qF x2 x3 x4 t) x8) c r := by
  unfold sB cF
  exact Finset.sum_congr rfl fun j _ => pB_eq_pF x2 x3 x4 x8 t c q hq kc hk r j

/-! ## The three buffers -/

/-- The output's staging buffer: the slab held in the first pair of buffers accumulated into what the output held. -/
theorem vC_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cC_7 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = acc x7 x11 x9 := by
  unfold cC_7; rw [View.read_writes_junk_eq_canon]; unfold runC; dsimp only; sl_unfold_words
  rw [View.canon_unit_zero hz2]
  simp only [View.readAt_eq_ld, harg7.read_unread, harg11.read_unread, harg9.read_unread,
    View.ld_unit_zero (S := S16x8192) hz2, View.ld_unit_zero (S := S16x512) hz2, View.ld_unit_zero (S := S512x8192) hz2]
  funext y
  obtain ⟨b, j, rfl⟩ : ∃ (b : Fin 16) (j : Fin 8192), y = ix2 b j := ⟨y 0, y 1, eq_ix2 y⟩
  rw [pay14_apply]; rfl

/-- The second slab buffer: eight column chunks, each a block of the point's slab of weights. -/
theorem vC_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cC_10 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = prodP x2 x3 x4 x8 (tOf i) := by
  unfold cC_10; rw [View.read_writes_junk_eq_canon]
  funext y
  refine View.canon_apply_of_pieces (prodP x2 x3 x4 x8 (tOf i)) _ ?_ y
    (covC_10 c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 y)
  unfold runC; dsimp only; sl_unfold_words
  simp only [View.readAt_eq_ld, harg2.read_unread, harg3.read_unread, harg4.read_unread, harg8.read_unread,
    View.ld_unit_zero (S := S64x128) hz2, View.ld_unit_zero (S := S1x64) hz2]
  have hq : ∀ inb, qB (View.ld x2 (Rect.unit (s := S8192x128) (k0_off3 i) S512x128.size inb)) x3 x4 = qF x2 x3 x4 (tOf i) :=
    fun inb => qB_eq_qF x2 x3 x4 (tOf i) _ (ld_emb_odd i inb x2)
  have hq' : ∀ inb, (fun (r : Fin 512) (h : Fin 64) => k0_pay31 (F := Ideal) (View.ld x2 (Rect.unit (s := S8192x128) (k0_off3 i) S512x128.size inb)) x3 x4 (ix2 r h)) = qF x2 x3 x4 (tOf i) :=
    fun inb => (funext fun r => funext fun h => pay31_apply _ x3 x4 r h).trans (hq inb)
  intro p hp
  simp only [List.mem_cons, List.not_mem_nil, or_false] at hp
  rcases hp with rfl | rfl | rfl | rfl | rfl | rfl | rfl | rfl <;> dsimp only
  · exact chunk_piece x2 x3 x4 x8 (tOf i) 7 _ (by rfl) _ _ fun r j =>
      (pay11_apply _ _ r j).trans (pB_eq_pF x2 x3 x4 x8 (tOf i) 7 _ (hq' _) _ (ld_keys 7 _ rfl _ x8) r j)
  · exact chunk_piece x2 x3 x4 x8 (tOf i) 6 _ (by rfl) _ _ fun r j =>
      (pay9_apply _ _ r j).trans (pB_eq_pF x2 x3 x4 x8 (tOf i) 6 _ (hq' _) _ (ld_keys 6 _ rfl _ x8) r j)
  · exact chunk_piece x2 x3 x4 x8 (tOf i) 5 _ (by rfl) _ _ fun r j =>
      (pay45_apply _ _ r j).trans (pB_eq_pF x2 x3 x4 x8 (tOf i) 5 _ (hq' _) _ (ld_keys 5 _ rfl _ x8) r j)
  · exact chunk_piece x2 x3 x4 x8 (tOf i) 4 _ (by rfl) _ _ fun r j =>
      (pay42_apply _ _ r j).trans (pB_eq_pF x2 x3 x4 x8 (tOf i) 4 _ (hq' _) _ (ld_keys 4 _ rfl _ x8) r j)
  · exact chunk_piece x2 x3 x4 x8 (tOf i) 3 _ (by rfl) _ _ fun r j =>
      (pay40_apply _ _ r j).trans (pB_eq_pF x2 x3 x4 x8 (tOf i) 3 _ (hq' _) _ (ld_keys 3 _ rfl _ x8) r j)
  · exact chunk_piece x2 x3 x4 x8 (tOf i) 2 _ (by rfl) _ _ fun r j =>
      (pay38_apply _ _).trans ((pay37_apply _ x3 x4 _ r j).trans (pB_eq_pF x2 x3 x4 x8 (tOf i) 2 _ (hq _) _ (ld_keys 2 _ rfl _ x8) r j))
  · exact chunk_piece x2 x3 x4 x8 (tOf i) 1 _ (by rfl) _ _ fun r j =>
      (pay36_apply _ x3 x4 _ r j).trans (pB_eq_pF x2 x3 x4 x8 (tOf i) 1 _ (hq _) _ (ld_keys 1 _ rfl _ x8) r j)
  · exact chunk_piece x2 x3 x4 x8 (tOf i) 0 _ (by rfl) _ _ fun r j =>
      (pay33_apply _ x3 x4 _ r j).trans (pB_eq_pF x2 x3 x4 x8 (tOf i) 0 _ (hq _) _ (ld_keys 0 _ rfl _ x8) r j)

/-- The second buffer of scaled beliefs: the slab's columns of the beliefs over the eight chunk sums added in order. -/
theorem vC_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : ¬gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cC_12 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = prodW x1 x2 x3 x4 x8 (tOf i) := by
  unfold cC_12; rw [View.read_writes_junk_eq_canon]; unfold runC; dsimp only; sl_unfold_words
  rw [View.canon_unit_zero hz2]
  simp only [View.readAt_eq_ld, harg1.read_unread, harg2.read_unread, harg3.read_unread, harg4.read_unread, harg8.read_unread,
    View.ld_unit_zero (S := S64x128) hz2, View.ld_unit_zero (S := S1x64) hz2]
  have hq : ∀ inb, qB (View.ld x2 (Rect.unit (s := S8192x128) (k0_off3 i) S512x128.size inb)) x3 x4 = qF x2 x3 x4 (tOf i) :=
    fun inb => qB_eq_qF x2 x3 x4 (tOf i) _ (ld_emb_odd i inb x2)
  have hq' : ∀ inb, (fun (r : Fin 512) (h : Fin 64) => k0_pay31 (F := Ideal) (View.ld x2 (Rect.unit (s := S8192x128) (k0_off3 i) S512x128.size inb)) x3 x4 (ix2 r h)) = qF x2 x3 x4 (tOf i) :=
    fun inb => (funext fun r => funext fun h => pay31_apply _ x3 x4 r h).trans (hq inb)
  funext y
  obtain ⟨b, r, rfl⟩ : ∃ (b : Fin 16) (r : Fin 512), y = ix2 b r := ⟨y 0, y 1, eq_ix2 y⟩
  refine (pay12_apply _ _ _ _ _ b r).trans ?_
  show Ideal.div _ _ = Ideal.div (x1 (ix2 b (slabIdx (tOf i) r))) (zF (pF (qF x2 x3 x4 (tOf i)) x8) r)
  refine congrArg₂ Ideal.div (ld_bel_odd i _ x1 b r) ?_
  unfold zF
  refine congrArg₂ (· + ·) (congrArg₂ (· + ·) ((pay44_apply _ _ _ _ _ _ r).trans ?_)
    (sB_eq_cF x2 x3 x4 x8 (tOf i) 6 _ (hq' _) _ (ld_keys 6 _ rfl _ x8) r))
    (sB_eq_cF x2 x3 x4 x8 (tOf i) 7 _ (hq' _) _ (ld_keys 7 _ rfl _ x8) r)
  refine congrArg₂ (· + ·) (congrArg₂ (· + ·) (congrArg₂ (· + ·) (congrArg₂ (· + ·) ?_ ?_)
    (sB_eq_cF x2 x3 x4 x8 (tOf i) 3 _ (hq' _) _ (ld_keys 3 _ rfl _ x8) r))
    (sB_eq_cF x2 x3 x4 x8 (tOf i) 4 _ (hq' _) _ (ld_keys 4 _ rfl _ x8) r))
    (sB_eq_cF x2 x3 x4 x8 (tOf i) 5 _ (hq' _) _ (ld_keys 5 _ rfl _ x8) r)
  · exact (pay35_apply _ x3 x4 _ _ r).trans (congrArg₂ (· + ·)
      (sB_eq_cF x2 x3 x4 x8 (tOf i) 0 _ (hq _) _ (ld_keys 0 _ rfl _ x8) r)
      (sB_eq_cF x2 x3 x4 x8 (tOf i) 1 _ (hq _) _ (ld_keys 1 _ rfl _ x8) r))
  · exact (Finset.sum_congr rfl fun j _ => pay37_apply _ x3 x4 _ r j).trans
      (sB_eq_cF x2 x3 x4 x8 (tOf i) 2 _ (hq _) _ (ld_keys 2 _ rfl _ x8) r)

end Cert.KernelIdeal.Body

end
-- ==== Proof.KI.ValD.lean ====
/- What the body leaves in each buffer it stores into at the last point, at the exact instance, as the stage it is. -/
import proofs.«125546_g5935644803188_cont_9to1c4b_610_15_alg».proof.Proof.KI.ValCommon
import proofs.«125546_g5935644803188_cont_9to1c4b_610_15_alg».proof.Proof.KI.PayOdd
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec
open Cert.KernelIdeal.PayO

open scoped BigOperators

namespace ValD

/-! ## The slab's blocks as the stage functions -/

/-- A column piece of a slab buffer sits at its chunk's columns. -/
theorem emb_chunkD (c : Fin 8) (off : Fin 2 → ℕ) (hoff : off = ![0, 1024 * c.val])
    (inbP : ∀ a, off a + S512x1024.size a ≤ S512x8192.size a) (r : Fin 512) (j : Fin 1024) :
    (Rect.unit (s := S512x8192) off S512x1024.size inbP).emb (ix2 r j) = ix2 r (chunkIdx c j) := by
  subst hoff
  funext a
  refine Fin.ext ?_
  match a with
  | ⟨0, _⟩ => show 0 + 1 * r.val = r.val; omega
  | ⟨1, _⟩ => show 1024 * c.val + 1 * j.val = 1024 * c.val + j.val; omega

/-- The query features of the block of embedding rows an odd point loads are slab `tOf i`'s. -/
theorem qB_ldD (i : grid0.Coords) (inb2 : ∀ a, k0_off3 i a + S512x128.size a ≤ S8192x128.size a)
    (x2 : Vec Ideal S8192x128 .f32) (x3 : Vec Ideal S64x128 .f32) (x4 : Vec Ideal S1x64 .f32) :
    qB (View.ld x2 (Rect.unit (s := S8192x128) (k0_off3 i) S512x128.size inb2)) x3 x4 = qF x2 x3 x4 (tOf i) := by
  funext r h
  unfold qB qF
  refine congrArg (· + _) (Finset.sum_congr rfl fun d _ => ?_)
  exact congrArg (· * _) (ld_emb_odd i inb2 x2 r d)

/-- The query features stored as a block read back as the block's features. -/
theorem q31D (e2 : Vec Ideal S512x128 .f32) (x3 : Vec Ideal S64x128 .f32) (x4 : Vec Ideal S1x64 .f32) :
    (fun (r : Fin 512) (h : Fin 64) => k0_pay31 (F := Ideal) e2 x3 x4 (ix2 r h)) = qB e2 x3 x4 :=
  funext fun r => funext fun h => pay31_apply e2 x3 x4 r h

/-- A chunk of exponentials against the keys' chunk `c` is the slab's weights at chunk `c`'s columns. -/
theorem pB_ldD (c : Fin 8) (off : Fin 2 → ℕ) (hoff : off = ![0, 1024 * c.val])
    (inbK : ∀ a, off a + S64x1024.size a ≤ S64x8192.size a) (q : Fin 512 → Fin 64 → EReal)
    (x8 : Vec Ideal S64x8192 .bf16) (r : Fin 512) (j : Fin 1024) :
    pB q (View.ld x8 (Rect.unit (s := S64x8192) off S64x1024.size inbK)) r j = pF q x8 r (chunkIdx c j) := by
  unfold pB pF
  refine congrArg Ideal.exp (Finset.sum_congr rfl fun h _ => ?_)
  exact congrArg (_ * ·) (ld_keys c off hoff inbK x8 h j)

/-- A chunk computed from the features of the loaded rows. -/
theorem chunkD_direct (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16)
    (c : Fin 8) (off : Fin 2 → ℕ) (hoff : off = ![0, 1024 * c.val])
    (inbK : ∀ a, off a + S64x1024.size a ≤ S64x8192.size a) (r : Fin 512) (j : Fin 1024) :
    pB (qB (View.ld x2 (Rect.unit (s := S8192x128) (k0_off3 i) S512x128.size inb2)) x3 x4)
        (View.ld x8 (Rect.unit (s := S64x8192) off S64x1024.size inbK)) r j
      = pF (qF x2 x3 x4 (tOf i)) x8 r (chunkIdx c j) := by
  rw [qB_ldD i inb2 x2 x3 x4]
  exact pB_ldD c off hoff inbK _ x8 r j

/-- A chunk computed from the features kept as a block. -/
theorem chunkD_kept (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16)
    (c : Fin 8) (off : Fin 2 → ℕ) (hoff : off = ![0, 1024 * c.val])
    (inbK : ∀ a, off a + S64x1024.size a ≤ S64x8192.size a) (r : Fin 512) (j : Fin 1024) :
    pB (fun (r : Fin 512) (h : Fin 64) =>
          k0_pay31 (F := Ideal) (View.ld x2 (Rect.unit (s := S8192x128) (k0_off3 i) S512x128.size inb2)) x3 x4 (ix2 r h))
        (View.ld x8 (Rect.unit (s := S64x8192) off S64x1024.size inbK)) r j
      = pF (qF x2 x3 x4 (tOf i)) x8 r (chunkIdx c j) := by
  rw [q31D]
  exact chunkD_direct i inb2 x2 x3 x4 x8 c off hoff inbK r j

/-- A piece whose payload is chunk `c` of the slab agrees with the slab at the piece's own indices. -/
theorem pieceD (G : S512x8192.Idx → Elt Ideal .bf16) (c : Fin 8) (off : Fin 2 → ℕ) (hoff : off = ![0, 1024 * c.val])
    (inbP : ∀ a, off a + S512x1024.size a ≤ S512x8192.size a)
    (w : S512x1024.Idx → Elt Ideal .bf16) (hw : ∀ (r : Fin 512) (j : Fin 1024), w (ix2 r j) = G (ix2 r (chunkIdx c j)))
    (x : S512x1024.Idx) :
    w x = G ((Rect.unit (s := S512x8192) off S512x1024.size inbP).emb x) := by
  obtain ⟨r, j, rfl⟩ : ∃ (r : Fin 512) (j : Fin 1024), x = ix2 r j := ⟨x 0, x 1, eq_ix2 x⟩
  rw [emb_chunkD c off hoff inbP r j]
  exact hw r j

/-- The eight column pieces the last point stores into its slab buffer (last store first) are ONE function: slab
    `tOf i`'s weights. -/
theorem canon_slabD (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16) :
    View.canon (Val := Elt Ideal) (s := S512x8192) (e := .bf16)
      [⟨Rect.unit (s := S512x8192) ![0, 7168] S512x1024.size inb_S512x8192_S512x1024_0_7168,
          k0_pay11 (F := Ideal) (k0_pay31 (View.ld x2 (Rect.unit (s := S8192x128) (k0_off3 i) S512x128.size inb2)) x3 x4)
            (View.ld x8 (Rect.unit (s := S64x8192) ![0, 7168] S64x1024.size inb_S64x8192_S64x1024_0_7168))⟩,
        ⟨Rect.unit (s := S512x8192) ![0, 6144] S512x1024.size inb_S512x8192_S512x1024_0_6144,
          k0_pay9 (F := Ideal) (k0_pay31 (View.ld x2 (Rect.unit (s := S8192x128) (k0_off3 i) S512x128.size inb2)) x3 x4)
            (View.ld x8 (Rect.unit (s := S64x8192) ![0, 6144] S64x1024.size inb_S64x8192_S64x1024_0_6144))⟩,
        ⟨Rect.unit (s := S512x8192) ![0, 5120] S512x1024.size inb_S512x8192_S512x1024_0_5120,
          k0_pay45 (F := Ideal) (k0_pay31 (View.ld x2 (Rect.unit (s := S8192x128) (k0_off3 i) S512x128.size inb2)) x3 x4)
            (View.ld x8 (Rect.unit (s := S64x8192) ![0, 5120] S64x1024.size inb_S64x8192_S64x1024_0_5120))⟩,
        ⟨Rect.unit (s := S512x8192) ![0, 4096] S512x1024.size inb_S512x8192_S512x1024_0_4096,
          k0_pay42 (F := Ideal) (k0_pay31 (View.ld x2 (Rect.unit (s := S8192x128) (k0_off3 i) S512x128.size inb2)) x3 x4)
            (View.ld x8 (Rect.unit (s := S64x8192) ![0, 4096] S64x1024.size inb_S64x8192_S64x1024_0_4096))⟩,
        ⟨Rect.unit (s := S512x8192) ![0, 3072] S512x1024.size inb_S512x8192_S512x1024_0_3072,
          k0_pay40 (F := Ideal) (k0_pay31 (View.ld x2 (Rect.unit (s := S8192x128) (k0_off3 i) S512x128.size inb2)) x3 x4)
            (View.ld x8 (Rect.unit (s := S64x8192) ![0, 3072] S64x1024.size inb_S64x8192_S64x1024_0_3072))⟩,
        ⟨Rect.unit (s := S512x8192) ![0, 2048] S512x1024.size inb_S512x8192_S512x1024_0_2048,
          k0_pay38 (F := Ideal) (k0_pay37 (View.ld x2 (Rect.unit (s := S8192x128) (k0_off3 i) S512x128.size inb2)) x3 x4
            (View.ld x8 (Rect.unit (s := S64x8192) ![0, 2048] S64x1024.size inb_S64x8192_S64x1024_0_2048)))⟩,
        ⟨Rect.unit (s := S512x8192) ![0, 1024] S512x1024.size inb_S512x8192_S512x1024_0_1024,
          k0_pay36 (F := Ideal) (View.ld x2 (Rect.unit (s := S8192x128) (k0_off3 i) S512x128.size inb2)) x3 x4
            (View.ld x8 (Rect.unit (s := S64x8192) ![0, 1024] S64x1024.size inb_S64x8192_S64x1024_0_1024))⟩,
        ⟨Rect.unit (s := S512x8192) ![0, 0] S512x1024.size inb_S512x8192_S512x1024_0_0,
          k0_pay33 (F := Ideal) (View.ld x2 (Rect.unit (s := S8192x128) (k0_off3 i) S512x128.size inb2)) x3 x4
            (View.ld x8 (Rect.unit (s := S64x8192) ![0, 0] S64x1024.size inb_S64x8192_S64x1024_0_0))⟩]
      = prodP x2 x3 x4 x8 (tOf i) := by
  funext y
  refine View.canon_apply_of_pieces (Val := Elt Ideal) (S := S512x8192) (e := .bf16) (prodP x2 x3 x4 x8 (tOf i)) _ ?_ y
    (View.cover_of_tiledL (s := S512x8192) _ S512x1024.size (by sl_kernel_rfl) y)
  intro p hp
  simp only [List.mem_cons, List.not_mem_nil, or_false] at hp
  rcases hp with rfl | rfl | rfl | rfl | rfl | rfl | rfl | rfl
  · intro x
    refine pieceD _ ⟨7, by omega⟩ ![0, 7168] rfl inb_S512x8192_S512x1024_0_7168 _ (fun r j => ?_) x
    exact (pay11_apply _ _ r j).trans <| chunkD_kept i inb2 x2 x3 x4 x8 ⟨7, by omega⟩ ![0, 7168] rfl inb_S64x8192_S64x1024_0_7168 r j
  · intro x
    refine pieceD _ ⟨6, by omega⟩ ![0, 6144] rfl inb_S512x8192_S512x1024_0_6144 _ (fun r j => ?_) x
    exact (pay9_apply _ _ r j).trans <| chunkD_kept i inb2 x2 x3 x4 x8 ⟨6, by omega⟩ ![0, 6144] rfl inb_S64x8192_S64x1024_0_6144 r j
  · intro x
    refine pieceD _ ⟨5, by omega⟩ ![0, 5120] rfl inb_S512x8192_S512x1024_0_5120 _ (fun r j => ?_) x
    exact (pay45_apply _ _ r j).trans <| chunkD_kept i inb2 x2 x3 x4 x8 ⟨5, by omega⟩ ![0, 5120] rfl inb_S64x8192_S64x1024_0_5120 r j
  · intro x
    refine pieceD _ ⟨4, by omega⟩ ![0, 4096] rfl inb_S512x8192_S512x1024_0_4096 _ (fun r j => ?_) x
    exact (pay42_apply _ _ r j).trans <| chunkD_kept i inb2 x2 x3 x4 x8 ⟨4, by omega⟩ ![0, 4096] rfl inb_S64x8192_S64x1024_0_4096 r j
  · intro x
    refine pieceD _ ⟨3, by omega⟩ ![0, 3072] rfl inb_S512x8192_S512x1024_0_3072 _ (fun r j => ?_) x
    exact (pay40_apply _ _ r j).trans <| chunkD_kept i inb2 x2 x3 x4 x8 ⟨3, by omega⟩ ![0, 3072] rfl inb_S64x8192_S64x1024_0_3072 r j
  · intro x
    refine pieceD _ ⟨2, by omega⟩ ![0, 2048] rfl inb_S512x8192_S512x1024_0_2048 _ (fun r j => ?_) x
    exact (pay38_apply _ (ix2 r j)).trans <| (pay37_apply _ _ _ _ r j).trans <| chunkD_direct i inb2 x2 x3 x4 x8 ⟨2, by omega⟩ ![0, 2048] rfl inb_S64x8192_S64x1024_0_2048 r j
  · intro x
    refine pieceD _ ⟨1, by omega⟩ ![0, 1024] rfl inb_S512x8192_S512x1024_0_1024 _ (fun r j => ?_) x
    exact (pay36_apply _ _ _ _ r j).trans <| chunkD_direct i inb2 x2 x3 x4 x8 ⟨1, by omega⟩ ![0, 1024] rfl inb_S64x8192_S64x1024_0_1024 r j
  · intro x
    refine pieceD _ ⟨0, by omega⟩ ![0, 0] rfl inb_S512x8192_S512x1024_0_0 _ (fun r j => ?_) x
    exact (pay33_apply _ _ _ _ r j).trans <| chunkD_direct i inb2 x2 x3 x4 x8 ⟨0, by omega⟩ ![0, 0] rfl inb_S64x8192_S64x1024_0_0 r j

/-! ## The row normalisers and the scaled beliefs -/

/-- A chunk's row sums, from the features of the loaded rows, are the slab's chunk sums. -/
theorem sBD_direct (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16)
    (c : Fin 8) (off : Fin 2 → ℕ) (hoff : off = ![0, 1024 * c.val])
    (inbK : ∀ a, off a + S64x1024.size a ≤ S64x8192.size a) (r : Fin 512) :
    sB (qB (View.ld x2 (Rect.unit (s := S8192x128) (k0_off3 i) S512x128.size inb2)) x3 x4) (View.ld x8 (Rect.unit (s := S64x8192) off S64x1024.size inbK)) r = cF (pF (qF x2 x3 x4 (tOf i)) x8) c r := by
  unfold sB cF
  exact Finset.sum_congr rfl fun j _ => chunkD_direct i inb2 x2 x3 x4 x8 c off hoff inbK r j

/-- The same from the features kept as a block. -/
theorem sBD_kept (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16)
    (c : Fin 8) (off : Fin 2 → ℕ) (hoff : off = ![0, 1024 * c.val])
    (inbK : ∀ a, off a + S64x1024.size a ≤ S64x8192.size a) (r : Fin 512) :
    sB (fun (r : Fin 512) (h : Fin 64) => k0_pay31 (F := Ideal) (View.ld x2 (Rect.unit (s := S8192x128) (k0_off3 i) S512x128.size inb2)) x3 x4 (ix2 r h))
        (View.ld x8 (Rect.unit (s := S64x8192) off S64x1024.size inbK)) r = cF (pF (qF x2 x3 x4 (tOf i)) x8) c r := by
  unfold sB cF
  exact Finset.sum_congr rfl fun j _ => chunkD_kept i inb2 x2 x3 x4 x8 c off hoff inbK r j

/-- The third chunk, kept unrounded for its row sums. -/
theorem sum37D (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16) (r : Fin 512) :
    (∑ j : Fin 1024, k0_pay37 (F := Ideal) (View.ld x2 (Rect.unit (s := S8192x128) (k0_off3 i) S512x128.size inb2)) x3 x4 (View.ld x8 (Rect.unit (s := S64x8192) ![0, 2048] S64x1024.size inb_S64x8192_S64x1024_0_2048)) (ix2 r j)) = cF (pF (qF x2 x3 x4 (tOf i)) x8) 2 r := by
  unfold cF
  exact Finset.sum_congr rfl fun j _ =>
    (pay37_apply _ _ _ _ r j).trans <| chunkD_direct i inb2 x2 x3 x4 x8 2 ![0, 2048] rfl inb_S64x8192_S64x1024_0_2048 r j

/-- What the last point stores into its buffer of scaled beliefs: slab `tOf i`'s columns of the beliefs over the rows'
    normalisers, the eight chunk sums added in order. -/
theorem pay12D (i : grid0.Coords) (inb2 : ∀ a, k0_off3 i a + S512x128.size a ≤ S8192x128.size a)
    (x2 : Vec Ideal S8192x128 .f32) (x3 : Vec Ideal S64x128 .f32) (x4 : Vec Ideal S1x64 .f32) (x8 : Vec Ideal S64x8192 .bf16)
    (inb1 : ∀ a, k0_off4 i a + S16x512.size a ≤ S16x8192.size a) (x1 : Vec Ideal S16x8192 .f32) :
    k0_pay12 (F := Ideal) (k0_pay31 (View.ld x2 (Rect.unit (s := S8192x128) (k0_off3 i) S512x128.size inb2)) x3 x4)
        (k0_pay44 (k0_pay31 (View.ld x2 (Rect.unit (s := S8192x128) (k0_off3 i) S512x128.size inb2)) x3 x4)
          (k0_pay35 (View.ld x2 (Rect.unit (s := S8192x128) (k0_off3 i) S512x128.size inb2)) x3 x4 (View.ld x8 (Rect.unit (s := S64x8192) ![0, 0] S64x1024.size inb_S64x8192_S64x1024_0_0)) (View.ld x8 (Rect.unit (s := S64x8192) ![0, 1024] S64x1024.size inb_S64x8192_S64x1024_0_1024)))
          (k0_pay37 (View.ld x2 (Rect.unit (s := S8192x128) (k0_off3 i) S512x128.size inb2)) x3 x4 (View.ld x8 (Rect.unit (s := S64x8192) ![0, 2048] S64x1024.size inb_S64x8192_S64x1024_0_2048)))
          (View.ld x8 (Rect.unit (s := S64x8192) ![0, 3072] S64x1024.size inb_S64x8192_S64x1024_0_3072)) (View.ld x8 (Rect.unit (s := S64x8192) ![0, 4096] S64x1024.size inb_S64x8192_S64x1024_0_4096)) (View.ld x8 (Rect.unit (s := S64x8192) ![0, 5120] S64x1024.size inb_S64x8192_S64x1024_0_5120)))
        (View.ld x8 (Rect.unit (s := S64x8192) ![0, 6144] S64x1024.size inb_S64x8192_S64x1024_0_6144)) (View.ld x8 (Rect.unit (s := S64x8192) ![0, 7168] S64x1024.size inb_S64x8192_S64x1024_0_7168))
        (View.ld x1 (Rect.unit (s := S16x8192) (k0_off4 i) S16x512.size inb1))
      = prodW x1 x2 x3 x4 x8 (tOf i) := by
  funext y
  obtain ⟨b, r, rfl⟩ : ∃ (b : Fin 16) (r : Fin 512), y = ix2 b r := ⟨y 0, y 1, eq_ix2 y⟩
  refine (pay12_apply _ _ _ _ _ b r).trans ?_
  show Ideal.div _ _ = Ideal.div (x1 (ix2 b (slabIdx (tOf i) r))) (zF (pF (qF x2 x3 x4 (tOf i)) x8) r)
  refine congrArg₂ Ideal.div (ld_bel_odd i inb1 x1 b r) ?_
  rw [pay44_apply, pay35_apply, sum37D i inb2 x2 x3 x4 x8 r,
    sBD_direct i inb2 x2 x3 x4 x8 0 ![0, 0] rfl inb_S64x8192_S64x1024_0_0 r, sBD_direct i inb2 x2 x3 x4 x8 1 ![0, 1024] rfl inb_S64x8192_S64x1024_0_1024 r,
    sBD_kept i inb2 x2 x3 x4 x8 3 ![0, 3072] rfl inb_S64x8192_S64x1024_0_3072 r, sBD_kept i inb2 x2 x3 x4 x8 4 ![0, 4096] rfl inb_S64x8192_S64x1024_0_4096 r, sBD_kept i inb2 x2 x3 x4 x8 5 ![0, 5120] rfl inb_S64x8192_S64x1024_0_5120 r,
    sBD_kept i inb2 x2 x3 x4 x8 6 ![0, 6144] rfl inb_S64x8192_S64x1024_0_6144 r, sBD_kept i inb2 x2 x3 x4 x8 7 ![0, 7168] rfl inb_S64x8192_S64x1024_0_7168 r]
  rfl

/-! ## The output: the held slab accumulated, then the slab just produced -/

/-- A load of a whole slab buffer after stores that leave `G` in it reads `G`. -/
theorem readCov_wholeD {sg : RefSig} {κ : Kind} {sp : Space} (v : View sg κ sp S512x8192 .bf16)
    (L : List (View.Piece (Elt Ideal) S512x8192 .bf16)) (G : S512x8192.Idx → Elt Ideal .bf16)
    (h : View.canon L = G) (inb : ∀ a, (![0, 0] : Fin 2 → ℕ) a + S512x8192.size a ≤ S512x8192.size a) :
    v.readCov L (Rect.unit (s := S512x8192) ![0, 0] S512x8192.size inb).toLoadRect = G := by
  rw [View.readCov_eq_canon', h]
  exact View.ld_unit_zero hz2 inb G

/-- The first accumulation's payload is the accumulation. -/
theorem pay14D (o : Vec Ideal S16x8192 .f32) (w : Vec Ideal S16x512 .bf16) (p : Vec Ideal S512x8192 .bf16) :
    k0_pay14 (F := Ideal) o w p = acc o w p := by
  funext y
  obtain ⟨b, j, rfl⟩ : ∃ (b : Fin 16) (j : Fin 8192), y = ix2 b j := ⟨y 0, y 1, eq_ix2 y⟩
  exact pay14_apply o w p b j

/-- So is the second's. -/
theorem pay15D (o : Vec Ideal S16x8192 .f32) (w : Vec Ideal S16x512 .bf16) (p : Vec Ideal S512x8192 .bf16) :
    k0_pay15 (F := Ideal) o w p = acc o w p := by
  funext y
  obtain ⟨b, j, rfl⟩ : ∃ (b : Fin 16) (j : Fin 8192), y = ix2 b j := ⟨y 0, y 1, eq_ix2 y⟩
  exact pay15_apply o w p b j

end ValD

open ValD

theorem vD_10 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cD_10 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = prodP x2 x3 x4 x8 (tOf i) := by
  unfold cD_10; rw [View.read_writes_junk_eq_canon]; unfold runD; dsimp only; sl_unfold_words
  simp only [View.readAt_eq_ld, harg2.read_unread, harg3.read_unread, harg4.read_unread, harg8.read_unread,
    View.ld_unit_zero (S := S64x128) hz2, View.ld_unit_zero (S := S1x64) hz2]
  exact canon_slabD i _ x2 x3 x4 x8

theorem vD_12 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cD_12 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = prodW x1 x2 x3 x4 x8 (tOf i) := by
  unfold cD_12; rw [View.read_writes_junk_eq_canon]; unfold runD; dsimp only; sl_unfold_run_names
  rw [View.canon_unit_zero hz2]
  simp only [View.readAt_eq_ld, harg1.read_unread, harg2.read_unread, harg3.read_unread, harg4.read_unread, harg8.read_unread,
    View.ld_unit_zero (S := S64x128) hz2, View.ld_unit_zero (S := S1x64) hz2]
  exact pay12D i _ x2 x3 x4 x8 _ x1

theorem vD_7 (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (arg10 : Memref sig .tc .vmem S512x8192 .bf16) (harg10 : arg10.IsWhole) (arg11 : Memref sig .tc .vmem S16x512 .bf16) (harg11 : arg11.IsWhole) (arg12 : Memref sig .tc .vmem S16x512 .bf16) (harg12 : arg12.IsWhole) (h1 : ¬gInit i) (h2 : ¬gEven i) (h3 : gOdd i) (h4 : ¬gAccB i) (h5 : gAccA i) (h6 : gTail i) (x1 : Vec Ideal S16x8192 .f32) (x2 : Vec Ideal S8192x128 .f32) (x3 : Vec Ideal S64x128 .f32) (x4 : Vec Ideal S1x64 .f32) (x7 : Vec Ideal S16x8192 .f32) (x8 : Vec Ideal S64x8192 .bf16) (x9 : Vec Ideal S512x8192 .bf16) (x11 : Vec Ideal S16x512 .bf16) : cD_7 (F := Ideal) c i arg1 harg1 arg2 harg2 arg3 harg3 arg4 harg4 arg5 harg5 arg6 harg6 arg7 harg7 arg8 harg8 arg9 harg9 arg10 harg10 arg11 harg11 arg12 harg12 h1 h2 h3 h4 h5 h6 x1 x2 x3 x4 x7 x8 x9 x11 = acc (acc x7 x11 x9) (prodW x1 x2 x3 x4 x8 (tOf i)) (prodP x2 x3 x4 x8 (tOf i)) := by
  unfold cD_7; rw [View.read_writes_junk_eq_canon]; unfold runD; dsimp only; sl_unfold_run_names
  rw [View.canon_cons_unit_zero (S := S16x8192) hz2]
  simp only [View.readAt_eq_ld, harg1.read_unread, harg2.read_unread, harg3.read_unread, harg4.read_unread,
    harg7.read_unread, harg8.read_unread, harg9.read_unread, harg11.read_unread,
    View.ld_unit_zero (S := S64x128) hz2, View.ld_unit_zero (S := S1x64) hz2, View.ld_unit_zero (S := S16x8192) hz2,
    View.ld_unit_zero (S := S16x512) hz2, View.ld_unit_zero (S := S512x8192) hz2]
  rw [View.readCov_unit_zero (S := S16x8192) _ hz2, View.readCov_unit_zero (S := S16x512) _ hz2,
    readCov_wholeD _ _ _ (canon_slabD i _ x2 x3 x4 x8), pay12D i _ x2 x3 x4 x8 _ x1, pay14D]
  exact pay15D _ _ _

end Cert.KernelIdeal.Body

end
-- ==== Proof.Algebra.lean ====
/- Index and real-number algebra shared by the two sides.

   * a finite sum of reals read in the extended reals is the sum of the readings;
   * the 8192 states split as 16 slabs of 512 and as 8 chunks of 1024, and a sum over the states is the
     iterated sum over either splitting;
   * a softmax is unchanged by a common shift of its logits;
   * the extended reals' division and exponential restricted to reals;
   * the largest of finitely many reals, taken in the extended reals from bottom, is one of those reals;
   * the slab-wise and chunk-wise sums of the specification's terms are its result and its normaliser. -/
import proofs.«125546_g5935644803188_cont_9to1c4b_610_15_alg».proof.Proof.Spec
import Mathlib.Data.EReal.Basic
import Mathlib.Data.EReal.Inv
import Mathlib.Data.Fintype.BigOperators
import Mathlib.Algebra.BigOperators.Group.Finset.Defs
import Mathlib.Algebra.BigOperators.Field
import Mathlib.Algebra.GroupWithZero.Units.Basic
import Mathlib.Data.Finset.Lattice.Fold
import Mathlib.Analysis.SpecialFunctions.Exp

noncomputable section

open scoped BigOperators

namespace Cert.Algebra

/-! ### Sums of reals in the extended reals -/

/-- a finite sum of reals, read in the extended reals -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ### Splitting the 8192 states -/

/-- 8192 = 16 slabs of 512 -/
def slabIdx (s : Fin 16) (k : Fin 512) : Fin 8192 := ⟨512 * s.val + k.val, by omega⟩

/-- 8192 = 8 chunks of 1024 -/
def chunkIdx (c : Fin 8) (j : Fin 1024) : Fin 8192 := ⟨1024 * c.val + j.val, by omega⟩

@[simp] theorem slabIdx_val (s : Fin 16) (k : Fin 512) : (slabIdx s k).val = 512 * s.val + k.val := rfl
@[simp] theorem chunkIdx_val (c : Fin 8) (j : Fin 1024) : (chunkIdx c j).val = 1024 * c.val + j.val := rfl

/-- A state is a slab and a place in it: quotient and remainder by 512. -/
def slabEquiv : Fin 16 × Fin 512 ≃ Fin 8192 where
  toFun p := slabIdx p.1 p.2
  invFun i := (⟨i.val / 512, by omega⟩, ⟨i.val % 512, by omega⟩)
  left_inv := by
    rintro ⟨s, k⟩
    refine Prod.ext (Fin.ext ?_) (Fin.ext ?_)
    · show (512 * s.val + k.val) / 512 = s.val
      omega
    · show (512 * s.val + k.val) % 512 = k.val
      omega
  right_inv := by
    intro i
    refine Fin.ext ?_
    show 512 * (i.val / 512) + i.val % 512 = i.val
    omega

/-- A state is a chunk and a place in it: quotient and remainder by 1024. -/
def chunkEquiv : Fin 8 × Fin 1024 ≃ Fin 8192 where
  toFun p := chunkIdx p.1 p.2
  invFun i := (⟨i.val / 1024, by omega⟩, ⟨i.val % 1024, by omega⟩)
  left_inv := by
    rintro ⟨c, j⟩
    refine Prod.ext (Fin.ext ?_) (Fin.ext ?_)
    · show (1024 * c.val + j.val) / 1024 = c.val
      omega
    · show (1024 * c.val + j.val) % 1024 = j.val
      omega
  right_inv := by
    intro i
    refine Fin.ext ?_
    show 1024 * (i.val / 1024) + i.val % 1024 = i.val
    omega

@[simp] theorem slabEquiv_apply (p : Fin 16 × Fin 512) : slabEquiv p = slabIdx p.1 p.2 := rfl
@[simp] theorem chunkEquiv_apply (p : Fin 8 × Fin 1024) : chunkEquiv p = chunkIdx p.1 p.2 := rfl

/-- Every state lies in a slab. -/
theorem exists_slabIdx (i : Fin 8192) : ∃ s k, slabIdx s k = i :=
  ⟨(slabEquiv.symm i).1, (slabEquiv.symm i).2, slabEquiv.apply_symm_apply i⟩

/-- Every state lies in a chunk. -/
theorem exists_chunkIdx (i : Fin 8192) : ∃ c j, chunkIdx c j = i :=
  ⟨(chunkEquiv.symm i).1, (chunkEquiv.symm i).2, chunkEquiv.apply_symm_apply i⟩

theorem slabIdx_injective {s s' : Fin 16} {k k' : Fin 512} (h : slabIdx s k = slabIdx s' k') : s = s' ∧ k = k' := by
  have := slabEquiv.injective (a₁ := (s, k)) (a₂ := (s', k')) h
  exact ⟨congrArg Prod.fst this, congrArg Prod.snd this⟩

theorem chunkIdx_injective {c c' : Fin 8} {j j' : Fin 1024} (h : chunkIdx c j = chunkIdx c' j') : c = c' ∧ j = j' := by
  have := chunkEquiv.injective (a₁ := (c, j)) (a₂ := (c', j')) h
  exact ⟨congrArg Prod.fst this, congrArg Prod.snd this⟩

/-- A sum over the states is the sum over the slabs of the sums inside each slab. -/
theorem sum_slabs (f : Fin 8192 → ℝ) : ∑ s : Fin 16, ∑ k : Fin 512, f (slabIdx s k) = ∑ i : Fin 8192, f i := by
  rw [← Fintype.sum_prod_type' (fun s k => f (slabIdx s k))]
  exact Equiv.sum_comp slabEquiv f

/-- A sum over the states is the sum over the chunks of the sums inside each chunk. -/
theorem sum_chunks (g : Fin 8192 → ℝ) : ∑ c : Fin 8, ∑ j : Fin 1024, g (chunkIdx c j) = ∑ j : Fin 8192, g j := by
  rw [← Fintype.sum_prod_type' (fun c j => g (chunkIdx c j))]
  exact Equiv.sum_comp chunkEquiv g

/-- The same splittings for sums taken in the extended reals (or any commutative additive monoid). -/
theorem sum_slabs' {M : Type*} [AddCommMonoid M] (f : Fin 8192 → M) :
    ∑ s : Fin 16, ∑ k : Fin 512, f (slabIdx s k) = ∑ i : Fin 8192, f i := by
  rw [← Fintype.sum_prod_type' (fun s k => f (slabIdx s k))]
  exact Equiv.sum_comp slabEquiv f

theorem sum_chunks' {M : Type*} [AddCommMonoid M] (g : Fin 8192 → M) :
    ∑ c : Fin 8, ∑ j : Fin 1024, g (chunkIdx c j) = ∑ j : Fin 8192, g j := by
  rw [← Fintype.sum_prod_type' (fun c j => g (chunkIdx c j))]
  exact Equiv.sum_comp chunkEquiv g

/-! ### The softmax under a shift -/

/-- The shifted normaliser is the normaliser divided by the exponential of the shift:
    exp (x - mx) = exp x / exp mx in every summand. -/
theorem sum_exp_shift {n : ℕ} (l : Fin n → ℝ) (mx : ℝ) :
    ∑ j' : Fin n, Real.exp (l j' - mx) = (∑ j' : Fin n, Real.exp (l j')) / Real.exp mx := by
  rw [Finset.sum_div]
  exact Finset.sum_congr rfl fun j' _ => Real.exp_sub _ _

/-- a softmax does not see a common shift of its logits -/
theorem softmax_shift {n : ℕ} (l : Fin n → ℝ) (mx : ℝ) (j : Fin n) :
    Real.exp (l j - mx) / ∑ j' : Fin n, Real.exp (l j' - mx) = Real.exp (l j) / ∑ j' : Fin n, Real.exp (l j') := by
  -- numerator and denominator are both divided by exp mx, which is not zero and cancels
  rw [sum_exp_shift, Real.exp_sub, div_div_div_cancel_right₀ (Real.exp_ne_zero mx)]

/-! ### The extended reals' operations on reals -/

/-- the quotient of two reals, the divisor not zero, is the real quotient -/
theorem div_coe_coe (x y : ℝ) (hy : y ≠ 0) :
    Idealize.ShloMosaic.Ideal.div (x : EReal) (y : EReal) = ((x / y : ℝ) : EReal) := by
  rw [Idealize.ShloMosaic.Ideal.div_coe hy, ← EReal.coe_mul, mul_one_div]

/-- the exponential of a real is the real exponential -/
theorem exp_coe (x : ℝ) : Idealize.ShloMosaic.Ideal.exp (x : EReal) = ((Real.exp x : ℝ) : EReal) := rfl

/-! ### The largest of finitely many reals -/

/-- The supremum, from bottom, of finitely many (at least one) reals read in the extended reals is one of
    them, and it dominates each. -/
theorem exists_real_sup_spec {n : ℕ} (hn : 0 < n) (l : Fin n → ℝ) :
    ∃ mx : ℝ, (Finset.univ.sup fun j => (l j : EReal)) = (mx : EReal) ∧ (∀ j, l j ≤ mx) ∧ ∃ j, l j = mx := by
  have hne : (Finset.univ : Finset (Fin n)).Nonempty := ⟨⟨0, hn⟩, Finset.mem_univ _⟩
  obtain ⟨i, _, hi⟩ := Finset.exists_mem_eq_sup Finset.univ hne fun j => (l j : EReal)
  refine ⟨l i, hi, fun j => ?_, i, rfl⟩
  have h : (l j : EReal) ≤ Finset.univ.sup fun j => (l j : EReal) :=
    Finset.le_sup (f := fun j => (l j : EReal)) (Finset.mem_univ j)
  rw [hi] at h
  exact EReal.coe_le_coe_iff.mp h

theorem exists_real_sup {n : ℕ} (hn : 0 < n) (l : Fin n → ℝ) :
    ∃ mx : ℝ, (Finset.univ.sup fun j => (l j : EReal)) = (mx : EReal) := by
  obtain ⟨mx, h, _⟩ := exists_real_sup_spec hn l
  exact ⟨mx, h⟩

/-! ### The specification's sums, slab by slab and chunk by chunk -/

/-- The belief weighted by the reciprocal normaliser, times the exponentiated logit, summed slab by slab, is the
    propagated belief. -/
theorem slabs_eq_outR (a : Cert.Spec.Args) (b : Fin 16) (j : Fin 8192) :
    ∑ s : Fin 16, ∑ k : Fin 512,
        (a.belR b (slabIdx s k) / a.zR (slabIdx s k)) * Real.exp (a.lR (slabIdx s k) j) = a.outR b j := by
  rw [sum_slabs (fun i => (a.belR b i / a.zR i) * Real.exp (a.lR i j))]
  unfold Cert.Spec.Args.outR
  refine Finset.sum_congr rfl fun i _ => ?_
  rw [div_mul_eq_mul_div, mul_div_assoc]

/-- The exponentiated logits of a row, summed chunk by chunk, are the row's normaliser. -/
theorem chunks_eq_zR (a : Cert.Spec.Args) (i : Fin 8192) :
    ∑ c : Fin 8, ∑ j : Fin 1024, Real.exp (a.lR i (chunkIdx c j)) = a.zR i := by
  rw [sum_chunks (fun j => Real.exp (a.lR i j))]
  rfl

end Cert.Algebra

end
-- ==== Proof.KReal.lean ====
/- The kernel's stages over finite arguments: each is the image of a real-valued quantity of the specification.

   With every argument entry a real, the projected keys are the key features, a slab's exponentials are the exponentiated
   logits of its rows, the chunk-wise row sums add up to the rows' normalisers, the scaled beliefs are the beliefs divided
   by those normalisers, and accumulating slab after slab builds the propagated belief one slab's share at a time. -/
import proofs.«125546_g5935644803188_cont_9to1c4b_610_15_alg».proof.Proof.KSpec
import proofs.«125546_g5935644803188_cont_9to1c4b_610_15_alg».proof.Proof.Algebra

noncomputable section

open scoped BigOperators

namespace Cert.KReal

open Idealize.ShloMosaic Idealize.ShloMosaic.ValueIdx Cert.Spec Cert.KSpec

variable (a : Cert.Spec.Args)

/-- Slab `s`'s share of the propagated belief. -/
def slabR (s : Fin 16) (b : Fin 16) (j : Fin 8192) : ℝ :=
  ∑ k : Fin 512, (a.belR b (slabIdx s k) / a.zR (slabIdx s k)) * Real.exp (a.lR (slabIdx s k) j)

/-- The buffer holds the key features, transposed. -/
def IsK (K : SK.Idx → EReal) : Prop := ∀ (h : Fin 64) (j : Fin 8192), K (ix2 h j) = ((a.kR j h : ℝ) : EReal)
/-- The buffer holds slab `t`'s exponentiated logits. -/
def IsP (t : Fin 16) (P : SP.Idx → EReal) : Prop :=
  ∀ (r : Fin 512) (j : Fin 8192), P (ix2 r j) = ((Real.exp (a.lR (slabIdx t r) j) : ℝ) : EReal)
/-- The buffer holds slab `t`'s beliefs, each divided by its row's normaliser. -/
def IsW (t : Fin 16) (W : SWt.Idx → EReal) : Prop :=
  ∀ (b : Fin 16) (r : Fin 512), W (ix2 b r) = ((a.belR b (slabIdx t r) / a.zR (slabIdx t r) : ℝ) : EReal)
/-- The output holds the shares of the slabs before `n`. -/
def IsOut (n : ℕ) (O : SBel.Idx → EReal) : Prop :=
  ∀ (b : Fin 16) (j : Fin 8192),
    O (ix2 b j) = ((∑ s ∈ Finset.univ.filter (fun s : Fin 16 => s.val < n), slabR a s b j : ℝ) : EReal)

/-- The arrays the kernel's body reads are the arguments' reals (the two biases as a row and as a column). -/
structure Sees (x1 : SBel.Idx → EReal) (x2 : SEmb.Idx → EReal) (x3 : SW.Idx → EReal) (x4 : SRow.Idx → EReal)
    (x5 : SW.Idx → EReal) (x6 : SCol.Idx → EReal) : Prop where
  bel : ∀ (b : Fin 16) (i : Fin 8192), x1 (ix2 b i) = ((a.belR b i : ℝ) : EReal)
  emb : ∀ (i : Fin 8192) (d : Fin 128), x2 (ix2 i d) = ((a.embR i d : ℝ) : EReal)
  wq : ∀ (h : Fin 64) (d : Fin 128), x3 (ix2 h d) = ((a.wqR h d : ℝ) : EReal)
  bq : ∀ (h : Fin 64), x4 (ix2 (0 : Fin 1) h) = ((a.bqR h : ℝ) : EReal)
  wk : ∀ (h : Fin 64) (d : Fin 128), x5 (ix2 h d) = ((a.wkR h d : ℝ) : EReal)
  bk : ∀ (h : Fin 64), x6 (ix2 h (0 : Fin 1)) = ((a.bkR h : ℝ) : EReal)

variable {a}
variable {x1 : SBel.Idx → EReal} {x2 : SEmb.Idx → EReal} {x3 : SW.Idx → EReal} {x4 : SRow.Idx → EReal}
  {x5 : SW.Idx → EReal} {x6 : SCol.Idx → EReal}

theorem sees_of_finite (hf : a.Finite) (x4 : SRow.Idx → EReal) (x6 : SCol.Idx → EReal)
    (h4 : ∀ h : Fin 64, x4 (ix2 (0 : Fin 1) h) = a.bq (ix1 h)) (h6 : ∀ h : Fin 64, x6 (ix2 h (0 : Fin 1)) = a.bk (ix1 h)) :
    Sees a a.bel a.emb a.wq x4 a.wk x6 :=
  ⟨hf.bel_eq, hf.emb_eq, hf.wq_eq, fun h => (h4 h).trans (hf.bq_eq h), hf.wk_eq, fun h => (h6 h).trans (hf.bk_eq h)⟩

/-- The projected keys are the key features (the product's factors in the other order). -/
theorem isK_ktE (hs : Sees a x1 x2 x3 x4 x5 x6) : IsK a (ktE x5 x2 x6) := by
  intro h j
  show ktF x5 x2 x6 h j = _
  unfold ktF Cert.Spec.Args.kR
  rw [EReal.coe_add, Cert.Algebra.coe_sum, hs.bk]
  congr 1
  refine Finset.sum_congr rfl fun d _ => ?_
  rw [hs.wk, hs.emb, ← EReal.coe_mul, mul_comm]

/-- The slab's query features. -/
theorem qF_val (hs : Sees a x1 x2 x3 x4 x5 x6) (t : Fin 16) (r : Fin 512) (h : Fin 64) :
    qF x2 x3 x4 t r h = ((a.qR (slabIdx t r) h : ℝ) : EReal) := by
  unfold qF Cert.Spec.Args.qR
  rw [EReal.coe_add, Cert.Algebra.coe_sum, hs.bq]
  congr 1
  refine Finset.sum_congr rfl fun d _ => ?_
  rw [hs.emb, hs.wq, ← EReal.coe_mul]

/-- The slab's exponentiated logits. -/
theorem pF_val (hs : Sees a x1 x2 x3 x4 x5 x6) {K : SK.Idx → EReal} (hK : IsK a K) (t : Fin 16) (r : Fin 512) (j : Fin 8192) :
    pF (qF x2 x3 x4 t) K r j = ((Real.exp (a.lR (slabIdx t r) j) : ℝ) : EReal) := by
  unfold pF
  have hl : (∑ h : Fin 64, qF x2 x3 x4 t r h * K (ix2 h j)) = ((a.lR (slabIdx t r) j : ℝ) : EReal) := by
    unfold Cert.Spec.Args.lR
    rw [Cert.Algebra.coe_sum]
    refine Finset.sum_congr rfl fun h _ => ?_
    rw [qF_val hs, hK, ← EReal.coe_mul]
  rw [hl]
  rfl

theorem isP_prodP (hs : Sees a x1 x2 x3 x4 x5 x6) {K : SK.Idx → EReal} (hK : IsK a K) (t : Fin 16) :
    IsP a t (prodP x2 x3 x4 K t) := fun r j => pF_val hs hK t r j

/-- The eight chunk sums of a row add up to its normaliser. -/
theorem zF_val (p : Fin 512 → Fin 8192 → EReal) (t : Fin 16)
    (hp : ∀ r j, p r j = ((Real.exp (a.lR (slabIdx t r) j) : ℝ) : EReal)) (r : Fin 512) :
    zF p r = ((a.zR (slabIdx t r) : ℝ) : EReal) := by
  unfold zF cF
  simp only [hp]
  rw [← Cert.Algebra.chunks_eq_zR a (slabIdx t r), Fin.sum_univ_eight]
  simp only [EReal.coe_add, Cert.Algebra.coe_sum]
  rfl

theorem isW_prodW (hs : Sees a x1 x2 x3 x4 x5 x6) {K : SK.Idx → EReal} (hK : IsK a K) (t : Fin 16) :
    IsW a t (prodW x1 x2 x3 x4 K t) := by
  intro b r
  show wF x1 (zF (pF (qF x2 x3 x4 t) K)) t b r = _
  unfold wF
  rw [zF_val (pF (qF x2 x3 x4 t) K) t (fun r j => pF_val hs hK t r j) r, hs.bel,
    Cert.Algebra.div_coe_coe _ _ (ne_of_gt (a.zR_pos _))]

theorem isOut_zero : IsOut a 0 (fun _ => 0) := by
  intro b j
  simp

/-- Accumulating slab `n` adds its share. -/
theorem isOut_acc {n : ℕ} {O : SBel.Idx → EReal} {W : SWt.Idx → EReal} {P : SP.Idx → EReal} (t : Fin 16) (ht : t.val = n)
    (hO : IsOut a n O) (hW : IsW a t W) (hP : IsP a t P) : IsOut a (n + 1) (acc O W P) := by
  intro b j
  show accF O W P b j = _
  unfold accF
  rw [hO b j]
  have h1 : (∑ k : Fin 512, W (ix2 b k) * P (ix2 k j)) = ((slabR a t b j : ℝ) : EReal) := by
    unfold slabR
    rw [Cert.Algebra.coe_sum]
    refine Finset.sum_congr rfl fun k _ => ?_
    rw [hW, hP, ← EReal.coe_mul]
  rw [h1, ← EReal.coe_add]
  congr 1
  have hset : Finset.univ.filter (fun s : Fin 16 => s.val < n + 1)
      = insert t (Finset.univ.filter (fun s : Fin 16 => s.val < n)) := by
    ext s
    simp only [Finset.mem_filter, Finset.mem_univ, true_and, Finset.mem_insert]
    constructor
    · intro h
      by_cases hs : s.val < n
      · exact Or.inr hs
      · exact Or.inl (Fin.ext (by omega))
    · rintro (rfl | h)
      · omega
      · omega
  rw [hset, Finset.sum_insert (by simp [ht]), add_comm]

/-- All sixteen shares make the specification's result. -/
theorem out_final {O : SBel.Idx → EReal} (hO : IsOut a 16 O) : O = a.G := by
  funext y
  obtain ⟨b, j, rfl⟩ : ∃ (b : Fin 16) (j : Fin 8192), y = ix2 b j := ⟨y 0, y 1, eq_ix2 y⟩
  rw [hO b j]
  show _ = ((a.outR b j : ℝ) : EReal)
  congr 1
  rw [Finset.filter_true_of_mem (fun s _ => s.isLt)]
  exact Cert.Algebra.slabs_eq_outR a b j

end Cert.KReal

end
-- ==== Proof.KI.Induct.lean ====
/- The contents after every grid point, over finite arguments: the keys' buffer holds the key features from the first point
   on; after point n the pair of buffers of n's parity holds slab n's exponentiated logits and scaled beliefs; the output
   holds the shares of the slabs accumulated so far (slab n - 1 is accumulated at point n, and the last point also
   accumulates its own slab). By induction on the point. -/
import proofs.«125546_g5935644803188_cont_9to1c4b_610_15_alg».proof.Proof.KI.ValA
import proofs.«125546_g5935644803188_cont_9to1c4b_610_15_alg».proof.Proof.KI.ValB
import proofs.«125546_g5935644803188_cont_9to1c4b_610_15_alg».proof.Proof.KI.ValC
import proofs.«125546_g5935644803188_cont_9to1c4b_610_15_alg».proof.Proof.KI.ValD
import proofs.«125546_g5935644803188_cont_9to1c4b_610_15_alg».proof.Proof.KReal

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec Cert.KReal

variable (m : (ℓ : Loc nD τ sig) → Buf (Elt Ideal) ℓ) (c : Dev nD) (a : Cert.Spec.Args)

/-- The slab a point works on is the point's position. -/
theorem tOf_coords : ∀ t : Fin cfg0.N, (tOf (grid0.coords t)).val = t.val :=
  (by decide +kernel : ∀ t : Fin grid0.N, (tOf (grid0.coords t)).val = t.val)

/-- How many slabs the output has taken in after position `n`: slab n - 1 is accumulated at point n, and the last point
    accumulates its own slab as well. -/
def outCount (n : ℕ) : ℕ := if n = 15 then 16 else n
theorem outCount_ne {n : ℕ} (h : n ≠ 15) : outCount n = n := if_neg h
theorem outCount_last : outCount 15 = 16 := rfl

/-- What holds of the contents after position `n`. -/
def Inv (n : ℕ) (s : St (F := Ideal)) : Prop :=
  IsK a s.k
  ∧ (n % 2 = 0 → ∀ t' : Fin 16, t'.val = n → IsP a t' s.pa ∧ IsW a t' s.wa)
  ∧ (n % 2 = 1 → ∀ t' : Fin 16, t'.val = n → IsP a t' s.pb ∧ IsW a t' s.wb)
  ∧ IsOut a (outCount n) s.out

variable (hs : ∀ t : Fin cfg0.N, Sees a (iblk m c 0 t) (iblk m c 1 t) (iblk m c 2 t) (iblk m c 3 t) (iblk m c 4 t) (iblk m c 5 t))
include hs

theorem inv_A (t : Fin cfg0.N) (h : t.val = 0) : Inv a 0 (stepA m c t h) := by
  have hsee := hs t
  unfold Inv stepA; dsimp only
  refine ⟨?_, ?_, ?_, ?_⟩
  · rw [vA_8 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)]
    exact isK_ktE hsee
  · intro _ t' ht'
    have e : tOf (grid0.coords t) = t' := Fin.ext (by rw [tOf_coords, h, ht'])
    refine ⟨?_, ?_⟩
    · rw [vA_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t), e]
      exact isP_prodP hsee (isK_ktE hsee) t'
    · rw [vA_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t), e]
      exact isW_prodW hsee (isK_ktE hsee) t'
  · intro h1; exact absurd h1 (by decide)
  · rw [show outCount 0 = 0 from rfl, vA_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gA t h).1 (gA t h).2.1 (gA t h).2.2.1 (gA t h).2.2.2.1 (gA t h).2.2.2.2.1 (gA t h).2.2.2.2.2 (iblk m c 0 t) (iblk m c 1 t) (iblk m c 2 t) (iblk m c 3 t) (iblk m c 4 t) (iblk m c 5 t)]
    exact isOut_zero

theorem inv_B (t : Fin cfg0.N) (h0 : t.val ≠ 0) (he : t.val % 2 = 0) (s : St (F := Ideal)) (hprev : Inv a (t.val - 1) s) :
    Inv a t.val (stepB m c t h0 he s) := by
  have hsee := hs t
  unfold Inv stepB; dsimp only
  have hN : t.val < 16 := lt_of_lt_of_eq t.isLt (show cfg0.N = 16 from N_0)
  unfold Inv at hprev
  obtain ⟨hK, -, hodd, hout⟩ := hprev
  obtain ⟨hPb, hWb⟩ := hodd (by omega) ⟨t.val - 1, by omega⟩ rfl
  rw [outCount_ne (by omega)] at hout
  refine ⟨hK, ?_, ?_, ?_⟩
  · intro _ t' ht'
    have e : tOf (grid0.coords t) = t' := Fin.ext (by rw [tOf_coords, ht'])
    refine ⟨?_, ?_⟩
    · rw [vB_9 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb, e]
      exact isP_prodP hsee hK t'
    · rw [vB_11 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb, e]
      exact isW_prodW hsee hK t'
  · intro h1; omega
  · rw [outCount_ne (by omega), vB_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gB t h0 he).1 (gB t h0 he).2.1 (gB t h0 he).2.2.1 (gB t h0 he).2.2.2.1 (gB t h0 he).2.2.2.2.1 (gB t h0 he).2.2.2.2.2 (iblk m c 0 t) (iblk m c 1 t) (iblk m c 2 t) (iblk m c 3 t) s.out s.k s.pb s.wb]
    have := isOut_acc (⟨t.val - 1, by omega⟩ : Fin 16) rfl hout hWb hPb
    rwa [show t.val - 1 + 1 = t.val from by omega] at this

theorem inv_C (t : Fin cfg0.N) (ho : t.val % 2 = 1) (h15 : t.val ≠ 15) (s : St (F := Ideal)) (hprev : Inv a (t.val - 1) s) :
    Inv a t.val (stepC m c t ho h15 s) := by
  have hsee := hs t
  unfold Inv stepC; dsimp only
  have hN : t.val < 16 := lt_of_lt_of_eq t.isLt (show cfg0.N = 16 from N_0)
  unfold Inv at hprev
  obtain ⟨hK, heven, -, hout⟩ := hprev
  obtain ⟨hPa, hWa⟩ := heven (by omega) ⟨t.val - 1, by omega⟩ rfl
  rw [outCount_ne (by omega)] at hout
  refine ⟨hK, ?_, ?_, ?_⟩
  · intro h1; omega
  · intro _ t' ht'
    have e : tOf (grid0.coords t) = t' := Fin.ext (by rw [tOf_coords, ht'])
    refine ⟨?_, ?_⟩
    · rw [vC_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa, e]
      exact isP_prodP hsee hK t'
    · rw [vC_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa, e]
      exact isW_prodW hsee hK t'
  · rw [outCount_ne h15, vC_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gC t ho h15).1 (gC t ho h15).2.1 (gC t ho h15).2.2.1 (gC t ho h15).2.2.2.1 (gC t ho h15).2.2.2.2.1 (gC t ho h15).2.2.2.2.2 (iblk m c 0 t) (iblk m c 1 t) (iblk m c 2 t) (iblk m c 3 t) s.out s.k s.pa s.wa]
    have := isOut_acc (⟨t.val - 1, by omega⟩ : Fin 16) rfl hout hWa hPa
    rwa [show t.val - 1 + 1 = t.val from by omega] at this

theorem inv_D (t : Fin cfg0.N) (h15 : t.val = 15) (s : St (F := Ideal)) (hprev : Inv a (t.val - 1) s) :
    Inv a t.val (stepD m c t h15 s) := by
  have hsee := hs t
  unfold Inv stepD; dsimp only
  unfold Inv at hprev
  obtain ⟨hK, heven, -, hout⟩ := hprev
  obtain ⟨hPa, hWa⟩ := heven (by omega) ⟨t.val - 1, by omega⟩ rfl
  rw [outCount_ne (by omega)] at hout
  have e : tOf (grid0.coords t) = (⟨15, by decide⟩ : Fin 16) := Fin.ext (by rw [tOf_coords, h15])
  refine ⟨hK, ?_, ?_, ?_⟩
  · intro h1; omega
  · intro _ t' ht'
    have e' : tOf (grid0.coords t) = t' := Fin.ext (by rw [tOf_coords, ht'])
    refine ⟨?_, ?_⟩
    · rw [vD_10 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa, e']
      exact isP_prodP hsee hK t'
    · rw [vD_12 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa, e']
      exact isW_prodW hsee hK t'
  · rw [show outCount t.val = 16 from by rw [h15]; rfl, vD_7 c (grid0.coords t) (ms0 t) (hs0 t) (ms1 t) (hs1 t) (ms2 t) (hs2 t) (ms3 t) (hs3 t) (ms4 t) (hs4 t) (ms5 t) (hs5 t) (ms6 t) (hs6 t) scK (Memref.isWhole_whole _) scPa (Memref.isWhole_whole _) scPb (Memref.isWhole_whole _) scWa (Memref.isWhole_whole _) scWb (Memref.isWhole_whole _) (gD t h15).1 (gD t h15).2.1 (gD t h15).2.2.1 (gD t h15).2.2.2.1 (gD t h15).2.2.2.2.1 (gD t h15).2.2.2.2.2 (iblk m c 0 t) (iblk m c 1 t) (iblk m c 2 t) (iblk m c 3 t) s.out s.k s.pa s.wa, e]
    have h14 := isOut_acc (⟨t.val - 1, by omega⟩ : Fin 16) rfl hout hWa hPa
    rw [show t.val - 1 + 1 = 15 from by omega] at h14
    exact isOut_acc (⟨15, by decide⟩ : Fin 16) rfl h14 (isW_prodW hsee hK _) (isP_prodP hsee hK _)

/-- The invariant holds after every point. -/
theorem inv_all : ∀ (n : ℕ) (hn : n < cfg0.N), Inv a n (stAt m c n hn) := by
  intro n
  induction n with
  | zero => intro hn; exact inv_A m c a hs ⟨0, hn⟩ rfl
  | succ n ih =>
    intro hn
    have hN : n + 1 < 16 := lt_of_lt_of_eq hn (show cfg0.N = 16 from N_0)
    by_cases h15 : n + 1 = 15
    · rw [stAt_D m c ⟨n + 1, hn⟩ h15]
      exact inv_D m c a hs ⟨n + 1, hn⟩ h15 _ (ih (Nat.lt_of_succ_lt hn))
    · by_cases he : (n + 1) % 2 = 0
      · rw [stAt_B m c ⟨n + 1, hn⟩ (Nat.succ_ne_zero n) he]
        exact inv_B m c a hs ⟨n + 1, hn⟩ (Nat.succ_ne_zero n) he _ (ih (Nat.lt_of_succ_lt hn))
      · rw [stAt_C m c ⟨n + 1, hn⟩ (by dsimp only; omega) h15]
        exact inv_C m c a hs ⟨n + 1, hn⟩ (by dsimp only; omega) h15 _ (ih (Nat.lt_of_succ_lt hn))

/-- After the last point the output's staging buffer holds the specification's result. -/
theorem out_last (h : 15 < cfg0.N) : (stAt m c 15 h).out = a.G :=
  out_final (by have := (inv_all m c a hs 15 h).2.2.2; rwa [outCount_last] at this)

end Cert.KernelIdeal.Body

end
-- ==== Proof.KI.Inputs.lean ====
/- The windows' blocks and the result array in terms of the argument arrays: every window's block is its whole array at
   every grid point, the two bias windows read host reshapes of the bias vectors, and the result array is what the last
   point leaves in the output's staging buffer. -/
import proofs.«125546_g5935644803188_cont_9to1c4b_610_15_alg».proof.Proof.KI.Data
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- Window 0's block at any point is the whole array of beliefs. -/
theorem iblk_0 (c : Dev nD) (t : Fin cfg0.N) :
    (iblk m c 0 t : S16x8192.Idx → Elt F .f32) = m ((c.tc : Thread nD τ).loc main_arg0) := by
  rw [← V_main_arg0 m c]
  funext j
  show V m c main_arg0 (((cfg0.win 0).blk t).view.emb j) = V m c main_arg0 j
  refine congrArg _ (funext fun a => Fin.ext ?_)
  match a with
  | ⟨0, _⟩ => show 0 * 16 + 1 * (j 0).val = (j 0).val; omega
  | ⟨1, _⟩ => show 0 * 8192 + 1 * (j 1).val = (j 1).val; omega

/-- Window 1's block at any point is the whole array of state embeddings. -/
theorem iblk_1 (c : Dev nD) (t : Fin cfg0.N) :
    (iblk m c 1 t : S8192x128.Idx → Elt F .f32) = m ((c.tc : Thread nD τ).loc main_arg1) := by
  rw [← V_main_arg1 m c]
  funext j
  show V m c main_arg1 (((cfg0.win 1).blk t).view.emb j) = V m c main_arg1 j
  refine congrArg _ (funext fun a => Fin.ext ?_)
  match a with
  | ⟨0, _⟩ => show 0 * 8192 + 1 * (j 0).val = (j 0).val; omega
  | ⟨1, _⟩ => show 0 * 128 + 1 * (j 1).val = (j 1).val; omega

/-- Window 2's block at any point is the whole array of query weights. -/
theorem iblk_2 (c : Dev nD) (t : Fin cfg0.N) :
    (iblk m c 2 t : S64x128.Idx → Elt F .f32) = m ((c.tc : Thread nD τ).loc main_arg4) := by
  rw [← V_main_arg4 m c]
  funext j
  show V m c main_arg4 (((cfg0.win 2).blk t).view.emb j) = V m c main_arg4 j
  refine congrArg _ (funext fun a => Fin.ext ?_)
  match a with
  | ⟨0, _⟩ => show 0 * 64 + 1 * (j 0).val = (j 0).val; omega
  | ⟨1, _⟩ => show 0 * 128 + 1 * (j 1).val = (j 1).val; omega

/-- Window 4's block at any point is the whole array of key weights. -/
theorem iblk_4 (c : Dev nD) (t : Fin cfg0.N) :
    (iblk m c 4 t : S64x128.Idx → Elt F .f32) = m ((c.tc : Thread nD τ).loc main_arg2) := by
  rw [← V_main_arg2 m c]
  funext j
  show V m c main_arg2 (((cfg0.win 4).blk t).view.emb j) = V m c main_arg2 j
  refine congrArg _ (funext fun a => Fin.ext ?_)
  match a with
  | ⟨0, _⟩ => show 0 * 64 + 1 * (j 0).val = (j 0).val; omega
  | ⟨1, _⟩ => show 0 * 128 + 1 * (j 1).val = (j 1).val; omega

/-- The array window 3 stages is the host's reshape of the query bias to one row. -/
theorem V_main_v0 (c : Dev nD) :
    (V m c main_v0 : S1x64.Idx → Elt F .f32) = shapeCast S1x64 (m ((c.tc : Thread nD τ).loc main_arg5)) shapeCasts_S64_S1x64 := by
  dsimp only [Gen.V, Gen.hostOps0]; after_results; rfl
/-- The array window 5 stages is the host's reshape of the key bias to one column. -/
theorem V_main_v1 (c : Dev nD) :
    (V m c main_v1 : S64x1.Idx → Elt F .f32) = shapeCast S64x1 (m ((c.tc : Thread nD τ).loc main_arg3)) shapeCasts_S64_S64x1 := by
  dsimp only [Gen.V, Gen.hostOps0]; after_results; rfl

/-- Window 3's block at any point, read at column `h` of its one row, is entry `h` of the query bias. -/
theorem iblk_3_apply (c : Dev nD) (t : Fin cfg0.N) (h : Fin 64) :
    (iblk m c 3 t : S1x64.Idx → Elt F .f32) (ix2 (0 : Fin 1) h) = m ((c.tc : Thread nD τ).loc main_arg5) (ix1 h) := by
  show V m c main_v0 (((cfg0.win 3).blk t).view.emb (ix2 (0 : Fin 1) h)) = _
  have e : ((cfg0.win 3).blk t).view.emb (ix2 (0 : Fin 1) h) = ix2 (0 : Fin 1) h := by
    funext a; apply Fin.ext
    match a with
    | ⟨0, _⟩ => show 0 * 1 + 1 * 0 = 0; rfl
    | ⟨1, _⟩ => show 0 * 64 + 1 * h.val = h.val; omega
  rw [e, V_main_v0]
  refine shapeCast_apply _ _ _ (ix1 h) ?_
  rw [Shape.rowMajor_val_one, Shape.rowMajor_val_two]
  show h.val = 0 * 64 + h.val
  omega
/-- Window 5's block at any point, read at row `h` of its one column, is entry `h` of the key bias. -/
theorem iblk_5_apply (c : Dev nD) (t : Fin cfg0.N) (h : Fin 64) :
    (iblk m c 5 t : S64x1.Idx → Elt F .f32) (ix2 h (0 : Fin 1)) = m ((c.tc : Thread nD τ).loc main_arg3) (ix1 h) := by
  show V m c main_v1 (((cfg0.win 5).blk t).view.emb (ix2 h (0 : Fin 1))) = _
  have e : ((cfg0.win 5).blk t).view.emb (ix2 h (0 : Fin 1)) = ix2 h (0 : Fin 1) := by
    funext a; apply Fin.ext
    match a with
    | ⟨0, _⟩ => show 0 * 64 + 1 * h.val = h.val; omega
    | ⟨1, _⟩ => show 0 * 1 + 1 * 0 = 0; rfl
  rw [e, V_main_v1]
  refine shapeCast_apply _ _ _ (ix1 h) ?_
  rw [Shape.rowMajor_val_one, Shape.rowMajor_val_two]
  show h.val = h.val * 1 + 0
  omega

/-! ## The result array -/

/-- The last grid point. -/
abbrev tLast : Fin cfg0.N := ⟨15, by rw [show cfg0.N = 16 from N_0]; decide⟩

/-- The one point that writes the output back is the last, and what it writes back is all of what it leaves in the
    output's staging buffer: the block is the whole array. -/
theorem flushed_6 (c : Dev nD) (t : Fin cfg0.N) (hf : (cfg0.win 6).flush t = true) :
    (dats m 0 c).flushed 6 t = ((cfg0.win 6).blk t).view.read (Elt F) (stAt m c 15 tLast.isLt).out := by
  have hN : cfg0.N = 16 := N_0
  have h15 : t.val = 15 := by have := (flush0_6 t).mp hf; have := t.isLt; omega
  obtain rfl : t = tLast := Fin.ext h15
  show (cfg0.win 6).cut (grid0.coords tLast) ((dats m 0 c).after 6 tLast) = _
  rw [after_6]
  funext j
  show (stAt m c 15 tLast.isLt).out ((cfg0.win 6).xinj (grid0.coords tLast) j)
    = (stAt m c 15 tLast.isLt).out (((cfg0.win 6).blk tLast).view.emb j)
  refine congrArg _ (funext fun a => Fin.ext ?_)
  match a with
  | ⟨0, _⟩ => show (j 0).val = 0 * 16 + 1 * (j 0).val; omega
  | ⟨1, _⟩ => show (j 1).val = 0 * 8192 + 1 * (j 1).val; omega

/-- The result array after the run is what the last point leaves in the output's staging buffer. -/
theorem arrAt_out (c : Dev nD) :
    (dats m 0 c).arrAt 6 cfg0.N = (stAt m c 15 (by rw [show cfg0.N = 16 from N_0]; decide)).out :=
  (dats m 0 c).arrAt_eq_of_cover 6 (stAt m c 15 tLast.isLt).out (flushed_6 m c) fun i =>
    ⟨tLast, (flush0_6 tLast).mpr rfl, by
      show i ∈ ((View.whole main_v2).slice (win0_6.rect tLast)).set
      rw [View.set_slice_whole, Rect.mem_set_unit]
      intro a
      have h0 : (i 0 : Nat) < 16 := (i 0).isLt
      have h1 : (i 1 : Nat) < 8192 := (i 1).isLt
      match a with
      | ⟨0, _⟩ => show 0 * 16 ≤ (i 0 : Nat) ∧ (i 0 : Nat) < 0 * 16 + 16; omega
      | ⟨1, _⟩ => show 0 * 8192 ≤ (i 1 : Nat) ∧ (i 1 : Nat) < 0 * 8192 + 8192; omega⟩

end Cert.KernelIdeal.Body

end
-- ==== Proof.FiniteArgs.lean ====
/- From the printed finiteness predicate to "every argument entry is a real".

   The predicate is the conjunction, over the six argument arrays, of "every entry x has |x| < +∞", each conjunct a
   reduction by "and" of the array of one-bit comparison results. If the conjunction is the word 1 then every comparison
   is the word 1; |x| = max x (-x) is below +∞ in the extended reals only when x is neither +∞ nor -∞, that is, when x
   is a real. -/
import proofs.«125546_g5935644803188_cont_9to1c4b_610_15_alg».proof.Pre_finite_inputs
import proofs.«125546_g5935644803188_cont_9to1c4b_610_15_alg».proof.Proof.Gen.Pre_finite_inputs
import proofs.«125546_g5935644803188_cont_9to1c4b_610_15_alg».proof.Proof.Spec
import Idealize.ShloMosaic.Lib.ReduceAll

noncomputable section

namespace Cert.FiniteArgs

open Idealize.ShloMosaic Cert.Pre_finite_inputs

/-- The rank-0 shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One conjunct read back: if the "and" over all entries of the comparison |x| < +∞ is the word 1, every entry of
    the array is a real. -/
theorem real_of_all {s : Shape} {axes : List (Fin s.rank)} (bc : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] bc (constant (F := Ideal) S_ .f32 0x7F800000#32)))
          (constantI S_ 1 1#1) hr hu ValueIdx.ix0 = 1#1)
    (i : s.Idx) : ∃ r : ℝ, x i = (r : EReal) :=
  real_of_abs_lt (x i) (Host.reduce_andi_all _ _ hr hu ValueIdx.ix0 h i)

/-- Under the printed precondition every entry of every argument array is a real. -/
theorem finite_of_pre [hP : Cert.Pre_finite_inputs.Facts]
    (x0 : FVec Ideal S16x8192 .f32) (x1 : FVec Ideal S8192x128 .f32) (x2 : FVec Ideal S64x128 .f32)
    (x3 : FVec Ideal S64 .f32) (x4 : FVec Ideal S64x128 .f32) (x5 : FVec Ideal S64 .f32)
    (h : Cert.Pre_finite_inputs.fn (F := Ideal) x0 x1 x2 x3 x4 x5 = (fun _ => 1#1)) :
    (Cert.Spec.Args.mk x0 x1 x2 x3 x4 x5).Finite := by
  have h0 := congrFun h ValueIdx.ix0
  dsimp only [fn, fn_part1, andi] at h0
  simp only [IntOp.andi_eq_one] at h0
  obtain ⟨⟨⟨⟨⟨a0, a1⟩, a2⟩, a3⟩, a4⟩, a5⟩ := h0
  exact
    { bel := real_of_all _ _ _ x0 a0
      emb := real_of_all _ _ _ x1 a1
      wk := real_of_all _ _ _ x2 a2
      bk := real_of_all _ _ _ x3 a3
      wq := real_of_all _ _ _ x4 a4
      bq := real_of_all _ _ _ x5 a5 }

end Cert.FiniteArgs

end
-- ==== Proof.KI.Value.lean ====
/- The idealized kernel's run with its result named: under finite arguments every weakly fair execution ends with the
   result array at the specification's function of the argument arrays, the arguments unchanged. -/
import proofs.«125546_g5935644803188_cont_9to1c4b_610_15_alg».proof.Proof.KI.Induct
import proofs.«125546_g5935644803188_cont_9to1c4b_610_15_alg».proof.Proof.KI.Inputs
import proofs.«125546_g5935644803188_cont_9to1c4b_610_15_alg».proof.Proof.FiniteArgs
import proofs.«125546_g5935644803188_cont_9to1c4b_610_15_alg».proof.Defs
import proofs.«125546_g5935644803188_cont_9to1c4b_610_15_alg».proof.Proof.Gen.Pre_finite_inputs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.KSpec Cert.KReal

variable (m : (ℓ : Loc nD τ sig) → Buf (Elt Ideal) ℓ) (ρ : Dev nD → PrngReg)

/-- The six argument arrays on core `c`, as the specification takes them. -/
def argsAt (c : Dev nD) : Cert.Spec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

/-- Under the precondition every argument entry is a real. -/
theorem finite_args (hpre : Cert.Pre_KernelIdeal m) (c : Dev nD) : (argsAt m c).Finite :=
  Cert.FiniteArgs.finite_of_pre _ _ _ _ _ _ (hpre c)

/-- What the body reads at every point are the arguments' reals: each window's block is its whole array, the two biases
    reshaped to a row and to a column. -/
theorem sees_args (hpre : Cert.Pre_KernelIdeal m) (c : Dev nD) (t : Fin cfg0.N) :
    Sees (argsAt m c) (iblk m c 0 t) (iblk m c 1 t) (iblk m c 2 t) (iblk m c 3 t) (iblk m c 4 t) (iblk m c 5 t) := by
  rw [iblk_0, iblk_1, iblk_2, iblk_4]
  exact sees_of_finite (finite_args m hpre c) _ _ (iblk_3_apply m c t) (iblk_5_apply m c t)

/-- The run, with the result array named. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v2) = (argsAt m c).G
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans ((arrAt_out m c).trans (out_last m c (argsAt m c) (sees_args m hpre c) _)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩) (run_main m ρ)

end Cert.KernelIdeal.Body

end
-- ==== Proof.RefValue.lean ====
/- The reference program's value.

   The reference computes, one array operation at a time, the query and key features of every state, their logits, each
   row's softmax (shifted by the row's maximum before exponentiating), and the belief batch times that row-stochastic
   matrix. Under finiteness of the entries every intermediate array holds images of real numbers, and the result is
   the specification's array: the shift by the row maximum cancels between numerator and denominator. -/
import proofs.«125546_g5935644803188_cont_9to1c4b_610_15_alg».proof.Proof.Gen.ReferenceIdeal.Read
import proofs.«125546_g5935644803188_cont_9to1c4b_610_15_alg».proof.Proof.Spec
import proofs.«125546_g5935644803188_cont_9to1c4b_610_15_alg».proof.Proof.Algebra

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec Cert.Algebra

/-! ## The operand indices of each operation, by coordinates -/

theorem lidx1 (i : Fin 8192) (h : Fin 64) (d : Fin 128) : lidx_main_v1 (ix2 i h) d = ix2 i d := by
  funext c; match c with | ⟨0, _⟩ => rfl | ⟨1, _⟩ => rfl
theorem ridx1 (i : Fin 8192) (h : Fin 64) (d : Fin 128) : idx_main_v0 (ridx_main_v1 (ix2 i h) d) = ix2 h d := by
  funext c; match c with | ⟨0, _⟩ => rfl | ⟨1, _⟩ => rfl
theorem bidx1 (i : Fin 8192) (h : Fin 64) : idx_main_v2 (idx_main_v3 (ix2 i h)) = ix1 h := by
  funext c; match c with | ⟨0, _⟩ => rfl
theorem lidx6 (j : Fin 8192) (h : Fin 64) (d : Fin 128) : lidx_main_v6 (ix2 j h) d = ix2 j d := by
  funext c; match c with | ⟨0, _⟩ => rfl | ⟨1, _⟩ => rfl
theorem ridx6 (j : Fin 8192) (h : Fin 64) (d : Fin 128) : idx_main_v5 (ridx_main_v6 (ix2 j h) d) = ix2 h d := by
  funext c; match c with | ⟨0, _⟩ => rfl | ⟨1, _⟩ => rfl
theorem bidx6 (j : Fin 8192) (h : Fin 64) : idx_main_v7 (idx_main_v8 (ix2 j h)) = ix1 h := by
  funext c; match c with | ⟨0, _⟩ => rfl
theorem lidx11 (i j : Fin 8192) (h : Fin 64) : lidx_main_v11 (ix2 i j) h = ix2 i h := by
  funext c; match c with | ⟨0, _⟩ => rfl | ⟨1, _⟩ => rfl
theorem ridx11 (i j : Fin 8192) (h : Fin 64) : idx_main_v10 (ridx_main_v11 (ix2 i j) h) = ix2 j h := by
  funext c; match c with | ⟨0, _⟩ => rfl | ⟨1, _⟩ => rfl
theorem midx (i j : Fin 8192) : idx_main_v15 (idx_main_v16 (ix2 i j)) = ix1 i := by
  funext c; match c with | ⟨0, _⟩ => rfl
theorem sidx (i k : Fin 8192) : idx_main_v19 (ix1 i) k = ix2 i k := by
  funext c; match c with | ⟨0, _⟩ => rfl | ⟨1, _⟩ => rfl
theorem didx (i j : Fin 8192) : idx_main_v20 (idx_main_v21 (ix2 i j)) = ix1 i := by
  funext c; match c with | ⟨0, _⟩ => rfl
theorem lidx23 (b : Fin 16) (j k : Fin 8192) : lidx_main_v23 (ix2 b j) k = ix2 b k := by
  funext c; match c with | ⟨0, _⟩ => rfl | ⟨1, _⟩ => rfl
theorem ridx23 (b : Fin 16) (j k : Fin 8192) : ridx_main_v23 (ix2 b j) k = ix2 k j := by
  funext c; match c with | ⟨0, _⟩ => rfl | ⟨1, _⟩ => rfl

/-- The row reduction drops the column axis. -/
theorem red : S8192x8192.Reduces [1] S8192 := by decide
/-- Row index i with column k inserted is (i, k). -/
theorem lift_idx (i k : Fin 8192) : red.lift (ix1 i) k = ix2 i k := by
  funext c; apply Fin.ext; match c with | ⟨0, _⟩ => rfl | ⟨1, _⟩ => rfl

variable (a : Args) (ha : a.Finite)

/-! ## The feature projections -/

/-- The query projection's matrix product at (i, h): the contraction runs over the embedding coordinate, the weight read transposed. -/
theorem proj_q (i : Fin 8192) (h : Fin 64) :
    val_main_v1 (F := Ideal) a.emb a.wq (ix2 i h) = ∑ d : Fin 128, a.emb (ix2 i d) * a.wq (ix2 h d) := by
  rw [val_main_v1_apply]
  refine Finset.sum_congr rfl fun d _ => ?_
  rw [val_main_v0_apply, lidx1, ridx1]

include ha in
/-- The query features. -/
theorem q_eq (i : Fin 8192) (h : Fin 64) :
    val_main_v4 (F := Ideal) a.emb a.wq a.bq (ix2 i h) = ((a.qR i h : ℝ) : EReal) := by
  rw [val_main_v4_apply, proj_q, val_main_v3_apply, val_main_v2_apply, bidx1]
  show (∑ d : Fin 128, a.emb (ix2 i d) * a.wq (ix2 h d)) + a.bq (ix1 h) = _
  unfold Args.qR
  rw [EReal.coe_add, coe_sum, ha.bq_eq]
  refine congrArg (· + _) (Finset.sum_congr rfl fun d _ => ?_)
  rw [ha.emb_eq, ha.wq_eq, EReal.coe_mul]

/-- The key projection's matrix product at (j, h). -/
theorem proj_k (j : Fin 8192) (h : Fin 64) :
    val_main_v6 (F := Ideal) a.emb a.wk (ix2 j h) = ∑ d : Fin 128, a.emb (ix2 j d) * a.wk (ix2 h d) := by
  rw [val_main_v6_apply]
  refine Finset.sum_congr rfl fun d _ => ?_
  rw [val_main_v5_apply, lidx6, ridx6]

include ha in
/-- The key features. -/
theorem k_eq (j : Fin 8192) (h : Fin 64) :
    val_main_v9 (F := Ideal) a.emb a.wk a.bk (ix2 j h) = ((a.kR j h : ℝ) : EReal) := by
  rw [val_main_v9_apply, proj_k, val_main_v8_apply, val_main_v7_apply, bidx6]
  show (∑ d : Fin 128, a.emb (ix2 j d) * a.wk (ix2 h d)) + a.bk (ix1 h) = _
  unfold Args.kR
  rw [EReal.coe_add, coe_sum, ha.bk_eq]
  refine congrArg (· + _) (Finset.sum_congr rfl fun d _ => ?_)
  rw [ha.emb_eq, ha.wk_eq, EReal.coe_mul]

/-! ## The logits -/

include ha in
/-- The logit of (i, j): the queries of i against the keys of j, the key array read transposed. -/
theorem l_eq (i j : Fin 8192) :
    val_main_v11 (F := Ideal) a.emb a.wk a.bk a.wq a.bq (ix2 i j) = ((a.lR i j : ℝ) : EReal) := by
  rw [val_main_v11_apply]
  unfold Args.lR
  rw [coe_sum]
  refine Finset.sum_congr rfl fun h _ => ?_
  rw [val_main_v10_apply, lidx11, ridx11, q_eq a ha, k_eq a ha, EReal.coe_mul]

/-! ## The row maximum -/

include ha in
/-- A row's maximum as the reduction takes it, from the start value −∞: the supremum of the row's logits. -/
theorem v12_eq (i : Fin 8192) :
    val_main_v12 (F := Ideal) a.emb a.wk a.bk a.wq a.bq (ix1 i)
      = (Finset.univ : Finset (Fin 8192)).sup (fun k => ((a.lR i k : ℝ) : EReal)) := by
  have hl : ∀ k : Fin 8192, val_main_v11 (F := Ideal) a.emb a.wk a.bk a.wq a.bq (ix2 i k) = ((a.lR i k : ℝ) : EReal) :=
    fun k => l_eq a ha i k
  unfold val_main_v12
  generalize val_main_v11 (F := Ideal) a.emb a.wk a.bk a.wq a.bq = y at hl ⊢
  refine (Host.reduce_eq_fold_single (FloatOps.maximumf (F := Ideal) (φ := .f32)) y _ reducesTo_S8192x8192_S8192_d1 red h_S_ (ix1 i)).trans ?_
  have hf : (y ∘ red.lift (ix1 i)) = fun k : Fin 8192 => ((a.lR i k : ℝ) : EReal) := funext fun (k : Fin 8192) =>
    (congrArg y (lift_idx i k)).trans (hl k)
  have hb : val_main_cst (F := Ideal) (Shape.Idx.first h_S_) = (⊥ : EReal) := by
    show Ideal.ofBits .f32 0xFF800000#32 = ⊥
    simp [Ideal.ofBits, Ideal.ieee]
  rw [hf, hb]
  rfl

/-- The shift the softmax subtracts from row i: the row's maximum, as a real. -/
def mR (i : Fin 8192) : ℝ := (val_main_v14 (F := Ideal) a.emb a.wk a.bk a.wq a.bq (ix1 i)).toReal

include ha in
/-- The shift is a real's image: the row is not empty and its logits are reals' images. -/
theorem m_eq (i : Fin 8192) :
    val_main_v14 (F := Ideal) a.emb a.wk a.bk a.wq a.bq (ix1 i) = ((mR a i : ℝ) : EReal) := by
  obtain ⟨m, hm⟩ := exists_real_sup (n := 8192) (by decide) (fun k => a.lR i k)
  have h14 : val_main_v14 (F := Ideal) a.emb a.wk a.bk a.wq a.bq (ix1 i) = (m : EReal) := by
    rw [val_main_v14_apply, val_main_v13_apply, v12_eq a ha, hm]
    show max (Ideal.ofBits .f32 0xFF800000#32) (m : EReal) = _
    simp [Ideal.ofBits, Ideal.ieee]
  unfold mR
  rw [h14, EReal.toReal_coe]

/-! ## The shifted exponentials, their row sums, and the quotient -/

include ha in
/-- The exponential of a logit less its row's shift. -/
theorem e_eq (i j : Fin 8192) :
    val_main_v18 (F := Ideal) a.emb a.wk a.bk a.wq a.bq (ix2 i j) = ((Real.exp (a.lR i j - mR a i) : ℝ) : EReal) := by
  rw [val_main_v18_apply, val_main_v17_apply, val_main_v16_apply, val_main_v15_apply, midx, l_eq a ha, m_eq a ha]
  show Ideal.exp (((a.lR i j : ℝ) : EReal) - ((mR a i : ℝ) : EReal)) = _
  rw [← EReal.coe_sub]
  rfl

include ha in
/-- A row's sum of shifted exponentials, added to the start value zero. -/
theorem s_eq (i : Fin 8192) :
    val_main_v19 (F := Ideal) a.emb a.wk a.bk a.wq a.bq (ix1 i)
      = ((∑ j : Fin 8192, Real.exp (a.lR i j - mR a i) : ℝ) : EReal) := by
  have h0 : val_main_cst_1 (F := Ideal) (Shape.Idx.first h_S_) = 0 := by
    show Ideal.ofBits .f32 0x00000000#32 = 0
    exact Ideal.ofBits_zero_f32
  rw [val_main_v19_apply, coe_sum, h0, zero_add]
  refine Finset.sum_congr rfl fun j _ => ?_
  rw [sidx, e_eq a ha]

include ha in
/-- The transition probability from i to j: the divisor is a sum of exponentials, hence positive, and the shift cancels. -/
theorem t_eq (i j : Fin 8192) :
    val_main_v22 (F := Ideal) a.emb a.wk a.bk a.wq a.bq (ix2 i j) = ((Real.exp (a.lR i j) / a.zR i : ℝ) : EReal) := by
  rw [val_main_v22_apply, val_main_v21_apply, val_main_v20_apply, didx, e_eq a ha, s_eq a ha]
  show Ideal.div _ _ = _
  have hpos : 0 < ∑ j : Fin 8192, Real.exp (a.lR i j - mR a i) :=
    Finset.sum_pos (fun j _ => Real.exp_pos _) ⟨⟨0, by decide⟩, Finset.mem_univ _⟩
  rw [div_coe_coe _ _ hpos.ne']
  exact congrArg _ (softmax_shift (fun k => a.lR i k) (mR a i) j)

/-! ## The result -/

include ha in
/-- The belief batch times the transition matrix at (b, j): the contraction runs over the source state. -/
theorem out_eq (b : Fin 16) (j : Fin 8192) :
    val_main_v23 (F := Ideal) a.bel a.emb a.wk a.bk a.wq a.bq (ix2 b j) = ((a.outR b j : ℝ) : EReal) := by
  rw [val_main_v23_apply]
  unfold Args.outR
  rw [coe_sum]
  refine Finset.sum_congr rfl fun k _ => ?_
  rw [lidx23, ridx23, ha.bel_eq, t_eq a ha, EReal.coe_mul]

/-- The reference's result is the specification's array. -/
theorem ref_eq (x0 : (⟨S16x8192, .f32⟩ : BufTy).Contents (Elt Ideal)) (x1 : (⟨S8192x128, .f32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal))
    (hfin : (Cert.Spec.Args.mk x0 x1 x2 x3 x4 x5).Finite) :
    Cert.ReferenceIdeal.Read.val_main_v23 (F := Ideal) x0 x1 x2 x3 x4 x5 = (Cert.Spec.Args.mk x0 x1 x2 x3 x4 x5).G := by
  funext y
  obtain ⟨b, j, rfl⟩ : ∃ (b : Fin 16) (j : Fin 8192), y = ix2 b j := ⟨y 0, y 1, eq_ix2 y⟩
  exact out_eq (Cert.Spec.Args.mk x0 x1 x2 x3 x4 x5) hfin b j

end Cert.ReferenceIdeal.RefValue

end
-- ==== Proof.lean ====
/- The fused factorized-transition kernel against its reference.

   The kernel streams the 8192 × 8192 matrix of softmax transition weights through VMEM in sixteen slabs of 512 rows: a grid
   point exponentiates its slab's logits without subtracting the row maximum, sums each row, divides the slab's columns of
   the belief batch by the row sums, and a later point adds the product of those scaled beliefs with the slab into the
   output. The reference forms the whole softmax (with the row maximum subtracted) and multiplies the beliefs by it. Over
   the reals a softmax does not see a common shift of its logits, dividing the belief by a row's normaliser is dividing
   that row of exponentials by it, and the sum over all states is the sum over the slabs of the sums inside each slab: both
   programs compute out b j = Σ_i bel b i · exp (l i j) / Σ_j' exp (l i j'). Finiteness of the inputs is used: it makes every
   logit a real, every exponential a positive real and every normaliser a nonzero real, so the divisions and the
   rearrangements of sums are the reals'.

   The frames: the body is run once per control case (the first point; an even point after it; an odd point before the
   last; the last point), the five scratch buffers carried from point to point by the region invariant, at the word-level
   instance and at the exact one alike. The reference's frame is its run with the result dropped. The idealization rewrote
   nothing, so there is nothing to preserve. -/
import proofs.«125546_g5935644803188_cont_9to1c4b_610_15_alg».proof.Defs
import proofs.«125546_g5935644803188_cont_9to1c4b_610_15_alg».proof.Proof.Gen.Kernel
import proofs.«125546_g5935644803188_cont_9to1c4b_610_15_alg».proof.Proof.Gen.KernelIdeal
import proofs.«125546_g5935644803188_cont_9to1c4b_610_15_alg».proof.Proof.Gen.ReferenceIdeal
import proofs.«125546_g5935644803188_cont_9to1c4b_610_15_alg».proof.Proof.Gen.Pre_finite_inputs
import proofs.«125546_g5935644803188_cont_9to1c4b_610_15_alg».proof.Proof.Gen.ReferenceIdeal.Run
import proofs.«125546_g5935644803188_cont_9to1c4b_610_15_alg».proof.Proof.Gen.ReferenceIdeal.Read
import proofs.«125546_g5935644803188_cont_9to1c4b_610_15_alg».proof.Proof.K.Data
import proofs.«125546_g5935644803188_cont_9to1c4b_610_15_alg».proof.Proof.KI.Value
import proofs.«125546_g5935644803188_cont_9to1c4b_610_15_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's array of the (agreeing) arguments. -/
theorem algebraic : Cert.algebraic_KernelIdeal_ReferenceIdeal := by
  intro m ρ m' ρ' hpre hagree
  refine ⟨fun c => (Cert.KernelIdeal.Body.argsAt m c).G, Cert.KernelIdeal.Body.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2]
  exact Cert.ReferenceIdeal.RefValue.ref_eq _ _ _ _ _ _ (Cert.KernelIdeal.Body.finite_args m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
